-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x32 : Shape := ⟨2, ![1600000, 32]⟩
abbrev S64x96 : Shape := ⟨2, ![64, 96]⟩
abbrev S64 : Shape := ⟨1, ![64]⟩
abbrev S64x128 : Shape := ⟨2, ![64, 128]⟩
abbrev S2x128 : Shape := ⟨2, ![2, 128]⟩
abbrev S2 : Shape := ⟨1, ![2]⟩
abbrev S2x1600000 : Shape := ⟨2, ![2, 1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg11 : FVec F S2 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg7 : FVec F S64 .f32) (main_arg8 : FVec F S64x128 .f32) (main_arg9 : FVec F S64 .f32) (main_arg10 : FVec F S2x128 .f32) (main_arg11 : FVec F S2 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S2x128 .f32 := Host.absf main_arg10
  let main_cst_18 : FVec F S_ .f32 := constant S_ .f32 0x7F800000#32
  let main_v50 : FVec F S2x128 .f32 := broadcastInDim S2x128 ![] bcast_S_S2x128 main_cst_18
  fn_part3 (F := F) main_arg11 main_v48 main_v49 main_v50

def fn_part1 {F : FTy → Type} [FloatOps F] (main_arg4 : FVec F S64x128 .f32) (main_arg5 : FVec F S64 .f32) (main_arg6 : FVec F S64x96 .f32) (main_arg7 : FVec F S64 .f32) (main_arg8 : FVec F S64x128 .f32) (main_arg9 : FVec F S64 .f32) (main_arg10 : FVec F S2x128 .f32) (main_arg11 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x96 .f32 := Host.absf main_arg6
  let main_cst_10 : FVec F S_ .f32 := constant S_ .f32 0x7F800000#32
  let main_v30 : FVec F S64x96 .f32 := broadcastInDim S64x96 ![] bcast_S_S64x96 main_cst_10
  let main_v31 : IVec S64x96 1 := cmpf .olt main_v29 main_v30
  let main_c_11 : IVec S_ 1 := constantI S_ 1 1#1
  let main_v32 : IVec S_ 1 := (fun x v => Host.reduce IntOp.andi x v reducesTo_S64x96_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x64 .f32) (main_arg1 : FVec F S1600000x32 .f32) (main_arg2 : FVec F S64x96 .f32) (main_arg3 : FVec F S64 .f32) (main_arg4 : FVec F S64x128 .f32) (main_arg5 : FVec F S64 .f32) (main_arg6 : FVec F S64x96 .f32) (main_arg7 : FVec F S64 .f32) (main_arg8 : FVec F S64x128 .f32) (main_arg9 : FVec F S64 .f32) (main_arg10 : FVec F S2x128 .f32) (main_arg11 : FVec F S2 .f32) (main_arg12 : IVec S2x1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x96 .f32 := Host.absf main_arg2
  let main_cst_2 : FVec F S_ .f32 := constant S_ .f32 0x7F800000#32
  let main_v10 : FVec F S64x96 .f32 := broadcastInDim S64x96 ![] bcast_S_S64x96 main_cst_2
  let main_v11 : IVec S64x96 1 := cmpf .olt main_v9 main_v10
  let main_c_3 : IVec S_ 1 := constantI S_ 1 1#1
  let main_v12 : IVec S_ 1 := (fun x v => Host.reduce IntOp.andi x v reducesTo_S64x96_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S1600000x32 : Shape := ⟨2, ![1600000, 32]⟩
abbrev S64x96 : Shape := ⟨2, ![64, 96]⟩
abbrev S64 : Shape := ⟨1, ![64]⟩
abbrev S64x128 : Shape := ⟨2, ![64, 128]⟩
abbrev S2x128 : Shape := ⟨2, ![2, 128]⟩
abbrev S2 : Shape := ⟨1, ![2]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000x32 : Shape := ⟨2, ![100000, 32]⟩
abbrev S1600000x1 : Shape := ⟨2, ![1600000, 1]⟩
abbrev S100000x1 : Shape := ⟨2, ![100000, 1]⟩
abbrev S100000x2 : Shape := ⟨2, ![100000, 2]⟩
abbrev S64x64 : Shape := ⟨2, ![64, 64]⟩
abbrev S64x32 : Shape := ⟨2, ![64, 32]⟩
abbrev S32x64 : Shape := ⟨2, ![32, 64]⟩
abbrev S1x64 : Shape := ⟨2, ![1, 64]⟩
abbrev S1600000x64 : Shape := ⟨2, ![1600000, 64]⟩
abbrev S10000x64 : Shape := ⟨2, ![10000, 64]⟩
abbrev S10000x32 : Shape := ⟨2, ![10000, 32]⟩
abbrev S10000x2 : Shape := ⟨2, ![10000, 2]⟩
abbrev S10000x1 : Shape := ⟨2, ![10000, 1]⟩
abbrev S2x64 : Shape := ⟨2, ![2, 64]⟩
abbrev S64x2 : Shape := ⟨2, ![64, 2]⟩
abbrev S64x4 : Shape := ⟨2, ![64, 4]⟩
abbrev S100000x4 : Shape := ⟨2, ![100000, 4]⟩
abbrev S10000x4 : Shape := ⟨2, ![10000, 4]⟩
abbrev S1600000x2 : Shape := ⟨2, ![1600000, 2]⟩
abbrev S1x2 : Shape := ⟨2, ![1, 2]⟩

abbrev nBuf : Space → Nat
  | .hbm => 132
  | .vmem => 33
  | .smem => 0
  | _ => 0

abbrev hbmTy0_0 (i : Nat) : BufTy := match i % 128 with
  | 0 => ⟨S100000x64, .f32⟩
  | 1 => ⟨S1600000x32, .f32⟩
  | 2 => ⟨S64x96, .f32⟩
  | 3 => ⟨S64, .f32⟩
  | 4 => ⟨S64x128, .f32⟩
  | 5 => ⟨S64, .f32⟩
  | 6 => ⟨S64x96, .f32⟩
  | 7 => ⟨S64, .f32⟩
  | 8 => ⟨S64x128, .f32⟩
  | 9 => ⟨S64, .f32⟩
  | 10 => ⟨S2x128, .f32⟩
  | 11 => ⟨S2, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S100000x32, .f32⟩
  | 19 => ⟨S1600000x1, .i32⟩
  | 20 => ⟨S100000x32, .f32⟩
  | 21 => ⟨S100000x32, .bf16⟩
  | 22 => ⟨S_, .f32⟩
  | 23 => ⟨S1600000x1, .f32⟩
  | 24 => ⟨S_, .f32⟩
  | 25 => ⟨S100000x1, .f32⟩
  | 26 => ⟨S1600000x1, .i32⟩
  | 27 => ⟨S100000x1, .f32⟩
  | 28 => ⟨S_, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S_, .f32⟩
  | 35 => ⟨S100000x1, .f32⟩
  | 36 => ⟨S100000x1, .i1⟩
  | 37 => ⟨S100000x1, .f32⟩
  | 38 => ⟨S100000x2, .f32⟩
  | 39 => ⟨S64x64, .f32⟩
  | 40 => ⟨S64x64, .f32⟩
  | 41 => ⟨S64x64, .bf16⟩
  | 42 => ⟨S64x32, .f32⟩
  | 43 => ⟨S32x64, .f32⟩
  | 44 => ⟨S32x64, .bf16⟩
  | 45 => ⟨S1x64, .f32⟩
  | 46 => ⟨S64x64, .f32⟩
  | 47 => ⟨S64x64, .f32⟩
  | 48 => ⟨S64x64, .bf16⟩
  | 49 => ⟨S64x64, .f32⟩
  | 50 => ⟨S64x64, .f32⟩
  | 51 => ⟨S64x64, .bf16⟩
  | 52 => ⟨S1x64, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S100000x64, .bf16⟩
  | 67 => ⟨S100000x64, .bf16⟩
  | 68 => ⟨S100000x64, .f32⟩
  | 69 => ⟨S_, .f32⟩
  | 70 => ⟨S100000x64, .f32⟩
  | 71 => ⟨S100000x64, .f32⟩
  | 72 => ⟨S64x64, .f32⟩
  | 73 => ⟨S64x64, .f32⟩
  | 74 => ⟨S64x64, .bf16⟩
  | 75 => ⟨S64x32, .f32⟩
  | 76 => ⟨S32x64, .f32⟩
  | 77 => ⟨S32x64, .bf16⟩
  | 78 => ⟨S1x64, .f32⟩
  | 79 => ⟨S64x64, .f32⟩
  | 80 => ⟨S64x64, .f32⟩
  | 81 => ⟨S64x64, .bf16⟩
  | 82 => ⟨S64x64, .f32⟩
  | 83 => ⟨S64x64, .f32⟩
  | 84 => ⟨S64x64, .bf16⟩
  | 85 => ⟨S1x64, .f32⟩
  | 86 => ⟨S2x64, .f32⟩
  | 87 => ⟨S64x2, .f32⟩
  | 88 => ⟨S2x64, .f32⟩
  | 89 => ⟨S64x2, .f32⟩
  | 90 => ⟨S64x4, .f32⟩
  | 91 => ⟨S64x4, .bf16⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S100000x64, .bf16⟩
  | 106 => ⟨S100000x64, .bf16⟩
  | 107 => ⟨S100000x4, .f32⟩
  | 108 => ⟨S100000x2, .f32⟩
  | 109 => ⟨S100000x2, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x2, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x2, .f32⟩
  | _ => ⟨S100000x64, .f32⟩

abbrev hbmTy0_1 (i : Nat) : BufTy := match i % 128 with
  | 0 => ⟨S1600000x2, .f32⟩
  | 1 => ⟨S1x2, .f32⟩
  | 2 => ⟨S1600000x2, .f32⟩
  | 3 => ⟨S1600000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .bf16⟩
  | .local _ .vmem, ⟨1, _⟩ => ⟨S10000x64, .bf16⟩
  | .local _ .vmem, ⟨2, _⟩ => ⟨S10000x64, .bf16⟩
  | .local _ .vmem, ⟨3, _⟩ => ⟨S10000x64, .bf16⟩
  | .local _ .vmem, ⟨4, _⟩ => ⟨S10000x32, .bf16⟩
  | .local _ .vmem, ⟨5, _⟩ => ⟨S10000x32, .bf16⟩
  | .local _ .vmem, ⟨6, _⟩ => ⟨S10000x2, .f32⟩
  | .local _ .vmem, ⟨7, _⟩ => ⟨S10000x2, .f32⟩
  | .local _ .vmem, ⟨8, _⟩ => ⟨S64x64, .bf16⟩
  | .local _ .vmem, ⟨9, _⟩ => ⟨S32x64, .bf16⟩
  | .local _ .vmem, ⟨10, _⟩ => ⟨S1x64, .f32⟩
  | .local _ .vmem, ⟨11, _⟩ => ⟨S64x64, .bf16⟩
  | .local _ .vmem, ⟨12, _⟩ => ⟨S64x64, .bf16⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S10000x64, .bf16⟩
  | .local _ .vmem, ⟨17, _⟩ => ⟨S10000x64, .bf16⟩
  | .local _ .vmem, ⟨18, _⟩ => ⟨S10000x64, .bf16⟩
  | .local _ .vmem, ⟨19, _⟩ => ⟨S10000x64, .bf16⟩
  | .local _ .vmem, ⟨20, _⟩ => ⟨S10000x32, .bf16⟩
  | .local _ .vmem, ⟨21, _⟩ => ⟨S10000x32, .bf16⟩
  | .local _ .vmem, ⟨22, _⟩ => ⟨S10000x2, .f32⟩
  | .local _ .vmem, ⟨23, _⟩ => ⟨S10000x2, .f32⟩
  | .local _ .vmem, ⟨24, _⟩ => ⟨S64x64, .bf16⟩
  | .local _ .vmem, ⟨25, _⟩ => ⟨S32x64, .bf16⟩
  | .local _ .vmem, ⟨26, _⟩ => ⟨S1x64, .f32⟩
  | .local _ .vmem, ⟨27, _⟩ => ⟨S64x64, .bf16⟩
  | .local _ .vmem, ⟨28, _⟩ => ⟨S64x64, .bf16⟩
  | .local _ .vmem, ⟨29, _⟩ => ⟨S1x64, .f32⟩
  | .local _ .vmem, ⟨30, _⟩ => ⟨S64x4, .bf16⟩
  | .local _ .vmem, ⟨31, _⟩ => ⟨S10000x4, .f32⟩
  | .local _ .vmem, ⟨32, _⟩ => ⟨S10000x4, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_8 : Ref sig .tc := ⟨.hbm, 92, rfl⟩
abbrev main_v69 : Ref sig .tc := ⟨.hbm, 93, rfl⟩
abbrev main_v70 : Ref sig .tc := ⟨.hbm, 94, rfl⟩
abbrev main_c_9 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_c_11 : Ref sig .tc := ⟨.hbm, 110, rfl⟩
abbrev main_v84 : Ref sig .tc := ⟨.hbm, 111, rfl⟩
abbrev main_v85 : Ref sig .tc := ⟨.hbm, 112, rfl⟩
abbrev main_c_12 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_c_13 : Ref sig .tc := ⟨.hbm, 119, rfl⟩
abbrev main_v91 : Ref sig .tc := ⟨.hbm, 120, rfl⟩
abbrev main_v92 : Ref sig .tc := ⟨.hbm, 121, rfl⟩
abbrev main_c_14 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg11_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x4 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S10000x4 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x32 : S_.BroadcastsInDim S100000x32 (![] : Fin 0 → Fin S100000x32.rank)
  bcast_S1600000_S1600000x1_0 : S1600000.BroadcastsInDim S1600000x1 (![0] : Fin 1 → Fin S1600000x1.rank)
  bitsLt_bf16_f32 : FTy.bits .bf16 < FTy.bits .f32
  bcast_S_S1600000x1 : S_.BroadcastsInDim S1600000x1 (![] : Fin 0 → Fin S1600000x1.rank)
  bcast_S_S100000x1 : S_.BroadcastsInDim S100000x1 (![] : Fin 0 → Fin S100000x1.rank)
  concatenates_S100000x1_S100000x1_S100000x2_d1 : Shape.Concatenates [S100000x1, S100000x1] S100000x2 1
  slices_S64x96_S64x64_0_0 : S64x96.Slices ![0, 0] S64x64
  transposes_S64x64_S64x64_1_0 : S64x64.Transposes [1, 0] S64x64
  slices_S64x96_S64x32_0_64 : S64x96.Slices ![0, 64] S64x32
  transposes_S64x32_S32x64_1_0 : S64x32.Transposes [1, 0] S32x64
  shapeCasts_S64_S1x64 : S64.ShapeCasts S1x64
  slices_S64x128_S64x64_0_0 : S64x128.Slices ![0, 0] S64x64
  slices_S64x128_S64x64_0_64 : S64x128.Slices ![0, 64] S64x64
  bcast_S_S1600000 : S_.BroadcastsInDim S1600000 (![] : Fin 0 → Fin S1600000.rank)
  bcast_S_S100000x64 : S_.BroadcastsInDim S100000x64 (![] : Fin 0 → Fin S100000x64.rank)
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  slices_S10000x2_o0_0_S10000x1 : S10000x2.Slices ![0, 0] S10000x1
  slices_S10000x2_o0_1_S10000x1 : S10000x2.Slices ![0, 1] S10000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S2x128_S2x64_0_0 : S2x128.Slices ![0, 0] S2x64
  transposes_S2x64_S64x2_1_0 : S2x64.Transposes [1, 0] S64x2
  slices_S2x128_S2x64_0_64 : S2x128.Slices ![0, 64] S2x64
  concatenates_S64x2_S64x2_S64x4_d1 : Shape.Concatenates [S64x2, S64x2] S64x4 1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S10000x4_S10000x4_0_0 : ∀ a, (![0, 0] : Fin 2 → Nat) a + S10000x4.size a ≤ S10000x4.size a
  h_S10000x4 : 0 < S10000x4.numel
  slices_S100000x4_S100000x2_0_0 : S100000x4.Slices ![0, 0] S100000x2
  slices_S100000x4_S100000x2_0_2 : S100000x4.Slices ![0, 2] S100000x2
  shapeCasts_S2_S1x2 : S2.ShapeCasts S1x2
  bcast_S1x2_S1600000x2_0_1 : S1x2.BroadcastsInDim S1600000x2 (![0, 1] : Fin 2 → Fin S1600000x2.rank)
  scatter_S100000x32_S1600000x1_S1600000x32_1_0_0_1_wf : ScatterDims.WF S100000x32 S1600000x1 S1600000x32 [1] [0] [0] 1
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x32_S32x64_S10000x64_1_0_0_1_n_n_wf : DotDims.WF S10000x32 S32x64 S10000x64 [1] [0] [0] [1] [] []
  dot_S10000x64_S64x4_S10000x4_1_0_0_1_n_n_wf : DotDims.WF S10000x64 S64x4 S10000x4 [1] [0] [0] [1] [] []
  gather_S100000x2_S1600000x1_S1600000x2_1_0_n_n_0_1_12_wf : GatherDims.WF S100000x2 S1600000x1 S1600000x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .bf16 = 32 ∨ (Rect.block (s := S100000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .bf16 = 32 ∨ (Rect.block (s := S100000x64) S10000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .bf16 = 32 ∨ (Rect.block (s := S100000x32) S10000x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x2.size a ≤ S100000x2.size a
  hwx0_3 : ∀ i : grid0.Coords, EltTy.bits .f32 = 32 ∨ (Rect.block (s := S100000x2) S10000x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x64.size a ≤ S32x64.size a
  hwx0_5 : ∀ i : grid0.Coords, EltTy.bits .bf16 = 32 ∨ (Rect.block (s := S32x64) S32x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x64.size a ≤ S100000x64.size a
  hwx0_10 : ∀ i : grid0.Coords, EltTy.bits .f32 = 32 ∨ (Rect.block (s := S100000x64) S10000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .bf16 = 32 ∨ (Rect.block (s := S100000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .bf16 = 32 ∨ (Rect.block (s := S100000x64) S10000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .bf16 = 32 ∨ (Rect.block (s := S100000x32) S10000x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x2.size a ≤ S100000x2.size a
  hwx1_3 : ∀ i : grid1.Coords, EltTy.bits .f32 = 32 ∨ (Rect.block (s := S100000x2) S10000x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .bf16 = 32 ∨ (Rect.block (s := S32x64) S32x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .bf16 = 32 ∨ (Rect.block (s := S64x64) S64x64.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .bf16 = 32 ∨ (Rect.block (s := S64x64) S64x64.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x4.size a ≤ S64x4.size a
  hwx1_10 : ∀ i : grid1.Coords, EltTy.bits .bf16 = 32 ∨ (Rect.block (s := S64x4) S64x4.size (cc1_transform_10 i) (hinb1_10 i)).WholeWords (EltTy.packing .bf16)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S10000x4.size a ≤ S100000x4.size a
  hwx1_11 : ∀ i : grid1.Coords, EltTy.bits .f32 = 32 ∨ (Rect.block (s := S100000x4) S10000x4.size (cc1_transform_11 i) (hinb1_11 i)).WholeWords (EltTy.packing .f32)

variable [Facts₀]

def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x4_S10000x4_1_0_0_1_n_n : DotDims S10000x64 S64x4 S10000x4 where
  lhsContracting := [1]
  rhsContracting := [0]
  lhsNonContracting := [0]
  rhsNonContracting := [1]
  lhsBatch := []
  rhsBatch := []
  wf := dot_S10000x64_S64x4_S10000x4_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf

abbrev win0_0 : Pipeline.Window sig grid0 :=
  Pipeline.Window.ofSpec (Memref.whole main_v45) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S10000x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v46) S10000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v80) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S10000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x2.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v54) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v58) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v62) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v68) S64x4.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v81) S10000x4.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x32 : Shape := ⟨2, ![1600000, 32]⟩
abbrev S64x96 : Shape := ⟨2, ![64, 96]⟩
abbrev S64 : Shape := ⟨1, ![64]⟩
abbrev S64x128 : Shape := ⟨2, ![64, 128]⟩
abbrev S2x128 : Shape := ⟨2, ![2, 128]⟩
abbrev S2 : Shape := ⟨1, ![2]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x96 : Shape := ⟨2, ![1600000, 96]⟩
abbrev S96x64 : Shape := ⟨2, ![96, 64]⟩
abbrev S1x64 : Shape := ⟨2, ![1, 64]⟩
abbrev S100000x1 : Shape := ⟨2, ![100000, 1]⟩
abbrev S100000x128 : Shape := ⟨2, ![100000, 128]⟩
abbrev S128x64 : Shape := ⟨2, ![128, 64]⟩
abbrev S1600000x128 : Shape := ⟨2, ![1600000, 128]⟩
abbrev S128x2 : Shape := ⟨2, ![128, 2]⟩
abbrev S1600000x2 : Shape := ⟨2, ![1600000, 2]⟩
abbrev S1x2 : Shape := ⟨2, ![1, 2]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S1600000x32, .f32⟩
  | 2 => ⟨S64x96, .f32⟩
  | 3 => ⟨S64, .f32⟩
  | 4 => ⟨S64x128, .f32⟩
  | 5 => ⟨S64, .f32⟩
  | 6 => ⟨S64x96, .f32⟩
  | 7 => ⟨S64, .f32⟩
  | 8 => ⟨S64x128, .f32⟩
  | 9 => ⟨S64, .f32⟩
  | 10 => ⟨S2x128, .f32⟩
  | 11 => ⟨S2, .f32⟩
  | 12 => ⟨S2x1600000, .i32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x64, .f32⟩
  | 26 => ⟨S1600000x96, .f32⟩
  | 27 => ⟨S96x64, .f32⟩
  | 28 => ⟨S1600000x64, .f32⟩
  | 29 => ⟨S1x64, .f32⟩
  | 30 => ⟨S1600000x64, .f32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S_, .f32⟩
  | 37 => ⟨S1600000x1, .f32⟩
  | 38 => ⟨S_, .f32⟩
  | 39 => ⟨S100000x1, .f32⟩
  | 40 => ⟨S1600000x1, .i32⟩
  | 41 => ⟨S100000x1, .f32⟩
  | 42 => ⟨S_, .f32⟩
  | 43 => ⟨S100000x1, .f32⟩
  | 44 => ⟨S100000x1, .f32⟩
  | 45 => ⟨S100000x64, .f32⟩
  | 46 => ⟨S100000x64, .f32⟩
  | 47 => ⟨S100000x128, .f32⟩
  | 48 => ⟨S128x64, .f32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S100000x64, .f32⟩
  | 58 => ⟨S100000x64, .f32⟩
  | 59 => ⟨S1x1600000, .i32⟩
  | 60 => ⟨S1600000, .i32⟩
  | 61 => ⟨S1x1600000, .i32⟩
  | 62 => ⟨S1600000, .i32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x64, .f32⟩
  | 72 => ⟨S1600000x96, .f32⟩
  | 73 => ⟨S96x64, .f32⟩
  | 74 => ⟨S1600000x64, .f32⟩
  | 75 => ⟨S1x64, .f32⟩
  | 76 => ⟨S1600000x64, .f32⟩
  | 77 => ⟨S1600000x64, .f32⟩
  | 78 => ⟨S_, .f32⟩
  | 79 => ⟨S100000x64, .f32⟩
  | 80 => ⟨S1600000x1, .i32⟩
  | 81 => ⟨S100000x64, .f32⟩
  | 82 => ⟨S_, .f32⟩
  | 83 => ⟨S1600000x1, .f32⟩
  | 84 => ⟨S_, .f32⟩
  | 85 => ⟨S100000x1, .f32⟩
  | 86 => ⟨S1600000x1, .i32⟩
  | 87 => ⟨S100000x1, .f32⟩
  | 88 => ⟨S_, .f32⟩
  | 89 => ⟨S100000x1, .f32⟩
  | 90 => ⟨S100000x1, .f32⟩
  | 91 => ⟨S100000x64, .f32⟩
  | 92 => ⟨S100000x64, .f32⟩
  | 93 => ⟨S100000x128, .f32⟩
  | 94 => ⟨S128x64, .f32⟩
  | 95 => ⟨S100000x64, .f32⟩
  | 96 => ⟨S1x64, .f32⟩
  | 97 => ⟨S100000x64, .f32⟩
  | 98 => ⟨S100000x64, .f32⟩
  | 99 => ⟨S_, .f32⟩
  | 100 => ⟨S100000x64, .f32⟩
  | 101 => ⟨S100000x64, .f32⟩
  | 102 => ⟨S1x1600000, .i32⟩
  | 103 => ⟨S1600000, .i32⟩
  | 104 => ⟨S1x1600000, .i32⟩
  | 105 => ⟨S1600000, .i32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .f32⟩
  | 124 => ⟨S1600000x128, .f32⟩
  | 125 => ⟨S128x2, .f32⟩
  | 126 => ⟨S1600000x2, .f32⟩
  | 127 => ⟨S1x2, .f32⟩
  | _ => ⟨S100000x64, .f32⟩

abbrev hbmTy0_1 (i : Nat) : BufTy := match i % 128 with
  | 0 => ⟨S1600000x2, .f32⟩
  | 1 => ⟨S1600000x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call0_cst : Ref sig .tc := ⟨.hbm, 53, rfl⟩
abbrev main_call0_v0 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_4 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_9 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call2_cst : Ref sig .tc := ⟨.hbm, 99, rfl⟩
abbrev main_call2_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_10 : Ref sig .tc := ⟨.hbm, 106, rfl⟩
abbrev main_v75 : Ref sig .tc := ⟨.hbm, 107, rfl⟩
abbrev main_v76 : Ref sig .tc := ⟨.hbm, 108, rfl⟩
abbrev main_c_11 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_12 : Ref sig .tc := ⟨.hbm, 115, rfl⟩
abbrev main_v82 : Ref sig .tc := ⟨.hbm, 116, rfl⟩
abbrev main_v83 : Ref sig .tc := ⟨.hbm, 117, rfl⟩
abbrev main_c_13 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x32_S1600000x96_d1 : Shape.Concatenates [S1600000x64, S1600000x32] S1600000x96 1
  transposes_S64x96_S96x64_1_0 : S64x96.Transposes [1, 0] S96x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S1x64_S100000x64_0_1 : S1x64.BroadcastsInDim S100000x64 (![0, 1] : Fin 2 → Fin S100000x64.rank)
  concatenates_S1600000x64_S1600000x64_S1600000x128_d1 : Shape.Concatenates [S1600000x64, S1600000x64] S1600000x128 1
  transposes_S2x128_S128x2_1_0 : S2x128.Transposes [1, 0] S128x2
  bcast_S2_S1x2_1 : S2.BroadcastsInDim S1x2 (![1] : Fin 1 → Fin S1x2.rank)
  bcast_S1x2_S1600000x2_0_1 : S1x2.BroadcastsInDim S1600000x2 (![0, 1] : Fin 2 → Fin S1600000x2.rank)
  gather_S100000x64_S1600000x1_S1600000x64_1_0_n_n_0_1_164_wf : GatherDims.WF S100000x64 S1600000x1 S1600000x64 [1] [0] [] [0] [] 1 ![1, 64]
  dot_S1600000x96_S96x64_S1600000x64_1_0_0_1_n_n_wf : DotDims.WF S1600000x96 S96x64 S1600000x64 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []
  dot_S1600000x128_S128x2_S1600000x2_1_0_0_1_n_n_wf : DotDims.WF S1600000x128 S128x2 S1600000x2 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x128_S128x2_S1600000x2_1_0_0_1_n_n : DotDims S1600000x128 S128x2 S1600000x2 where
  lhsContracting := [1]
  rhsContracting := [0]
  lhsNonContracting := [0]
  rhsNonContracting := [1]
  lhsBatch := []
  rhsBatch := []
  wf := dot_S1600000x128_S128x2_S1600000x2_1_0_0_1_n_n_wf

class Facts : Prop extends Facts₀ where

variable [Facts]
-- ==== Proof.Spec.lean ====
/-
  Two message-passing layers over a graph and a linear edge read-out, written twice over the extended reals.

  A graph has `N` nodes and `E` edges. Edge `e` reads its source features at node `ρs e`; its message is added to
  every node `n` with `dI e = n` (an edge whose `dI` is no node number is dropped). `cnt n` is the number of edges
  added to `n`, and the aggregate is the sum of messages divided by `max (cnt n) 1`.

  THE DIRECT FORM (`ref…`): per edge, the message is an affine map of the source row and the edge row joined; messages
  are summed per destination, divided by the clamped count, joined to the node's own row, mapped affinely and clamped
  below at zero. The read-out joins the two endpoint rows of an edge and maps them affinely.

  THE FACTORED FORM (`ker…`): the source rows and the edge rows are summed per destination FIRST, then mapped by the two
  halves of the message matrix, scaled by the reciprocal of the clamped count, and the bias is added where the count is
  positive. The read-out maps every node row by both halves of the read-out matrix once and adds, per edge, the first
  half's value at `ρs e` to the second half's at `ρd e`.
-/
import Idealize.ShloMosaic.PureOps.Ideal

noncomputable section

open scoped BigOperators

namespace Cert.Sage

open Idealize.ShloMosaic

/-- A matrix as a function of its row and its column. -/
abbrev Mat (r c : ℕ) := Fin r → Fin c → EReal

variable {N E : ℕ}

/-- Two rows joined end to end. -/
def cat {a b c : ℕ} (h : a + b = c) (A : Fin a → EReal) (B : Fin b → EReal) (k : Fin c) : EReal :=
  if hk : k.val < a then A ⟨k.val, hk⟩ else B ⟨k.val - a, by omega⟩

/-- Column `k` of the left half of a joined axis, and of the right half. -/
def inl {a c : ℕ} (h : a ≤ c) (k : Fin a) : Fin c := ⟨k.val, lt_of_lt_of_le k.isLt h⟩
def inr (a : ℕ) {b c : ℕ} (h : a + b ≤ c) (k : Fin b) : Fin c := ⟨a + k.val, by have := k.isLt; omega⟩

/-- Rows of `U` summed per destination: entry `(n, j)` is the sum of `U e j` over the edges `e` sent to `n`. -/
def scat {C : ℕ} (dI : Fin E → ℤ) (U : Fin E → Fin C → EReal) (n : Fin N) (j : Fin C) : EReal :=
  ∑ e : Fin E, if dI e = (n.val : ℤ) then U e j else 0

/-- The number of edges sent to `n`. -/
def cnt (dI : Fin E → ℤ) (n : Fin N) : EReal :=
  ∑ e : Fin E, if dI e = (n.val : ℤ) then (1 : EReal) else 0

/-- The count clamped below at one, its reciprocal, and the indicator of a positive count. -/
def cntc (dI : Fin E → ℤ) (n : Fin N) : EReal := max (cnt dI n) 1
def invc (dI : Fin E → ℤ) (n : Fin N) : EReal := Ideal.div 1 (cntc dI n)
def maskc (dI : Fin E → ℤ) (n : Fin N) : EReal := (((Ideal.cmp .ogt (cnt dI n) 0).toNat : ℝ) : EReal)

/-! ## The direct form -/

def refMsg (ρs : Fin E → Fin N) (H : Mat N 64) (EA : Mat E 32) (Wm : Mat 64 96) (bm : Fin 64 → EReal) : Mat E 64 :=
  fun e j => (∑ k : Fin 96, cat (a := 64) (b := 32) rfl (H (ρs e)) (EA e) k * Wm j k) + bm j

def refAggr (ρs : Fin E → Fin N) (dI : Fin E → ℤ) (H : Mat N 64) (EA : Mat E 32) (Wm : Mat 64 96) (bm : Fin 64 → EReal) :
    Mat N 64 :=
  fun n j => Ideal.div (scat dI (refMsg ρs H EA Wm bm) n j) (cntc dI n)

def refLayer (ρs : Fin E → Fin N) (dI : Fin E → ℤ) (H : Mat N 64) (EA : Mat E 32) (Wm : Mat 64 96) (bm : Fin 64 → EReal)
    (Wa : Mat 64 128) (ba : Fin 64 → EReal) : Mat N 64 :=
  fun n j => max ((∑ k : Fin 128, cat (a := 64) (b := 64) rfl (H n) (refAggr ρs dI H EA Wm bm n) k * Wa j k) + ba j) 0

def refRead (ρs ρd : Fin E → Fin N) (Z : Mat N 64) (Wp : Mat 2 128) (bp : Fin 2 → EReal) : Mat E 2 :=
  fun e o => (∑ k : Fin 128, cat (a := 64) (b := 64) rfl (Z (ρs e)) (Z (ρd e)) k * Wp o k) + bp o

def refOut (ρs ρd : Fin E → Fin N) (dI : Fin E → ℤ) (X : Mat N 64) (EA : Mat E 32)
    (W1m : Mat 64 96) (b1m : Fin 64 → EReal) (W1a : Mat 64 128) (b1a : Fin 64 → EReal)
    (W2m : Mat 64 96) (b2m : Fin 64 → EReal) (W2a : Mat 64 128) (b2a : Fin 64 → EReal)
    (Wp : Mat 2 128) (bp : Fin 2 → EReal) : Mat E 2 :=
  refRead ρs ρd
    (refLayer ρs dI (fun n j => max (refLayer ρs dI X EA W1m b1m W1a b1a n j) 0) EA W2m b2m W2a b2a) Wp bp

/-! ## The factored form, on the arrays one node tile is handed -/

def bodyAggr (sumx : Mat N 64) (sume : Mat N 32) (inv mask : Fin N → EReal) (wmx : Mat 64 64) (wme : Mat 32 64)
    (bm : Fin 64 → EReal) : Mat N 64 :=
  fun n j => ((∑ k : Fin 64, sumx n k * wmx k j) + (∑ k : Fin 32, sume n k * wme k j)) * inv n + bm j * mask n

def bodyH (feat sumx : Mat N 64) (sume : Mat N 32) (inv mask : Fin N → EReal) (wmx : Mat 64 64) (wme : Mat 32 64)
    (bm : Fin 64 → EReal) (wax waa : Mat 64 64) (ba : Fin 64 → EReal) : Mat N 64 :=
  fun n j => max (((∑ k : Fin 64, feat n k * wax k j)
    + (∑ k : Fin 64, bodyAggr sumx sume inv mask wmx wme bm n k * waa k j)) + ba j) 0

def bodyAC (feat sumx : Mat N 64) (sume : Mat N 32) (inv mask : Fin N → EReal) (wmx : Mat 64 64) (wme : Mat 32 64)
    (bm : Fin 64 → EReal) (wax waa : Mat 64 64) (ba : Fin 64 → EReal) (wp : Mat 64 4) : Mat N 4 :=
  fun n q => ∑ k : Fin 64, bodyH feat sumx sume inv mask wmx wme bm wax waa ba n k * wp k q

/-! ## The factored form, on the inputs -/

def kerLayer (ρs : Fin E → Fin N) (dI : Fin E → ℤ) (H : Mat N 64) (EA : Mat E 32) (Wm : Mat 64 96) (bm : Fin 64 → EReal)
    (Wa : Mat 64 128) (ba : Fin 64 → EReal) : Mat N 64 :=
  bodyH H (scat dI fun e => H (ρs e)) (scat dI EA) (invc dI) (maskc dI)
    (fun k j => Wm j (inl (by decide) k)) (fun k j => Wm j (inr 64 (by decide) k)) bm
    (fun k j => Wa j (inl (by decide) k)) (fun k j => Wa j (inr 64 (by decide) k)) ba

/-- The read-out matrix's two halves side by side: columns 0, 1 the first half's rows, columns 2, 3 the second's. -/
def wpCat (Wp : Mat 2 128) : Mat 64 4 :=
  fun k q => cat (a := 2) (b := 2) rfl (fun o => Wp o (inl (by decide) k)) (fun o => Wp o (inr 64 (by decide) k)) q

def kerAC (ρs : Fin E → Fin N) (dI : Fin E → ℤ) (H : Mat N 64) (EA : Mat E 32) (Wm : Mat 64 96) (bm : Fin 64 → EReal)
    (Wa : Mat 64 128) (ba : Fin 64 → EReal) (Wp : Mat 2 128) : Mat N 4 :=
  bodyAC H (scat dI fun e => H (ρs e)) (scat dI EA) (invc dI) (maskc dI)
    (fun k j => Wm j (inl (by decide) k)) (fun k j => Wm j (inr 64 (by decide) k)) bm
    (fun k j => Wa j (inl (by decide) k)) (fun k j => Wa j (inr 64 (by decide) k)) ba (wpCat Wp)

def kerOut (ρs ρd : Fin E → Fin N) (dI : Fin E → ℤ) (X : Mat N 64) (EA : Mat E 32)
    (W1m : Mat 64 96) (b1m : Fin 64 → EReal) (W1a : Mat 64 128) (b1a : Fin 64 → EReal)
    (W2m : Mat 64 96) (b2m : Fin 64 → EReal) (W2a : Mat 64 128) (b2a : Fin 64 → EReal)
    (Wp : Mat 2 128) (bp : Fin 2 → EReal) : Mat E 2 :=
  fun e o =>
    (kerAC ρs dI (fun n j => max (kerLayer ρs dI X EA W1m b1m W1a b1a n j) 0) EA W2m b2m W2a b2a Wp (ρs e) (inl (by decide) o)
      + kerAC ρs dI (fun n j => max (kerLayer ρs dI X EA W1m b1m W1a b1a n j) 0) EA W2m b2m W2a b2a Wp (ρd e) (inr 2 (by decide) o))
    + bp o

/-! ## The two float words the programs spell -/

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

end Cert.Sage

end
-- ==== Proof.LibScatterRows.lean ====
/-
  A ROW SCATTER-ADD read at an entry, over the extended reals.

  The operand is an `R × C` matrix, the scatter indices an `N × 1` column of words (one row index per update
  row, read signed and not clamped) and the updates an `N × C` matrix: update row `b` is added, entry by
  entry, to operand row `idx[b]` when that lies in `[0, R)`, and is dropped otherwise. At entry `(r, h)` the
  exact result is therefore the operand's entry plus the sum of `upd[b, h]` over the rows `b` whose index word,
  read signed, is `r`. A dropped row has an index that is no `r`, so it enters no entry's sum.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- The dimension numbers of a row scatter: the updates' axis 1 is the window, operand axis 0 is inserted and is
    the one the indices address, the index vector is the indices' axis 1. -/
abbrev rowDims (R C N : ℕ)
    (wf : ScatterDims.WF (⟨2, ![R, C]⟩ : Shape) (⟨2, ![N, 1]⟩ : Shape) (⟨2, ![N, C]⟩ : Shape) [1] [0] [0] 1) :
    ScatterDims (⟨2, ![R, C]⟩ : Shape) (⟨2, ![N, 1]⟩ : Shape) (⟨2, ![N, C]⟩ : Shape) where
  updateWindowDims := [1]
  insertedWindowDims := [0]
  scatterDimsToOperandDims := [0]
  indexVectorDim := 1
  wf := wf

/-! ### The literal record, field by field

The operand's kept axes are `[1]`; the scatter-indices index an update index reads is its row with a `0` on the
index vector's axis; so the window starts at the signed index word on axis 0 and at `0` on axis 1, and the window
coordinate is `0` on axis 0 and the update's column on axis 1. -/

section Fields

variable {R C N w : ℕ}
  (wf : ScatterDims.WF (⟨2, ![R, C]⟩ : Shape) (⟨2, ![N, 1]⟩ : Shape) (⟨2, ![N, C]⟩ : Shape) [1] [0] [0] 1)

/-- The operand's axes that are not inserted: axis 1 alone. -/
theorem sKept_rows : (rowDims R C N wf).sKept = ([1] : List (Fin 2)) := by
  show (List.finRange 2).filter (fun a : Fin 2 => decide (a ∉ ([0] : List (Fin 2)))) = [1]
  decide

/-- Update index `j` reads its start index at row `j 0` of the index column. -/
theorem siIdx_rows (j : (⟨2, ![N, C]⟩ : Shape).Idx) (c : Fin (rowDims R C N wf).scatterDimsToOperandDims.length) :
    (rowDims R C N wf).siIdx j c = ix2 (j 0) (0 : Fin 1) := by
  funext a
  match a with
  | ⟨0, _⟩ =>
    unfold ScatterDims.siIdx
    rw [dif_neg (show ¬ (0 : ℕ) = 1 by decide)]
    apply Fin.ext
    rfl
  | ⟨1, _⟩ =>
    unfold ScatterDims.siIdx
    rw [dif_pos (show (1 : ℕ) = 1 from rfl)]
    apply Fin.ext
    have hc : c.val < 1 := c.isLt
    show c.val = 0
    omega

/-- On axis 0 the window starts at the index word of the update's row, read signed. -/
theorem start_zero (j : (⟨2, ![N, C]⟩ : Shape).Idx) (idx : IVec (⟨2, ![N, 1]⟩ : Shape) w) :
    (rowDims R C N wf).start j idx (0 : Fin 2) = (idx (ix2 (j 0) (0 : Fin 1))).toInt := by
  unfold ScatterDims.start
  rw [dif_pos (show (0 : Fin 2) ∈ ([0] : List (Fin 2)) by decide)]
  rw [siIdx_rows]
  rfl

/-- On axis 1, which the indices do not address, the window starts at `0`. -/
theorem start_one (j : (⟨2, ![N, C]⟩ : Shape).Idx) (idx : IVec (⟨2, ![N, 1]⟩ : Shape) w) :
    (rowDims R C N wf).start j idx (1 : Fin 2) = 0 := by
  unfold ScatterDims.start
  rw [dif_neg (show ¬ (1 : Fin 2) ∈ ([0] : List (Fin 2)) by decide)]

/-- Axis 0 is inserted: its window coordinate is `0`. -/
theorem window_zero (j : (⟨2, ![N, C]⟩ : Shape).Idx) :
    (rowDims R C N wf).window j (0 : Fin 2) = 0 := by
  unfold ScatterDims.window
  rw [dif_neg (by rw [sKept_rows]; show ¬ (0 : Fin 2) ∈ ([1] : List (Fin 2)); decide)]

/-- Axis 1 carries the update's column. -/
theorem window_one (j : (⟨2, ![N, C]⟩ : Shape).Idx) :
    (rowDims R C N wf).window j (1 : Fin 2) = (j 1).val := by
  unfold ScatterDims.window
  rw [dif_pos (by rw [sKept_rows]; show (1 : Fin 2) ∈ ([1] : List (Fin 2)); decide)]
  rfl

end Fields

/-- Update entry `(b, f)` lands on operand entry `(r, h)` exactly when the index word of row `b`, read signed, is
    `r` and the columns agree. -/
theorem resultIdx?_rows {R C N w : ℕ}
    (wf : ScatterDims.WF (⟨2, ![R, C]⟩ : Shape) (⟨2, ![N, 1]⟩ : Shape) (⟨2, ![N, C]⟩ : Shape) [1] [0] [0] 1)
    (idx : IVec (⟨2, ![N, 1]⟩ : Shape) w) (b : Fin N) (f : Fin C) (r : Fin R) (h : Fin C) :
    (rowDims R C N wf).resultIdx? (ix2 b f) idx = some (ix2 r h)
      ↔ (idx (ix2 b (0 : Fin 1))).toInt = (r.val : ℤ) ∧ f = h := by
  have s0 : (rowDims R C N wf).start (ix2 b f) idx (0 : Fin 2) = (idx (ix2 b (0 : Fin 1))).toInt :=
    start_zero wf (ix2 b f) idx
  have s1 := start_one wf (ix2 b f) idx
  have w0 := window_zero wf (ix2 b f)
  have w1 : (rowDims R C N wf).window (ix2 b f) (1 : Fin 2) = f.val := window_one wf (ix2 b f)
  have hr : r.val < R := r.isLt
  have hh : h.val < C := h.isLt
  have hf : f.val < C := f.isLt
  unfold ScatterDims.resultIdx?
  constructor
  · -- an update that lands at `(r, h)` is inside the operand; read the landing index axis by axis
    intro hres
    split at hres
    · rename_i hb
      have e := Option.some.inj hres
      have e0 : ((rowDims R C N wf).start (ix2 b f) idx (0 : Fin 2)
          + ((rowDims R C N wf).window (ix2 b f) (0 : Fin 2) : ℤ)).toNat = r.val :=
        congrArg (fun i : (⟨2, ![R, C]⟩ : Shape).Idx => (i 0).val) e
      have e1 : ((rowDims R C N wf).start (ix2 b f) idx (1 : Fin 2)
          + ((rowDims R C N wf).window (ix2 b f) (1 : Fin 2) : ℤ)).toNat = h.val :=
        congrArg (fun i : (⟨2, ![R, C]⟩ : Shape).Idx => (i 1).val) e
      have h0 : 0 ≤ (rowDims R C N wf).start (ix2 b f) idx (0 : Fin 2)
          + ((rowDims R C N wf).window (ix2 b f) (0 : Fin 2) : ℤ) := (hb 0).1
      rw [s0, w0] at e0 h0
      rw [s1, w1] at e1
      refine ⟨by omega, Fin.ext (by omega)⟩
    · exact absurd hres (by simp)
  · -- conversely the index word `r` and the column `f` are inside the operand, and land at `(r, f)`
    rintro ⟨hi, rfl⟩
    have H : ∀ a : Fin 2, 0 ≤ (rowDims R C N wf).start (ix2 b f) idx a + ((rowDims R C N wf).window (ix2 b f) a : ℤ)
        ∧ (rowDims R C N wf).start (ix2 b f) idx a + ((rowDims R C N wf).window (ix2 b f) a : ℤ)
          < ((⟨2, ![R, C]⟩ : Shape).size a : ℤ) := by
      refine Fin.forall_fin_two.2 ⟨?_, ?_⟩
      · rw [s0, w0, hi]
        show 0 ≤ (r.val : ℤ) + ((0 : ℕ) : ℤ) ∧ (r.val : ℤ) + ((0 : ℕ) : ℤ) < (R : ℤ)
        omega
      · rw [s1, w1]
        show 0 ≤ (0 : ℤ) + (f.val : ℤ) ∧ (0 : ℤ) + (f.val : ℤ) < (C : ℤ)
        omega
    rw [dif_pos H]
    refine congrArg some (funext fun a => ?_)
    match a with
    | ⟨0, _⟩ =>
      apply Fin.ext
      show ((rowDims R C N wf).start (ix2 b f) idx (0 : Fin 2)
          + ((rowDims R C N wf).window (ix2 b f) (0 : Fin 2) : ℤ)).toNat = r.val
      rw [s0, w0, hi]
      omega
    | ⟨1, _⟩ =>
      apply Fin.ext
      show ((rowDims R C N wf).start (ix2 b f) idx (1 : Fin 2)
          + ((rowDims R C N wf).window (ix2 b f) (1 : Fin 2) : ℤ)).toNat = f.val
      rw [s1, w1]
      omega

/-- The exact row scatter-add at entry `(r, h)`. -/
theorem hostScatterAdd_rows {R C N w : ℕ}
    (wf : ScatterDims.WF (⟨2, ![R, C]⟩ : Shape) (⟨2, ![N, 1]⟩ : Shape) (⟨2, ![N, C]⟩ : Shape) [1] [0] [0] 1)
    (x : (⟨2, ![R, C]⟩ : Shape).Idx → EReal) (idx : IVec (⟨2, ![N, 1]⟩ : Shape) w)
    (upd : (⟨2, ![N, C]⟩ : Shape).Idx → EReal) (r : Fin R) (h : Fin C) :
    Ideal.hostScatterAdd (rowDims R C N wf) x idx upd (ix2 r h)
      = x (ix2 r h) + ∑ b : Fin N, if (idx (ix2 b (0 : Fin 1))).toInt = (r.val : ℤ) then upd (ix2 b h) else 0 := by
  unfold Ideal.hostScatterAdd
  refine congrArg (x (ix2 r h) + ·) ?_
  -- the filtered sum over update entries, as a double sum over update rows and columns
  rw [Finset.sum_filter, sum_idx2]
  refine Finset.sum_congr rfl (fun b _ => ?_)
  by_cases hi : (idx (ix2 b (0 : Fin 1))).toInt = (r.val : ℤ)
  · -- row `b` addresses `r`: of its columns exactly `h` lands at `(r, h)`
    rw [if_pos hi]
    have e : ∀ f : Fin C, (if (rowDims R C N wf).resultIdx? (ix2 b f) idx = some (ix2 r h) then upd (ix2 b f) else 0)
        = if f = h then upd (ix2 b f) else 0 := by
      intro f
      refine if_congr ?_ rfl rfl
      rw [resultIdx?_rows wf idx b f r h]
      exact ⟨fun p => p.2, fun p => ⟨hi, p⟩⟩
    rw [Finset.sum_congr rfl (fun f _ => e f), Finset.sum_ite_eq' Finset.univ h (fun f => upd (ix2 b f)),
      if_pos (Finset.mem_univ h)]
  · -- row `b` addresses another row, or none: nothing of it lands at `(r, h)`
    rw [if_neg hi]
    refine Finset.sum_eq_zero (fun f _ => ?_)
    rw [if_neg]
    rw [resultIdx?_rows wf idx b f r h]
    exact fun p => hi p.1

end Idealize.ShloMosaic.ScatterRows

end
-- ==== Proof.LibGatherRow.lean ====
/-
  `stablehlo.gather` of whole ROWS of a rank-2 table at a column of start indices, read at an index.

  What `table[idx]` of a table `[N, D]` at an integer vector `idx : [R]` lowers to: a gather with offset_dims `[1]`,
  collapsed_slice_dims `[0]`, start_index_map `[0]`, slice_sizes `[1, D]` and index_vector_dim 1 over the indices as
  `[R, 1]`. Result element `(e, j)` is the table's entry in column `j` of the row whose number is the start index
  `idx[e, 0]` read as a signed integer and clamped into `[0, N − 1]` (every start index is clamped so that the slice
  fits). The row read depends on the indices and on `e` only, never on the table: a gather of rows commutes with every
  function applied row by row.
-/
import Idealize.ShloMosaic.PureOps
import Idealize.ShloMosaic.Lib.ValueIdx

noncomputable section

namespace Idealize.ShloMosaic.GatherRow

open Idealize.ShloMosaic Idealize.ShloMosaic.ValueIdx

variable {α : Type}

/-- Those dimension numbers for a table `[N, D]`, start indices `[R, 1]` and result `[R, D]`; their conditions are
    decided on a program's literal shapes. -/
abbrev dims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The table row that result row `e` reads: the start index `idx[e, 0]`, signed, clamped into `[0, N − 1]`. -/
def sel {N R w : Nat} (hN : 0 < N) (idx : IVec ⟨2, ![R, 1]⟩ w) (e : Fin R) : Fin N :=
  ⟨min (idx (ix2 e (0 : Fin 1))).toInt.toNat (N - 1), by omega⟩

/-- The start-indices index at which result index `y` reads its one start component: `[y 0, 0]` (the batch
    coordinate of `y` on axis 0, and `0` on the size-1 index-vector axis). -/
theorem siIdx_row {N D R : Nat}
    (wf : GatherDims.WF ⟨2, ![N, D]⟩ ⟨2, ![R, 1]⟩ ⟨2, ![R, D]⟩ [1] [0] [] [0] [] 1 ![1, D])
    (y : (⟨2, ![R, D]⟩ : Shape).Idx) (c : Fin (dims N D R wf).startIndexMap.length) :
    (dims N D R wf).siIdx y c = ix2 (⟨(y 0).val, (y 0).isLt⟩ : Fin R) (0 : Fin 1) := by
  funext b
  refine Fin.ext ?_
  match b with
  | ⟨0, _⟩ => rfl
  | ⟨1, _⟩ =>
    show c.val = 0
    have := c.isLt
    simp only [List.length_singleton] at this
    omega

/-- Operand axis 1 is a kept axis of the row gather: neither collapsed nor batching. -/
theorem one_mem_sKept {N D R : Nat}
    (wf : GatherDims.WF ⟨2, ![N, D]⟩ ⟨2, ![R, 1]⟩ ⟨2, ![R, D]⟩ [1] [0] [] [0] [] 1 ![1, D]) :
    (1 : Fin 2) ∈ (dims N D R wf).sKept :=
  (GatherDims.mem_sKept _ _).mpr ⟨(by decide : (1 : Fin 2) ∉ [0]), List.not_mem_nil⟩

/-- THE GATHER READ AT `(e, j)`: the table at row `sel idx e` and column `j`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (dims N D R wf) x idx y
      = x (ix2 (sel hN idx ⟨(y 0).val, (y 0).isLt⟩) (⟨(y 1).val, (y 1).isLt⟩ : Fin D)) := by
  unfold Host.gather
  congr 1
  funext a
  refine Fin.ext ?_
  match a with
  | ⟨0, _⟩ =>
    -- axis 0 is in the start index map and collapsed: the coordinate is the clamped start alone
    show (dims N D R wf).start y idx 0 + (dims N D R wf).batchCoord y 0 + (dims N D R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims N D R wf).startIndexMap from List.mem_singleton.mpr rfl), siIdx_row]
    rfl
  | ⟨1, _⟩ =>
    -- axis 1 is outside the start index map and kept: the coordinate is the result's offset coordinate alone
    show (dims N D R wf).start y idx 1 + (dims N D R wf).batchCoord y 1 + (dims N D R wf).offCoord y 1 = (y 1).val
    rw [GatherDims.batchCoord_eq_zero _ _ _ List.not_mem_nil]
    unfold GatherDims.start GatherDims.offCoord
    rw [dif_neg (show ¬ (1 : Fin 2) ∈ (dims N D R wf).startIndexMap from (by decide : (1 : Fin 2) ∉ [0])),
      dif_pos (one_mem_sKept wf)]
    simp only [Nat.zero_add]
    rfl

end Idealize.ShloMosaic.GatherRow

end
-- ==== Proof.Idx.lean ====
/-
  The index side of the graph, read off the edge array, and the two indexed host operations read at an entry.

  The edge array holds two rows of 32-bit words: row 0 the source node of each edge, row 1 its destination. A gather of
  node rows first wraps a negative word by the node count (`wrap`) and then clamps it, read signed, into the table
  (`rowClamp`); a scatter-add of edge rows reads the destination word signed and drops the edge when that is no row.
-/
import proofs.«402061_j76029511073825_3_alg».proof.Proof.Spec
import proofs.«402061_j76029511073825_3_alg».proof.Proof.LibScatterRows
import proofs.«402061_j76029511073825_3_alg».proof.Proof.LibGatherRow
import Idealize.ShloMosaic.Lib.ValueIdx

noncomputable section

open scoped BigOperators

namespace Cert.Sage

open Idealize.ShloMosaic Idealize.ShloMosaic.ValueIdx

/-- A negative index word counts from the end of the table of 100000 rows. -/
def wrap (q : BitVec 32) : BitVec 32 := Scalar.select (IntOp.cmpi .slt q 0#32) (IntOp.addi q 100000#32) q

/-- The table row a start index word reads: signed, clamped into the table. -/
def rowClamp (q : BitVec 32) : Fin 100000 := ⟨min q.toInt.toNat 99999, by omega⟩

/-- The edge array. -/
abbrev EdgeArr := (⟨2, ![2, 1600000]⟩ : Shape).Idx → BitVec 32

def srcW (ei : EdgeArr) (e : Fin 1600000) : BitVec 32 := ei (ix2 (0 : Fin 2) e)
def dstW (ei : EdgeArr) (e : Fin 1600000) : BitVec 32 := ei (ix2 (1 : Fin 2) e)

/-- The node row edge `e` gathers at its source, and at its destination. -/
def rhoS (ei : EdgeArr) (e : Fin 1600000) : Fin 100000 := rowClamp (wrap (srcW ei e))
def rhoD (ei : EdgeArr) (e : Fin 1600000) : Fin 100000 := rowClamp (wrap (dstW ei e))
/-- The node number edge `e` is added to (no node when out of range). -/
def dstI (ei : EdgeArr) (e : Fin 1600000) : ℤ := (dstW ei e).toInt

/-- A rank-2 array as a matrix, a rank-1 array as a row, and a one-row array as a row. -/
def mat {r c : ℕ} (x : (⟨2, ![r, c]⟩ : Shape).Idx → EReal) : Mat r c := fun i j => x (ix2 i j)
def vec {r : ℕ} (x : (⟨1, ![r]⟩ : Shape).Idx → EReal) : Fin r → EReal := fun i => x (ix1 i)
def row0 {c : ℕ} (x : (⟨2, ![1, c]⟩ : Shape).Idx → EReal) : Fin c → EReal := fun j => x (ix2 (0 : Fin 1) j)

/-- A gather of rows at a column of start indices, read at entry `(e, k)`. -/
theorem gather_rows_at {D : ℕ}
    (wf : GatherDims.WF ⟨2, ![100000, D]⟩ ⟨2, ![1600000, 1]⟩ ⟨2, ![1600000, D]⟩ [1] [0] [] [0] [] 1 ![1, D])
    (x : (⟨2, ![100000, D]⟩ : Shape).Idx → EReal) (idx : IVec ⟨2, ![1600000, 1]⟩ 32) (e : Fin 1600000) (k : Fin D) :
    Host.gather (GatherRow.dims 100000 D 1600000 wf) x idx (ix2 e k) = x (ix2 (rowClamp (idx (ix2 e (0 : Fin 1)))) k) :=
  GatherRow.gather_row_apply (by decide) wf x idx (ix2 e k)

/-- A scatter-add of rows into zeros, read at entry `(n, j)`. -/
theorem scatter_rows_at {C : ℕ}
    (wf : ScatterDims.WF (⟨2, ![100000, C]⟩ : Shape) (⟨2, ![1600000, 1]⟩ : Shape) (⟨2, ![1600000, C]⟩ : Shape) [1] [0] [0] 1)
    (x : (⟨2, ![100000, C]⟩ : Shape).Idx → EReal) (hx : ∀ i, x i = 0)
    (idx : IVec (⟨2, ![1600000, 1]⟩ : Shape) 32) (upd : (⟨2, ![1600000, C]⟩ : Shape).Idx → EReal) (n : Fin 100000) (j : Fin C) :
    Ideal.hostScatterAdd (ScatterRows.rowDims 100000 C 1600000 wf) x idx upd (ix2 n j)
      = scat (N := 100000) (fun e => (idx (ix2 e (0 : Fin 1))).toInt) (fun e j => upd (ix2 e j)) n j := by
  rw [ScatterRows.hostScatterAdd_rows, hx, zero_add]
  rfl

end Cert.Sage

end
-- ==== Proof.HostA.lean ====
/-
  The windows of the first pallas_call, all functions of the inputs alone, read entry by entry.

  Before the first call the host sums the edge rows and the gathered source rows per destination node, counts the
  edges per node, forms the reciprocal of the clamped count and the indicator of a positive count side by side, and
  cuts the first layer's matrices into transposed halves and its biases into one-row arrays. Each window is read by
  walking its operations back to the arguments: a scatter-add into zeros is the sum over the edges sent to the node,
  a gather reads the row the wrapped start index clamps to, and the layout operations only move indices.
-/
import proofs.«402061_j76029511073825_3_alg».proof.Proof.Gen.KernelIdeal.Frame
import proofs.«402061_j76029511073825_3_alg».proof.Proof.Idx
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384
set_option quotPrecheck false

noncomputable section

open scoped BigOperators

namespace Cert.KernelIdeal.HostA

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! The inputs read off the launch memory of device `c`. -/
local notation "inEi" => (m ((c.tc : Thread nD τ).loc main_arg12) : Sage.EdgeArr)
local notation "inRs" => Sage.rhoS (m ((c.tc : Thread nD τ).loc main_arg12) : Sage.EdgeArr)
local notation "inRd" => Sage.rhoD (m ((c.tc : Thread nD τ).loc main_arg12) : Sage.EdgeArr)
local notation "inDI" => Sage.dstI (m ((c.tc : Thread nD τ).loc main_arg12) : Sage.EdgeArr)
local notation "inX" => (Sage.mat (m ((c.tc : Thread nD τ).loc main_arg0)) : Sage.Mat 100000 64)
local notation "inEA" => (Sage.mat (m ((c.tc : Thread nD τ).loc main_arg1)) : Sage.Mat 1600000 32)
local notation "inW1m" => (Sage.mat (m ((c.tc : Thread nD τ).loc main_arg2)) : Sage.Mat 64 96)
local notation "inB1m" => (Sage.vec (m ((c.tc : Thread nD τ).loc main_arg3)) : Fin 64 → EReal)
local notation "inW1a" => (Sage.mat (m ((c.tc : Thread nD τ).loc main_arg4)) : Sage.Mat 64 128)
local notation "inB1a" => (Sage.vec (m ((c.tc : Thread nD τ).loc main_arg5)) : Fin 64 → EReal)
local notation "inW2m" => (Sage.mat (m ((c.tc : Thread nD τ).loc main_arg6)) : Sage.Mat 64 96)
local notation "inB2m" => (Sage.vec (m ((c.tc : Thread nD τ).loc main_arg7)) : Fin 64 → EReal)
local notation "inW2a" => (Sage.mat (m ((c.tc : Thread nD τ).loc main_arg8)) : Sage.Mat 64 128)
local notation "inB2a" => (Sage.vec (m ((c.tc : Thread nD τ).loc main_arg9)) : Fin 64 → EReal)
local notation "inWp" => (Sage.mat (m ((c.tc : Thread nD τ).loc main_arg10)) : Sage.Mat 2 128)
local notation "inBp" => (Sage.vec (m ((c.tc : Thread nD τ).loc main_arg11)) : Fin 2 → EReal)

/-! ## Layout operations read at an entry -/

/-- The destination column of start indices, read at edge e: row 1 of the edge array. -/
private theorem dstCol_at (ei : Sage.EdgeArr) (e : Fin 1600000) :
    broadcastInDim S1600000x1 ![0] bcast_S1600000_S1600000x1_0 (fun i =>
      shapeCast S1600000 (extractStridedSlice S1x1600000 ![1, 0] ei slices_S2x1600000_S1x1600000_1_0)
        shapeCasts_S1x1600000_S1600000 i) (ix2 e (0 : Fin 1)) = Sage.dstW ei e := by
  rw [broadcastInDim_apply _ bcast_S1600000_S1600000x1_0 _ (ix2 e (0 : Fin 1)) (ix1 e) (fun a => match a with
    | ⟨0, _⟩ => by show e.val = if (1600000 : Nat) = 1 then 0 else e.val; rw [if_neg (by decide)])]
  show shapeCast S1600000 (extractStridedSlice S1x1600000 ![1, 0] ei slices_S2x1600000_S1x1600000_1_0)
        shapeCasts_S1x1600000_S1600000 (ix1 e) = _
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![1, 0] ei slices_S2x1600000_S1x1600000_1_0 (ix2 (0 : Fin 1) e) (ix2 (1 : Fin 2) e) (fun a => match a with
    | ⟨0, _⟩ => by show 1 = 1 + 0; rfl
    | ⟨1, _⟩ => by show e.val = 0 + e.val; omega)

/-- A scatter-add of rows into the broadcast zero word, read at an entry. -/
private theorem scatter_zero_at {C : ℕ}
    (wf : ScatterDims.WF (⟨2, ![100000, C]⟩ : Shape) (⟨2, ![1600000, 1]⟩ : Shape) (⟨2, ![1600000, C]⟩ : Shape) [1] [0] [0] 1)
    (bc : S_.BroadcastsInDim (⟨2, ![100000, C]⟩ : Shape) ![])
    (idx : IVec (⟨2, ![1600000, 1]⟩ : Shape) 32) (upd : (⟨2, ![1600000, C]⟩ : Shape).Idx → EReal) (n : Fin 100000) (j : Fin C) :
    Ideal.hostScatterAdd (ScatterRows.rowDims 100000 C 1600000 wf)
        (broadcastInDim (⟨2, ![100000, C]⟩ : Shape) ![] bc (constant (F := Ideal) S_ .f32 0x00000000#32)) idx upd (ix2 n j)
      = Sage.scat (N := 100000) (fun e => (idx (ix2 e (0 : Fin 1))).toInt) (fun e j => upd (ix2 e j)) n j :=
  Sage.scatter_rows_at wf _ (fun i => Sage.ofBits_zero) idx upd n j

/-- The host's scatter-add is, over the extended reals, the exact one. -/
private theorem hostScatterAdd_eq {s si su : Shape} {w : ℕ} (d : ScatterDims s si su) (x : FVec Ideal s .f32)
    (idx : IVec si w) (upd : FVec Ideal su .f32) :
    Host.scatterAdd d x idx upd = Ideal.hostScatterAdd d x idx upd := rfl

/-- The same for the host operation as the program spells it, with the index column and the updates read entrywise. -/
private theorem scatterAdd_zero_at {C : ℕ}
    (d : ScatterDims (⟨2, ![100000, C]⟩ : Shape) (⟨2, ![1600000, 1]⟩ : Shape) (⟨2, ![1600000, C]⟩ : Shape))
    (wf : ScatterDims.WF (⟨2, ![100000, C]⟩ : Shape) (⟨2, ![1600000, 1]⟩ : Shape) (⟨2, ![1600000, C]⟩ : Shape) [1] [0] [0] 1)
    (hd : d = ScatterRows.rowDims 100000 C 1600000 wf)
    (bc : S_.BroadcastsInDim (⟨2, ![100000, C]⟩ : Shape) ![])
    (idx : IVec (⟨2, ![1600000, 1]⟩ : Shape) 32) (upd : (⟨2, ![1600000, C]⟩ : Shape).Idx → EReal)
    (dI : Fin 1600000 → ℤ) (hI : ∀ e, (idx (ix2 e (0 : Fin 1))).toInt = dI e)
    (V : Sage.Mat 1600000 C) (hU : ∀ e j, upd (ix2 e j) = V e j) (n : Fin 100000) (j : Fin C) :
    Host.scatterAdd (F := Ideal) (φ := .f32) d
        (broadcastInDim (⟨2, ![100000, C]⟩ : Shape) ![] bc (constant (F := Ideal) S_ .f32 0x00000000#32)) idx upd (ix2 n j)
      = Sage.scat dI V n j := by
  subst hd
  rw [hostScatterAdd_eq, scatter_zero_at,
    show (fun e => (idx (ix2 e (0 : Fin 1))).toInt) = dI from funext hI,
    show (fun e j => upd (ix2 e j)) = V from funext fun e => funext fun j => hU e j]

/-- A transposed slice of columns from off on, read at an entry. -/
private theorem sliceT_at {R C C' : ℕ} (off : ℕ) (x : (⟨2, ![R, C]⟩ : Shape).Idx → EReal)
    (hs : (⟨2, ![R, C]⟩ : Shape).Slices ![0, off] (⟨2, ![R, C']⟩ : Shape))
    (ht : (⟨2, ![R, C']⟩ : Shape).Transposes [1, 0] (⟨2, ![C', R]⟩ : Shape))
    (k : Fin C') (j : Fin R) (q : Fin C) (hq : q.val = off + k.val) :
    transpose (⟨2, ![C', R]⟩ : Shape) [1, 0] (extractStridedSlice (⟨2, ![R, C']⟩ : Shape) ![0, off] x hs) ht (ix2 k j)
      = x (ix2 j q) := by
  rw [transpose_apply [1, 0] _ ht (ix2 k j) (ix2 j k) (fun b => match b with
    | ⟨0, _⟩ => rfl
    | ⟨1, _⟩ => rfl)]
  exact extractStridedSlice_apply ![0, off] x hs (ix2 j k) (ix2 j q) (fun a => match a with
    | ⟨0, _⟩ => by show j.val = 0 + j.val; omega
    | ⟨1, _⟩ => hq)

/-- A row reshaped to a one-row array, read at an entry. -/
private theorem rowCast_at {C : ℕ} (x : (⟨1, ![C]⟩ : Shape).Idx → EReal)
    (h : (⟨1, ![C]⟩ : Shape).ShapeCasts (⟨2, ![1, C]⟩ : Shape)) (j : Fin C) :
    shapeCast (⟨2, ![1, C]⟩ : Shape) x h (ix2 (0 : Fin 1) j) = x (ix1 j) :=
  shapeCast_apply x h (ix2 (0 : Fin 1) j) (ix1 j)
    (by rewrite [Shape.rowMajor_val_two, Shape.rowMajor_val_one]; show j.val = 0 * C + j.val; omega)

/-- The source column of start indices, read at edge e: row 0 of the edge array, a negative word wrapped by the node count. -/
private theorem srcCol_at (ei : Sage.EdgeArr) (e : Fin 1600000) :
    broadcastInDim S1600000x1 ![0] bcast_S1600000_S1600000x1_0
      (select
        (cmpi CmpIPredicate.slt (fun i => shapeCast S1600000 (extractStridedSlice S1x1600000 ![0, 0] ei slices_S2x1600000_S1x1600000_0_0) shapeCasts_S1x1600000_S1600000 i)
          (broadcastInDim S1600000 ![] bcast_S_S1600000 (constantI S_ 32 0#32)))
        (addi (fun i => shapeCast S1600000 (extractStridedSlice S1x1600000 ![0, 0] ei slices_S2x1600000_S1x1600000_0_0) shapeCasts_S1x1600000_S1600000 i)
          (broadcastInDim S1600000 ![] bcast_S_S1600000 (constantI S_ 32 100000#32)))
        (fun i => shapeCast S1600000 (extractStridedSlice S1x1600000 ![0, 0] ei slices_S2x1600000_S1x1600000_0_0) shapeCasts_S1x1600000_S1600000 i))
      (ix2 e (0 : Fin 1)) = Sage.wrap (Sage.srcW ei e) := by
  rw [broadcastInDim_apply _ bcast_S1600000_S1600000x1_0 _ (ix2 e (0 : Fin 1)) (ix1 e) (fun a => match a with
    | ⟨0, _⟩ => by show e.val = if (1600000 : Nat) = 1 then 0 else e.val; rw [if_neg (by decide)])]
  have h1 : shapeCast S1600000 (extractStridedSlice S1x1600000 ![0, 0] ei slices_S2x1600000_S1x1600000_0_0)
      shapeCasts_S1x1600000_S1600000 (ix1 e) = Sage.srcW ei e := by
    rw [shapeCast_apply _ shapeCasts_S1x1600000_S1600000 (ix1 e) (ix2 (0 : Fin 1) e)
      (by rewrite [Shape.rowMajor_val_two, Shape.rowMajor_val_one]; show 0 * 1600000 + e.val = e.val; omega)]
    exact extractStridedSlice_apply ![0, 0] ei slices_S2x1600000_S1x1600000_0_0 (ix2 (0 : Fin 1) e) (ix2 (0 : Fin 2) e)
      (fun a => match a with
        | ⟨0, _⟩ => by show 0 = 0 + 0; rfl
        | ⟨1, _⟩ => by show e.val = 0 + e.val; omega)
  show Scalar.select
      (IntOp.cmpi .slt (shapeCast S1600000 (extractStridedSlice S1x1600000 ![0, 0] ei slices_S2x1600000_S1x1600000_0_0)
        shapeCasts_S1x1600000_S1600000 (ix1 e)) 0#32)
      (IntOp.addi (shapeCast S1600000 (extractStridedSlice S1x1600000 ![0, 0] ei slices_S2x1600000_S1x1600000_0_0)
        shapeCasts_S1x1600000_S1600000 (ix1 e)) 100000#32)
      (shapeCast S1600000 (extractStridedSlice S1x1600000 ![0, 0] ei slices_S2x1600000_S1x1600000_0_0)
        shapeCasts_S1x1600000_S1600000 (ix1 e)) = _
  rw [h1]
  rfl

/-- A gather of node rows, read at an entry: the row the start index word clamps to. -/
private theorem gather_at
    (d : GatherDims (⟨2, ![100000, 64]⟩ : Shape) (⟨2, ![1600000, 1]⟩ : Shape) (⟨2, ![1600000, 64]⟩ : Shape))
    (wf : GatherDims.WF ⟨2, ![100000, 64]⟩ ⟨2, ![1600000, 1]⟩ ⟨2, ![1600000, 64]⟩ [1] [0] [] [0] [] 1 ![1, 64])
    (hd : d = GatherRow.dims 100000 64 1600000 wf)
    (x : (⟨2, ![100000, 64]⟩ : Shape).Idx → EReal) (idx : IVec (⟨2, ![1600000, 1]⟩ : Shape) 32)
    (e : Fin 1600000) (k : Fin 64) (q : BitVec 32) (hq : idx (ix2 e (0 : Fin 1)) = q) :
    Host.gather d x idx (ix2 e k) = x (ix2 (Sage.rowClamp q) k) := by
  subst hd hq
  exact Sage.gather_rows_at wf x idx e k

/-! ## Pointwise host operations over the extended reals, read at an entry -/

private theorem hostDivf_at {s : Shape} (a b : FVec Ideal s .f32) (i : s.Idx) :
    Host.divf a b i = Ideal.div (a i) (b i) := rfl
private theorem cmpf_at {s : Shape} (p : CmpFPredicate) (a b : FVec Ideal s .f32) (i : s.Idx) :
    cmpf p a b i = Ideal.cmp p (a i) (b i) := rfl
private theorem uitofp_at {s : Shape} (x : IVec s 1) (i : s.Idx) :
    (uitofp (F := Ideal) .f32 x) i = (((x i).toNat : ℝ) : EReal) := rfl
private theorem bcastConst_at {T : Shape} (h : S_.BroadcastsInDim T ![]) (b : BitVec 32) (j : T.Idx) :
    broadcastInDim T ![] h (constant (F := Ideal) S_ .f32 b) j = Ideal.ofBits .f32 b := rfl

/-- Two columns side by side, read in the left column and in the right. -/
private theorem concat_col0 (a b : (⟨2, ![100000, 1]⟩ : Shape).Idx → EReal)
    (h : Shape.Concatenates [(⟨2, ![100000, 1]⟩ : Shape), (⟨2, ![100000, 1]⟩ : Shape)] (⟨2, ![100000, 2]⟩ : Shape) 1)
    (n : Fin 100000) :
    concatenate (⟨2, ![100000, 2]⟩ : Shape) 1 [⟨(⟨2, ![100000, 1]⟩ : Shape), a⟩, ⟨(⟨2, ![100000, 1]⟩ : Shape), b⟩] h
      (ix2 n (0 : Fin 2)) = a (ix2 n (0 : Fin 1)) :=
  concatenate_pair_apply_left 1 a b h (ix2 n (0 : Fin 2)) rfl (ix2 n (0 : Fin 1)) (fun b => match b with
    | ⟨0, _⟩ => rfl
    | ⟨1, _⟩ => rfl)
private theorem concat_col1 (a b : (⟨2, ![100000, 1]⟩ : Shape).Idx → EReal)
    (h : Shape.Concatenates [(⟨2, ![100000, 1]⟩ : Shape), (⟨2, ![100000, 1]⟩ : Shape)] (⟨2, ![100000, 2]⟩ : Shape) 1)
    (n : Fin 100000) :
    concatenate (⟨2, ![100000, 2]⟩ : Shape) 1 [⟨(⟨2, ![100000, 1]⟩ : Shape), a⟩, ⟨(⟨2, ![100000, 1]⟩ : Shape), b⟩] h
      (ix2 n (1 : Fin 2)) = b (ix2 n (0 : Fin 1)) :=
  concatenate_pair_apply_right 1 a b h (ix2 n (1 : Fin 2)) rfl rfl (ix2 n (0 : Fin 1))
    (fun b hb => match b, hb with
      | ⟨0, _⟩, _ => rfl
      | ⟨1, _⟩, hb => absurd rfl hb)
    rfl

/-! ## The count column and what is made of it -/

/-- Ones summed per destination: the count. -/
private theorem cntCol_at
    (d : ScatterDims (⟨2, ![100000, 1]⟩ : Shape) (⟨2, ![1600000, 1]⟩ : Shape) (⟨2, ![1600000, 1]⟩ : Shape))
    (wf : ScatterDims.WF (⟨2, ![100000, 1]⟩ : Shape) (⟨2, ![1600000, 1]⟩ : Shape) (⟨2, ![1600000, 1]⟩ : Shape) [1] [0] [0] 1)
    (hd : d = ScatterRows.rowDims 100000 1 1600000 wf)
    (bc0 : S_.BroadcastsInDim (⟨2, ![100000, 1]⟩ : Shape) ![]) (bc1 : S_.BroadcastsInDim (⟨2, ![1600000, 1]⟩ : Shape) ![])
    (idx : IVec (⟨2, ![1600000, 1]⟩ : Shape) 32) (dI : Fin 1600000 → ℤ)
    (hI : ∀ e, (idx (ix2 e (0 : Fin 1))).toInt = dI e) (n : Fin 100000) :
    Host.scatterAdd (F := Ideal) (φ := .f32) d
        (broadcastInDim (⟨2, ![100000, 1]⟩ : Shape) ![] bc0 (constant (F := Ideal) S_ .f32 0x00000000#32)) idx
        (broadcastInDim (⟨2, ![1600000, 1]⟩ : Shape) ![] bc1 (constant (F := Ideal) S_ .f32 0x3F800000#32)) (ix2 n (0 : Fin 1))
      = Sage.cnt dI n := by
  rw [scatterAdd_zero_at d wf hd bc0 idx _ dI hI (fun _ _ => 1) (fun e j => Sage.ofBits_one) n 0]
  rfl

/-- The reciprocal of the clamped count. -/
private theorem invCol_at
    (d : ScatterDims (⟨2, ![100000, 1]⟩ : Shape) (⟨2, ![1600000, 1]⟩ : Shape) (⟨2, ![1600000, 1]⟩ : Shape))
    (wf : ScatterDims.WF (⟨2, ![100000, 1]⟩ : Shape) (⟨2, ![1600000, 1]⟩ : Shape) (⟨2, ![1600000, 1]⟩ : Shape) [1] [0] [0] 1)
    (hd : d = ScatterRows.rowDims 100000 1 1600000 wf)
    (bc0 : S_.BroadcastsInDim (⟨2, ![100000, 1]⟩ : Shape) ![]) (bc1 : S_.BroadcastsInDim (⟨2, ![1600000, 1]⟩ : Shape) ![])
    (idx : IVec (⟨2, ![1600000, 1]⟩ : Shape) 32) (dI : Fin 1600000 → ℤ)
    (hI : ∀ e, (idx (ix2 e (0 : Fin 1))).toInt = dI e) (n : Fin 100000) :
    Host.divf (F := Ideal) (φ := .f32)
        (broadcastInDim (⟨2, ![100000, 1]⟩ : Shape) ![] bc0 (constant (F := Ideal) S_ .f32 0x3F800000#32))
        (maximumf
          (Host.scatterAdd (F := Ideal) (φ := .f32) d
            (broadcastInDim (⟨2, ![100000, 1]⟩ : Shape) ![] bc0 (constant (F := Ideal) S_ .f32 0x00000000#32)) idx
            (broadcastInDim (⟨2, ![1600000, 1]⟩ : Shape) ![] bc1 (constant (F := Ideal) S_ .f32 0x3F800000#32)))
          (broadcastInDim (⟨2, ![100000, 1]⟩ : Shape) ![] bc0 (constant (F := Ideal) S_ .f32 0x3F800000#32)))
        (ix2 n (0 : Fin 1))
      = Sage.invc dI n := by
  rw [hostDivf_at, maximumf_apply, bcastConst_at, cntCol_at d wf hd bc0 bc1 idx dI hI n, Sage.ofBits_one]
  rfl

/-- The indicator of a positive count. -/
private theorem maskCol_at
    (d : ScatterDims (⟨2, ![100000, 1]⟩ : Shape) (⟨2, ![1600000, 1]⟩ : Shape) (⟨2, ![1600000, 1]⟩ : Shape))
    (wf : ScatterDims.WF (⟨2, ![100000, 1]⟩ : Shape) (⟨2, ![1600000, 1]⟩ : Shape) (⟨2, ![1600000, 1]⟩ : Shape) [1] [0] [0] 1)
    (hd : d = ScatterRows.rowDims 100000 1 1600000 wf)
    (bc0 : S_.BroadcastsInDim (⟨2, ![100000, 1]⟩ : Shape) ![]) (bc1 : S_.BroadcastsInDim (⟨2, ![1600000, 1]⟩ : Shape) ![])
    (idx : IVec (⟨2, ![1600000, 1]⟩ : Shape) 32) (dI : Fin 1600000 → ℤ)
    (hI : ∀ e, (idx (ix2 e (0 : Fin 1))).toInt = dI e) (n : Fin 100000) :
    uitofp (F := Ideal) .f32
        (cmpf CmpFPredicate.ogt
          (Host.scatterAdd (F := Ideal) (φ := .f32) d
            (broadcastInDim (⟨2, ![100000, 1]⟩ : Shape) ![] bc0 (constant (F := Ideal) S_ .f32 0x00000000#32)) idx
            (broadcastInDim (⟨2, ![1600000, 1]⟩ : Shape) ![] bc1 (constant (F := Ideal) S_ .f32 0x3F800000#32)))
          (broadcastInDim (⟨2, ![100000, 1]⟩ : Shape) ![] bc0 (constant (F := Ideal) S_ .f32 0x00000000#32)))
        (ix2 n (0 : Fin 1))
      = Sage.maskc dI n := by
  rw [uitofp_at, cmpf_at, bcastConst_at, cntCol_at d wf hd bc0 bc1 idx dI hI n, Sage.ofBits_zero]
  rfl

/-! ## What the first call finds -/

theorem h0_feat : Sage.mat (V1 (F := Ideal) m ρ c main_v45) = inX := by
  show Sage.mat (StableHlo.after hostOps0 (W0 m ρ c) (Proc.devRef .tc main_v45)) = _
  after_results_simp
  rfl
theorem h0_sumx : Sage.mat (V1 (F := Ideal) m ρ c main_v44) = Sage.scat (inDI) (fun e => inX (inRs e)) := by
  show Sage.mat (StableHlo.after hostOps0 (W0 m ρ c) (Proc.devRef .tc main_v44)) = _
  after_results_simp
  funext n j
  unfold Sage.mat
  rw [truncf_apply]
  refine scatterAdd_zero_at scatter_S100000x64_S1600000x1_S1600000x64_1_0_0_1 scatter_S100000x64_S1600000x1_S1600000x64_1_0_0_1_wf rfl
    bcast_S_S100000x64 _ _ (Sage.dstI (m ((c.tc : Thread nD τ).loc main_arg12))) ?_
    (fun e j => m ((c.tc : Thread nD τ).loc main_arg0)
      (ix2 (Sage.rhoS (m ((c.tc : Thread nD τ).loc main_arg12)) e) j)) ?_ n j
  · intro e
    exact congrArg BitVec.toInt (dstCol_at (m ((c.tc : Thread nD τ).loc main_arg12)) e)
  · intro e j
    exact gather_at gather_S100000x64_S1600000x1_S1600000x64_1_0_n_n_0_1_164
      gather_S100000x64_S1600000x1_S1600000x64_1_0_n_n_0_1_164_wf rfl _ _ e j
      (Sage.wrap (Sage.srcW (m ((c.tc : Thread nD τ).loc main_arg12)) e))
      (srcCol_at (m ((c.tc : Thread nD τ).loc main_arg12)) e)
theorem h0_sume : Sage.mat (V1 (F := Ideal) m ρ c main_v7) = Sage.scat (inDI) (inEA) := by
  show Sage.mat (StableHlo.after hostOps0 (W0 m ρ c) (Proc.devRef .tc main_v7)) = _
  after_results_simp
  funext n j
  unfold Sage.mat
  rw [truncf_apply]
  refine scatterAdd_zero_at scatter_S100000x32_S1600000x1_S1600000x32_1_0_0_1 scatter_S100000x32_S1600000x1_S1600000x32_1_0_0_1_wf rfl
    bcast_S_S100000x32 _ _ (Sage.dstI (m ((c.tc : Thread nD τ).loc main_arg12))) ?_
    (fun e j => m ((c.tc : Thread nD τ).loc main_arg1) (ix2 e j)) ?_ n j
  · intro e
    exact congrArg BitVec.toInt (dstCol_at (m ((c.tc : Thread nD τ).loc main_arg12)) e)
  · intro e j
    rfl
theorem h0_inv : (fun n : Fin 100000 => V1 (F := Ideal) m ρ c main_v19 (ix2 n (0 : Fin 2))) = Sage.invc (inDI) := by
  show (fun n : Fin 100000 => StableHlo.after hostOps0 (W0 m ρ c) (Proc.devRef .tc main_v19) (ix2 n (0 : Fin 2))) = _
  after_results_simp
  funext n
  rw [concat_col0]
  refine invCol_at scatter_S100000x1_S1600000x1_S1600000x1_1_0_0_1 scatter_S100000x1_S1600000x1_S1600000x1_1_0_0_1_wf rfl
    bcast_S_S100000x1 bcast_S_S1600000x1 _ (Sage.dstI (m ((c.tc : Thread nD τ).loc main_arg12))) ?_ n
  intro e
  exact congrArg BitVec.toInt (dstCol_at (m ((c.tc : Thread nD τ).loc main_arg12)) e)
theorem h0_mask : (fun n : Fin 100000 => V1 (F := Ideal) m ρ c main_v19 (ix2 n (1 : Fin 2))) = Sage.maskc (inDI) := by
  show (fun n : Fin 100000 => StableHlo.after hostOps0 (W0 m ρ c) (Proc.devRef .tc main_v19) (ix2 n (1 : Fin 2))) = _
  after_results_simp
  funext n
  rw [concat_col1]
  refine maskCol_at scatter_S100000x1_S1600000x1_S1600000x1_1_0_0_1 scatter_S100000x1_S1600000x1_S1600000x1_1_0_0_1_wf rfl
    bcast_S_S100000x1 bcast_S_S1600000x1 _ (Sage.dstI (m ((c.tc : Thread nD τ).loc main_arg12))) ?_ n
  intro e
  exact congrArg BitVec.toInt (dstCol_at (m ((c.tc : Thread nD τ).loc main_arg12)) e)
theorem h0_wmx : Sage.mat (V1 (F := Ideal) m ρ c main_v22) = fun k j => inW1m j (Sage.inl (by decide) k) := by
  show Sage.mat (StableHlo.after hostOps0 (W0 m ρ c) (Proc.devRef .tc main_v22)) = _
  after_results_simp
  funext k j
  unfold Sage.mat
  rw [truncf_apply]
  exact sliceT_at 0 _ slices_S64x96_S64x64_0_0 transposes_S64x64_S64x64_1_0 k j (Sage.inl (by decide) k)
    (by show k.val = 0 + k.val; omega)
theorem h0_wme : Sage.mat (V1 (F := Ideal) m ρ c main_v25) = fun k j => inW1m j (Sage.inr 64 (by decide) k) := by
  show Sage.mat (StableHlo.after hostOps0 (W0 m ρ c) (Proc.devRef .tc main_v25)) = _
  after_results_simp
  funext k j
  unfold Sage.mat
  rw [truncf_apply]
  exact sliceT_at 64 _ slices_S64x96_S64x32_0_64 transposes_S64x32_S32x64_1_0 k j (Sage.inr 64 (by decide) k) rfl
theorem h0_bm : Sage.row0 (V1 (F := Ideal) m ρ c main_v26) = inB1m := by
  show Sage.row0 (StableHlo.after hostOps0 (W0 m ρ c) (Proc.devRef .tc main_v26)) = _
  after_results_simp
  funext j
  unfold Sage.row0 Sage.vec
  exact rowCast_at _ shapeCasts_S64_S1x64 j
theorem h0_wax : Sage.mat (V1 (F := Ideal) m ρ c main_v29) = fun k j => inW1a j (Sage.inl (by decide) k) := by
  show Sage.mat (StableHlo.after hostOps0 (W0 m ρ c) (Proc.devRef .tc main_v29)) = _
  after_results_simp
  funext k j
  unfold Sage.mat
  rw [truncf_apply]
  exact sliceT_at 0 _ slices_S64x128_S64x64_0_0 transposes_S64x64_S64x64_1_0 k j (Sage.inl (by decide) k)
    (by show k.val = 0 + k.val; omega)
theorem h0_waa : Sage.mat (V1 (F := Ideal) m ρ c main_v32) = fun k j => inW1a j (Sage.inr 64 (by decide) k) := by
  show Sage.mat (StableHlo.after hostOps0 (W0 m ρ c) (Proc.devRef .tc main_v32)) = _
  after_results_simp
  funext k j
  unfold Sage.mat
  rw [truncf_apply]
  exact sliceT_at 64 _ slices_S64x128_S64x64_0_64 transposes_S64x64_S64x64_1_0 k j (Sage.inr 64 (by decide) k) rfl
theorem h0_ba : Sage.row0 (V1 (F := Ideal) m ρ c main_v33) = inB1a := by
  show Sage.row0 (StableHlo.after hostOps0 (W0 m ρ c) (Proc.devRef .tc main_v33)) = _
  after_results_simp
  funext j
  unfold Sage.row0 Sage.vec
  exact rowCast_at _ shapeCasts_S64_S1x64 j

end Cert.KernelIdeal.HostA

end
-- ==== Proof.HostA2.lean ====
/-
  The windows of the second pallas_call that are functions of the inputs alone, read entry by entry.

  The edge-side sums and the count columns were written before the first call and nothing since writes them, so the
  second call finds them as the first did. Between the calls the host cuts the second layer's matrices into transposed
  halves, its biases into one-row arrays, and lays the read-out matrix's two transposed halves side by side.
-/
import proofs.«402061_j76029511073825_3_alg».proof.Proof.Gen.KernelIdeal.Frame
import proofs.«402061_j76029511073825_3_alg».proof.Proof.Idx
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384
set_option quotPrecheck false

noncomputable section

open scoped BigOperators

namespace Cert.KernelIdeal.HostA2

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! The inputs read off the launch memory of device `c`. -/
local notation "inEi" => (m ((c.tc : Thread nD τ).loc main_arg12) : Sage.EdgeArr)
local notation "inRs" => Sage.rhoS (m ((c.tc : Thread nD τ).loc main_arg12) : Sage.EdgeArr)
local notation "inRd" => Sage.rhoD (m ((c.tc : Thread nD τ).loc main_arg12) : Sage.EdgeArr)
local notation "inDI" => Sage.dstI (m ((c.tc : Thread nD τ).loc main_arg12) : Sage.EdgeArr)
local notation "inX" => (Sage.mat (m ((c.tc : Thread nD τ).loc main_arg0)) : Sage.Mat 100000 64)
local notation "inEA" => (Sage.mat (m ((c.tc : Thread nD τ).loc main_arg1)) : Sage.Mat 1600000 32)
local notation "inW1m" => (Sage.mat (m ((c.tc : Thread nD τ).loc main_arg2)) : Sage.Mat 64 96)
local notation "inB1m" => (Sage.vec (m ((c.tc : Thread nD τ).loc main_arg3)) : Fin 64 → EReal)
local notation "inW1a" => (Sage.mat (m ((c.tc : Thread nD τ).loc main_arg4)) : Sage.Mat 64 128)
local notation "inB1a" => (Sage.vec (m ((c.tc : Thread nD τ).loc main_arg5)) : Fin 64 → EReal)
local notation "inW2m" => (Sage.mat (m ((c.tc : Thread nD τ).loc main_arg6)) : Sage.Mat 64 96)
local notation "inB2m" => (Sage.vec (m ((c.tc : Thread nD τ).loc main_arg7)) : Fin 64 → EReal)
local notation "inW2a" => (Sage.mat (m ((c.tc : Thread nD τ).loc main_arg8)) : Sage.Mat 64 128)
local notation "inB2a" => (Sage.vec (m ((c.tc : Thread nD τ).loc main_arg9)) : Fin 64 → EReal)
local notation "inWp" => (Sage.mat (m ((c.tc : Thread nD τ).loc main_arg10)) : Sage.Mat 2 128)
local notation "inBp" => (Sage.vec (m ((c.tc : Thread nD τ).loc main_arg11)) : Fin 2 → EReal)

/-! ## An argument's buffer when the second host stretch starts: nothing before it writes an argument -/

theorem W2_main_arg6 : W2 (F := Ideal) m ρ c (Proc.devRef .tc main_arg6) = m ((c : Thread nD τ).loc main_arg6) :=
  calc W2 (F := Ideal) m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W2_main_arg7 : W2 (F := Ideal) m ρ c (Proc.devRef .tc main_arg7) = m ((c : Thread nD τ).loc main_arg7) :=
  calc W2 (F := Ideal) m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W2_main_arg8 : W2 (F := Ideal) m ρ c (Proc.devRef .tc main_arg8) = m ((c : Thread nD τ).loc main_arg8) :=
  calc W2 (F := Ideal) m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_main_arg9 : W2 (F := Ideal) m ρ c (Proc.devRef .tc main_arg9) = m ((c : Thread nD τ).loc main_arg9) :=
  calc W2 (F := Ideal) m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W2_main_arg10 : W2 (F := Ideal) m ρ c (Proc.devRef .tc main_arg10) = m ((c : Thread nD τ).loc main_arg10) :=
  calc W2 (F := Ideal) m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
/-! ## The edge-side sums and the count columns when the second call starts

  The first host stretch writes them; the first call only reads them through input windows, and the second stretch
  does not write them. -/

theorem V3_main_v7 : V3 (F := Ideal) m ρ c main_v7 = W1 (F := Ideal) m ρ c (Proc.devRef .tc main_v7) :=
  calc W3 (F := Ideal) m ρ c (Proc.devRef .tc main_v7)
    _ = W2 m ρ c (Proc.devRef .tc main_v7) := StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 2 cfg0.N := W2_arr m ρ c 2
    _ = (dat0 (V1 m ρ) c).A 2 := (dat0 (V1 m ρ) c).arrAt_in 2 rfl _
    _ = V1 m ρ c (Pipeline.arrRef spec0 2) := A_eq0 (V1 m ρ) c 2
    _ = W1 m ρ c (Proc.devRef .tc main_v7) := rfl
theorem V3_main_v19 : V3 (F := Ideal) m ρ c main_v19 = W1 (F := Ideal) m ρ c (Proc.devRef .tc main_v19) :=
  calc W3 (F := Ideal) m ρ c (Proc.devRef .tc main_v19)
    _ = W2 m ρ c (Proc.devRef .tc main_v19) := StableHlo.after_of_forall_not_mem (b := Proc.devRef .tc main_v19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3
    _ = (dat0 (V1 m ρ) c).A 3 := (dat0 (V1 m ρ) c).arrAt_in 3 rfl _
    _ = V1 m ρ c (Pipeline.arrRef spec0 3) := A_eq0 (V1 m ρ) c 3
    _ = W1 m ρ c (Proc.devRef .tc main_v19) := rfl

/-! ## The host's cuts of a weight matrix, read at an entry -/

/-- The left 64 columns of a `[64, 96]` matrix, transposed and narrowed: entry `(k, j)` is the matrix at `(j, k)`. -/
theorem leftT_64x96 (X : FVec Ideal S64x96 .f32) (k j : Fin 64) :
    truncf .bf16 (transpose S64x64 [1, 0] (extractStridedSlice S64x64 ![0, 0] X slices_S64x96_S64x64_0_0)
      transposes_S64x64_S64x64_1_0) bitsLt_bf16_f32 (ix2 k j) = X (ix2 j (Sage.inl (a := 64) (c := 96) (by decide) k)) := by
  rw [truncf_apply, transpose_ix2_apply, slice2_axis1_apply 0 X slices_S64x96_S64x64_0_0 j k (Sage.inl (by decide) k) (by simp [Sage.inl])]

/-- The right 32 columns of a `[64, 96]` matrix, transposed and narrowed: entry `(k, j)` is the matrix at `(j, 64 + k)`. -/
theorem rightT_64x96 (X : FVec Ideal S64x96 .f32) (k : Fin 32) (j : Fin 64) :
    truncf .bf16 (transpose S32x64 [1, 0] (extractStridedSlice S64x32 ![0, 64] X slices_S64x96_S64x32_0_64)
      transposes_S64x32_S32x64_1_0) bitsLt_bf16_f32 (ix2 k j) = X (ix2 j (Sage.inr 64 (b := 32) (c := 96) (by decide) k)) := by
  rw [truncf_apply, transpose_ix2_apply, slice2_axis1_apply 64 X slices_S64x96_S64x32_0_64 j k (Sage.inr 64 (by decide) k) rfl]

/-- The left 64 columns of a `[64, 128]` matrix, transposed and narrowed. -/
theorem leftT_64x128 (X : FVec Ideal S64x128 .f32) (k j : Fin 64) :
    truncf .bf16 (transpose S64x64 [1, 0] (extractStridedSlice S64x64 ![0, 0] X slices_S64x128_S64x64_0_0)
      transposes_S64x64_S64x64_1_0) bitsLt_bf16_f32 (ix2 k j) = X (ix2 j (Sage.inl (a := 64) (c := 128) (by decide) k)) := by
  rw [truncf_apply, transpose_ix2_apply, slice2_axis1_apply 0 X slices_S64x128_S64x64_0_0 j k (Sage.inl (by decide) k) (by simp [Sage.inl])]

/-- The right 64 columns of a `[64, 128]` matrix, transposed and narrowed. -/
theorem rightT_64x128 (X : FVec Ideal S64x128 .f32) (k j : Fin 64) :
    truncf .bf16 (transpose S64x64 [1, 0] (extractStridedSlice S64x64 ![0, 64] X slices_S64x128_S64x64_0_64)
      transposes_S64x64_S64x64_1_0) bitsLt_bf16_f32 (ix2 k j) = X (ix2 j (Sage.inr 64 (b := 64) (c := 128) (by decide) k)) := by
  rw [truncf_apply, transpose_ix2_apply, slice2_axis1_apply 64 X slices_S64x128_S64x64_0_64 j k (Sage.inr 64 (by decide) k) rfl]

/-- A 64-vector laid out as one row. -/
theorem row_of_vec64 (X : FVec Ideal S64 .f32) (j : Fin 64) :
    shapeCast S1x64 X shapeCasts_S64_S1x64 (ix2 (0 : Fin 1) j) = X (ix1 j) :=
  shapeCast_a_1a_apply X shapeCasts_S64_S1x64 0 j

/-! ## Two arrays side by side, read at a column -/

/-- A column of the left piece. -/
theorem concat_cols_left {α : Type} {r a b w : ℕ} (x₁ : (⟨2, ![r, a]⟩ : Shape).Idx → α) (x₂ : (⟨2, ![r, b]⟩ : Shape).Idx → α)
    (h : Shape.Concatenates [(⟨2, ![r, a]⟩ : Shape), ⟨2, ![r, b]⟩] ⟨2, ![r, w]⟩ (1 : Fin 2)) (p : Fin r) (q : Fin w) (q' : Fin a)
    (hq : q'.val = q.val) :
    concatenate ⟨2, ![r, w]⟩ (1 : Fin 2) [⟨⟨2, ![r, a]⟩, x₁⟩, ⟨⟨2, ![r, b]⟩, x₂⟩] h (ix2 p q) = x₁ (ix2 p q') :=
  concatenate_pair_apply_left (1 : Fin 2) x₁ x₂ h (ix2 p q) rfl (ix2 p q') (fun ax => by
    match ax with
    | ⟨0, _⟩ => rfl
    | ⟨1, _⟩ => exact hq)

/-- A column of the right piece. -/
theorem concat_cols_right {α : Type} {r a b w : ℕ} (x₁ : (⟨2, ![r, a]⟩ : Shape).Idx → α) (x₂ : (⟨2, ![r, b]⟩ : Shape).Idx → α)
    (h : Shape.Concatenates [(⟨2, ![r, a]⟩ : Shape), ⟨2, ![r, b]⟩] ⟨2, ![r, w]⟩ (1 : Fin 2)) (p : Fin r) (q : Fin w) (q' : Fin b)
    (hq : q'.val + a = q.val) :
    concatenate ⟨2, ![r, w]⟩ (1 : Fin 2) [⟨⟨2, ![r, a]⟩, x₁⟩, ⟨⟨2, ![r, b]⟩, x₂⟩] h (ix2 p q) = x₂ (ix2 p q') :=
  concatenate_pair_apply_right (t := ⟨2, ![r, w]⟩) (s₁ := ⟨2, ![r, a]⟩) (s₂ := ⟨2, ![r, b]⟩) (1 : Fin 2) x₁ x₂ h (ix2 p q) rfl rfl
    (ix2 p q') (fun ax hax => by
      match ax with
      | ⟨0, _⟩ => rfl
      | ⟨1, _⟩ => exact (hax (Fin.ext rfl)).elim) (by exact hq)

/-- The read-out matrix's two transposed halves side by side, narrowed: the joined matrix of the specification. -/
theorem wp_at (X : FVec Ideal S2x128 .f32) (k : Fin 64) (q : Fin 4) :
    truncf .bf16 (concatenate S64x4 1
        [⟨S64x2, transpose S64x2 [1, 0] (extractStridedSlice S2x64 ![0, 0] X slices_S2x128_S2x64_0_0) transposes_S2x64_S64x2_1_0⟩,
         ⟨S64x2, transpose S64x2 [1, 0] (extractStridedSlice S2x64 ![0, 64] X slices_S2x128_S2x64_0_64) transposes_S2x64_S64x2_1_0⟩]
        concatenates_S64x2_S64x2_S64x4_d1) bitsLt_bf16_f32 (ix2 k q)
      = Sage.wpCat (Sage.mat X) k q := by
  rw [truncf_apply]
  unfold Sage.wpCat Sage.cat
  have hq4 : q.val < 4 := q.isLt
  by_cases hq : q.val < 2
  · rw [dif_pos hq]
    rw [concat_cols_left _ _ concatenates_S64x2_S64x2_S64x4_d1 k q ⟨q.val, hq⟩ rfl, transpose_ix2_apply,
      slice2_axis1_apply 0 X slices_S2x128_S2x64_0_0 ⟨q.val, hq⟩ k (Sage.inl (by decide) k) (by simp [Sage.inl])]
    rfl
  · rw [dif_neg hq]
    rw [concat_cols_right _ _ concatenates_S64x2_S64x2_S64x4_d1 k q ⟨q.val - 2, by omega⟩ (by show q.val - 2 + 2 = q.val; omega),
      transpose_ix2_apply,
      slice2_axis1_apply 64 X slices_S2x128_S2x64_0_64 ⟨q.val - 2, by omega⟩ k (Sage.inr 64 (by decide) k) rfl]
    rfl

/-! ## The edge array's destination row as the scatters read it, and the scatters at an entry -/

/-- Row 1 of the edge array, laid out as a column: the word of edge `e`. -/
theorem dst_col (ei : IVec S2x1600000 32) (e : Fin 1600000) :
    broadcastInDim S1600000x1 ![0] bcast_S1600000_S1600000x1_0
      (shapeCast S1600000 (extractStridedSlice S1x1600000 ![1, 0] ei slices_S2x1600000_S1x1600000_1_0) shapeCasts_S1x1600000_S1600000)
      (ix2 e (0 : Fin 1)) = ei (ix2 (1 : Fin 2) e) := by
  refine (broadcastInDim_apply _ _ _ _ (ix1 e) (fun a => ?_)).trans ?_
  · match a with
    | ⟨0, _⟩ => show e.val = if (1600000 : Nat) = 1 then 0 else e.val; rw [if_neg (by decide)]
  · rw [shapeCast_1a_a_apply, slice2_axis0_apply 1 ei slices_S2x1600000_S1x1600000_1_0 (0 : Fin 1) e (1 : Fin 2) rfl]

/-- The host's accumulating scatter over the extended reals is the exact per-entry sum. -/
theorem scatterAdd_ideal {s si u : Shape} {w : Nat} {φ : FTy} (d : ScatterDims s si u) (x : FVec Ideal s φ) (idx : IVec si w)
    (upd : FVec Ideal u φ) : Host.scatterAdd d x idx upd = Ideal.hostScatterAdd d x idx upd := rfl

/-- The printed dimension numbers of the 32-column row scatter are the row scatter's. -/
theorem dims32_eq : scatter_S100000x32_S1600000x1_S1600000x32_1_0_0_1
    = ScatterRows.rowDims 100000 32 1600000 scatter_S100000x32_S1600000x1_S1600000x32_1_0_0_1_wf := rfl

/-- The zero array the 32-column scatter adds into. -/
theorem zero_splat32 (i : S100000x32.Idx) :
    broadcastInDim S100000x32 ![] bcast_S_S100000x32 (constant (F := Ideal) S_ .f32 0x00000000#32) i = 0 := by
  unfold broadcastInDim constant
  exact Sage.ofBits_zero

/-- The edge rows summed per destination into zeros, narrowed. -/
theorem sume_at (ei : IVec S2x1600000 32) (EA : FVec Ideal S1600000x32 .f32) (n : Fin 100000) (j : Fin 32) :
    truncf .bf16 (Host.scatterAdd scatter_S100000x32_S1600000x1_S1600000x32_1_0_0_1
        (broadcastInDim S100000x32 ![] bcast_S_S100000x32 (constant (F := Ideal) S_ .f32 0x00000000#32))
        (broadcastInDim S1600000x1 ![0] bcast_S1600000_S1600000x1_0
          (shapeCast S1600000 (extractStridedSlice S1x1600000 ![1, 0] ei slices_S2x1600000_S1x1600000_1_0) shapeCasts_S1x1600000_S1600000))
        EA) bitsLt_bf16_f32 (ix2 n j)
      = Sage.scat (N := 100000) (Sage.dstI ei) (Sage.mat EA) n j := by
  rw [truncf_apply]
  rw [scatterAdd_ideal, dims32_eq]
  refine (Sage.scatter_rows_at scatter_S100000x32_S1600000x1_S1600000x32_1_0_0_1_wf _ (fun i => zero_splat32 i) _ EA n j).trans ?_
  unfold Sage.scat
  refine Finset.sum_congr rfl fun e _ => ?_
  beta_reduce
  rw [dst_col]
  rfl

/-! ## The count columns as the first host stretch computes them -/

/-- Row 1 of the edge array as a column of words. -/
def dstColumn (ei : IVec S2x1600000 32) : IVec S1600000x1 32 :=
  broadcastInDim S1600000x1 ![0] bcast_S1600000_S1600000x1_0
    (shapeCast S1600000 (extractStridedSlice S1x1600000 ![1, 0] ei slices_S2x1600000_S1x1600000_1_0) shapeCasts_S1x1600000_S1600000)

/-- A one per edge, summed per destination into zeros: the count column. -/
def cntColumn (ei : IVec S2x1600000 32) : FVec Ideal S100000x1 .f32 :=
  Host.scatterAdd scatter_S100000x1_S1600000x1_S1600000x1_1_0_0_1
    (broadcastInDim S100000x1 ![] bcast_S_S100000x1 (constant (F := Ideal) S_ .f32 0x00000000#32))
    (dstColumn ei)
    (broadcastInDim S1600000x1 ![] bcast_S_S1600000x1 (constant (F := Ideal) S_ .f32 0x3F800000#32))

/-- The two count columns side by side: one over the clamped count, and the indicator of a positive count. -/
def cntInfo (ei : IVec S2x1600000 32) : FVec Ideal S100000x2 .f32 :=
  concatenate S100000x2 1
    [⟨S100000x1, Host.divf (broadcastInDim S100000x1 ![] bcast_S_S100000x1 (constant (F := Ideal) S_ .f32 0x3F800000#32))
        (maximumf (cntColumn ei) (broadcastInDim S100000x1 ![] bcast_S_S100000x1 (constant (F := Ideal) S_ .f32 0x3F800000#32)))⟩,
     ⟨S100000x1, uitofp .f32 (cmpf .ogt (cntColumn ei)
        (broadcastInDim S100000x1 ![] bcast_S_S100000x1 (constant (F := Ideal) S_ .f32 0x00000000#32)))⟩]
    concatenates_S100000x1_S100000x1_S100000x2_d1

set_option maxHeartbeats 4000000 in
/-- The count array after the first host stretch is that function of the edge array. -/
theorem W1_main_v19 : W1 (F := Ideal) m ρ c (Proc.devRef .tc main_v19) = cntInfo (m ((c.tc : Thread nD τ).loc main_arg12)) := by
  show StableHlo.after hostOps0 (W0 m ρ c) (Proc.devRef .tc main_v19) = _
  after_results
  rfl

/-- The printed dimension numbers of the one-column row scatter are the row scatter's. -/
theorem dims1_eq : scatter_S100000x1_S1600000x1_S1600000x1_1_0_0_1
    = ScatterRows.rowDims 100000 1 1600000 scatter_S100000x1_S1600000x1_S1600000x1_1_0_0_1_wf := rfl

/-- The constant columns of the count computation: a one per edge, and a zero and a one per node. -/
theorem one_per_edge (i : S1600000x1.Idx) :
    broadcastInDim S1600000x1 ![] bcast_S_S1600000x1 (constant (F := Ideal) S_ .f32 0x3F800000#32) i = 1 := by
  unfold broadcastInDim constant
  exact Sage.ofBits_one
theorem zero_per_node (i : S100000x1.Idx) :
    broadcastInDim S100000x1 ![] bcast_S_S100000x1 (constant (F := Ideal) S_ .f32 0x00000000#32) i = 0 := by
  unfold broadcastInDim constant
  exact Sage.ofBits_zero
theorem one_per_node (i : S100000x1.Idx) :
    broadcastInDim S100000x1 ![] bcast_S_S100000x1 (constant (F := Ideal) S_ .f32 0x3F800000#32) i = 1 := by
  unfold broadcastInDim constant
  exact Sage.ofBits_one

/-- The count column at node `n`: the number of edges whose destination word is `n`. -/
theorem cntColumn_at (ei : IVec S2x1600000 32) (n : Fin 100000) :
    cntColumn ei (ix2 n (0 : Fin 1)) = Sage.cnt (N := 100000) (Sage.dstI ei) n := by
  rw [cntColumn, dstColumn, scatterAdd_ideal, dims1_eq]
  refine (Sage.scatter_rows_at scatter_S100000x1_S1600000x1_S1600000x1_1_0_0_1_wf _ (fun i => zero_per_node i) _ _ n (0 : Fin 1)).trans ?_
  unfold Sage.scat Sage.cnt
  refine Finset.sum_congr rfl fun e _ => ?_
  beta_reduce
  rw [dst_col, one_per_edge]
  rfl

/-- The host's division and comparison, entry by entry. -/
theorem hostDivf_at {s : Shape} {φ : FTy} (a b : FVec Ideal s φ) (i : s.Idx) : Host.divf a b i = Ideal.div (a i) (b i) := rfl
theorem uitofp_at {s : Shape} (x : IVec s 1) (i : s.Idx) :
    (uitofp .f32 x : FVec Ideal s .f32) i = (((x i).toNat : ℝ) : EReal) := rfl
theorem cmpf_at {s : Shape} {φ : FTy} (p : CmpFPredicate) (a b : FVec Ideal s φ) (i : s.Idx) :
    cmpf p a b i = Ideal.cmp p (a i) (b i) := rfl

/-- Column 0 of the count array: one over the clamped count. -/
theorem cntInfo_col0 (ei : IVec S2x1600000 32) (n : Fin 100000) :
    cntInfo ei (ix2 n (0 : Fin 2)) = Sage.invc (N := 100000) (Sage.dstI ei) n := by
  rw [cntInfo, concat_cols_left _ _ concatenates_S100000x1_S100000x1_S100000x2_d1 n (0 : Fin 2) (0 : Fin 1) rfl,
    hostDivf_at, maximumf_apply, one_per_node, cntColumn_at]
  rfl

/-- Column 1 of the count array: the indicator of a positive count. -/
theorem cntInfo_col1 (ei : IVec S2x1600000 32) (n : Fin 100000) :
    cntInfo ei (ix2 n (1 : Fin 2)) = Sage.maskc (N := 100000) (Sage.dstI ei) n := by
  rw [cntInfo, concat_cols_right _ _ concatenates_S100000x1_S100000x1_S100000x2_d1 n (1 : Fin 2) (0 : Fin 1) rfl,
    uitofp_at, cmpf_at, zero_per_node, cntColumn_at]
  rfl

/-! ## What the second call finds, of the windows that do not depend on the first call's result -/

theorem h1_sume : Sage.mat (V3 (F := Ideal) m ρ c main_v7) = Sage.scat (inDI) (inEA) := by
  funext n j
  show V3 (F := Ideal) m ρ c main_v7 (ix2 n j) = _
  rw [V3_main_v7 m ρ c]
  show StableHlo.after hostOps0 (W0 m ρ c) (Proc.devRef .tc main_v7) (ix2 n j) = _
  after_results
  exact sume_at _ _ n j
theorem h1_inv : (fun n : Fin 100000 => V3 (F := Ideal) m ρ c main_v19 (ix2 n (0 : Fin 2))) = Sage.invc (inDI) := by
  funext n
  show V3 (F := Ideal) m ρ c main_v19 (ix2 n (0 : Fin 2)) = _
  rw [V3_main_v19 m ρ c, W1_main_v19 m ρ c]
  exact cntInfo_col0 _ n
theorem h1_mask : (fun n : Fin 100000 => V3 (F := Ideal) m ρ c main_v19 (ix2 n (1 : Fin 2))) = Sage.maskc (inDI) := by
  funext n
  show V3 (F := Ideal) m ρ c main_v19 (ix2 n (1 : Fin 2)) = _
  rw [V3_main_v19 m ρ c, W1_main_v19 m ρ c]
  exact cntInfo_col1 _ n
theorem h1_wmx : Sage.mat (V3 (F := Ideal) m ρ c main_v51) = fun k j => inW2m j (Sage.inl (by decide) k) := by
  funext k j
  show StableHlo.after hostOps1 (W2 m ρ c) (Proc.devRef .tc main_v51) (ix2 k j) = _
  after_results
  rw [W2_main_arg6 m ρ c]
  exact leftT_64x96 _ k j
theorem h1_wme : Sage.mat (V3 (F := Ideal) m ρ c main_v54) = fun k j => inW2m j (Sage.inr 64 (by decide) k) := by
  funext k j
  show StableHlo.after hostOps1 (W2 m ρ c) (Proc.devRef .tc main_v54) (ix2 k j) = _
  after_results
  rw [W2_main_arg6 m ρ c]
  exact rightT_64x96 _ k j
theorem h1_bm : Sage.row0 (V3 (F := Ideal) m ρ c main_v55) = inB2m := by
  funext j
  show StableHlo.after hostOps1 (W2 m ρ c) (Proc.devRef .tc main_v55) (ix2 (0 : Fin 1) j) = _
  after_results
  rw [W2_main_arg7 m ρ c]
  exact row_of_vec64 _ j
theorem h1_wax : Sage.mat (V3 (F := Ideal) m ρ c main_v58) = fun k j => inW2a j (Sage.inl (by decide) k) := by
  funext k j
  show StableHlo.after hostOps1 (W2 m ρ c) (Proc.devRef .tc main_v58) (ix2 k j) = _
  after_results
  rw [W2_main_arg8 m ρ c]
  exact leftT_64x128 _ k j
theorem h1_waa : Sage.mat (V3 (F := Ideal) m ρ c main_v61) = fun k j => inW2a j (Sage.inr 64 (by decide) k) := by
  funext k j
  show StableHlo.after hostOps1 (W2 m ρ c) (Proc.devRef .tc main_v61) (ix2 k j) = _
  after_results
  rw [W2_main_arg8 m ρ c]
  exact rightT_64x128 _ k j
theorem h1_ba : Sage.row0 (V3 (F := Ideal) m ρ c main_v62) = inB2a := by
  funext j
  show StableHlo.after hostOps1 (W2 m ρ c) (Proc.devRef .tc main_v62) (ix2 (0 : Fin 1) j) = _
  after_results
  rw [W2_main_arg9 m ρ c]
  exact row_of_vec64 _ j
theorem h1_wp : Sage.mat (V3 (F := Ideal) m ρ c main_v68) = Sage.wpCat (inWp) := by
  funext k q
  show StableHlo.after hostOps1 (W2 m ρ c) (Proc.devRef .tc main_v68) (ix2 k q) = _
  after_results
  rw [W2_main_arg10 m ρ c]
  exact wp_at _ k q

end Cert.KernelIdeal.HostA2

end
-- ==== Proof.HostB.lean ====
/-
  The windows of the second pallas_call that depend on the first call's result, and the program's result.

  Between the calls the host clamps the first call's output below at zero, gathers its rows at every edge's source and
  sums them per destination. After the second call it cuts the four-column result into its two halves, gathers the
  first half at every edge's source and the second at its destination, adds them and adds the read-out bias.
-/
import proofs.«402061_j76029511073825_3_alg».proof.Proof.Gen.KernelIdeal.Frame
import proofs.«402061_j76029511073825_3_alg».proof.Proof.Idx
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384
set_option quotPrecheck false

noncomputable section

open scoped BigOperators

namespace Cert.KernelIdeal.HostB

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg) (c : Dev nD)

/-! The inputs read off the launch memory of device `c`. -/
local notation "inEi" => (m ((c.tc : Thread nD τ).loc main_arg12) : Sage.EdgeArr)
local notation "inRs" => Sage.rhoS (m ((c.tc : Thread nD τ).loc main_arg12) : Sage.EdgeArr)
local notation "inRd" => Sage.rhoD (m ((c.tc : Thread nD τ).loc main_arg12) : Sage.EdgeArr)
local notation "inDI" => Sage.dstI (m ((c.tc : Thread nD τ).loc main_arg12) : Sage.EdgeArr)
local notation "inX" => (Sage.mat (m ((c.tc : Thread nD τ).loc main_arg0)) : Sage.Mat 100000 64)
local notation "inEA" => (Sage.mat (m ((c.tc : Thread nD τ).loc main_arg1)) : Sage.Mat 1600000 32)
local notation "inW1m" => (Sage.mat (m ((c.tc : Thread nD τ).loc main_arg2)) : Sage.Mat 64 96)
local notation "inB1m" => (Sage.vec (m ((c.tc : Thread nD τ).loc main_arg3)) : Fin 64 → EReal)
local notation "inW1a" => (Sage.mat (m ((c.tc : Thread nD τ).loc main_arg4)) : Sage.Mat 64 128)
local notation "inB1a" => (Sage.vec (m ((c.tc : Thread nD τ).loc main_arg5)) : Fin 64 → EReal)
local notation "inW2m" => (Sage.mat (m ((c.tc : Thread nD τ).loc main_arg6)) : Sage.Mat 64 96)
local notation "inB2m" => (Sage.vec (m ((c.tc : Thread nD τ).loc main_arg7)) : Fin 64 → EReal)
local notation "inW2a" => (Sage.mat (m ((c.tc : Thread nD τ).loc main_arg8)) : Sage.Mat 64 128)
local notation "inB2a" => (Sage.vec (m ((c.tc : Thread nD τ).loc main_arg9)) : Fin 64 → EReal)
local notation "inWp" => (Sage.mat (m ((c.tc : Thread nD τ).loc main_arg10)) : Sage.Mat 2 128)
local notation "inBp" => (Sage.vec (m ((c.tc : Thread nD τ).loc main_arg11)) : Fin 2 → EReal)

/-! What the two regions left, the hidden rows, and the two launch arrays the later stretches read, each at its literal
    array type. -/
local notation "out1" => (V2 (F := Ideal) m ρ c main_v46 : FVec Ideal S100000x64 .f32)
local notation "hid" => (V3 (F := Ideal) m ρ c main_v48 : FVec Ideal S100000x64 .f32)
local notation "out2" => (V4 (F := Ideal) m ρ c main_v81 : FVec Ideal S100000x4 .f32)
local notation "eiB" => (m ((c.tc : Thread nD τ).loc main_arg12) : IVec S2x1600000 32)
local notation "bpB" => (m ((c.tc : Thread nD τ).loc main_arg11) : FVec Ideal S2 .f32)

/-! ## The index words

Row 0 of the edge array, flattened, is the column of source words; row 1 the column of destination words. A gather's
start column is the wrapped word of each edge, a scatter's index column is the word itself. -/

/-- Row 0 of the edge array as a vector of words. -/
private abbrev srcRow (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000

/-- Row 1 of the edge array as a vector of words. -/
private abbrev dstRow (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- A vector of words as a one-column array. -/
private abbrev col (s : (⟨S1600000, .i32⟩ : BufTy).Contents (Elt Ideal)) : (⟨S1600000x1, .i32⟩ : BufTy).Contents (Elt Ideal) :=
  broadcastInDim S1600000x1 ![0] bcast_S1600000_S1600000x1_0 s

/-- The one-column array of wrapped words: a negative word has the node count added. -/
private abbrev wrapCol (s : (⟨S1600000, .i32⟩ : BufTy).Contents (Elt Ideal)) : (⟨S1600000x1, .i32⟩ : BufTy).Contents (Elt Ideal) :=
  col (select (cmpi .slt s (broadcastInDim S1600000 ![] bcast_S_S1600000 (constantI S_ 32 0#32)))
        (addi s (broadcastInDim S1600000 ![] bcast_S_S1600000 (constantI S_ 32 100000#32))) s)

private theorem srcRow_apply (ei : (⟨S2x1600000, .i32⟩ : BufTy).Contents (Elt Ideal)) (e : Fin 1600000) :
    srcRow ei (ix1 e) = Sage.srcW ei e := by
  show shapeCast S1600000 (extractStridedSlice S1x1600000 ![0, 0] ei slices_S2x1600000_S1x1600000_0_0) shapeCasts_S1x1600000_S1600000 (ix1 e) = _
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![0, 0] ei slices_S2x1600000_S1x1600000_0_0 (ix2 (0 : Fin 1) e) (ix2 (0 : Fin 2) e)
    (fun a => match a with
      | ⟨0, _⟩ => by show (0 : ℕ) = 0 + 0; rfl
      | ⟨1, _⟩ => by show e.val = 0 + e.val; omega)

private theorem dstRow_apply (ei : (⟨S2x1600000, .i32⟩ : BufTy).Contents (Elt Ideal)) (e : Fin 1600000) :
    dstRow ei (ix1 e) = Sage.dstW ei e := by
  show shapeCast S1600000 (extractStridedSlice S1x1600000 ![1, 0] ei slices_S2x1600000_S1x1600000_1_0) shapeCasts_S1x1600000_S1600000 (ix1 e) = _
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![1, 0] ei slices_S2x1600000_S1x1600000_1_0 (ix2 (0 : Fin 1) e) (ix2 (1 : Fin 2) e)
    (fun a => match a with
      | ⟨0, _⟩ => by show (1 : ℕ) = 1 + 0; rfl
      | ⟨1, _⟩ => by show e.val = 0 + e.val; omega)

private theorem col_apply (s : (⟨S1600000, .i32⟩ : BufTy).Contents (Elt Ideal)) (e : Fin 1600000) :
    col s (ix2 e (0 : Fin 1)) = s (ix1 e) :=
  broadcastInDim_apply _ bcast_S1600000_S1600000x1_0 s (ix2 e (0 : Fin 1)) (ix1 e) (fun a => match a with
    | ⟨0, _⟩ => by show e.val = if (1600000 : Nat) = 1 then 0 else e.val; rw [if_neg (by decide)])

private theorem wrapCol_apply (s : (⟨S1600000, .i32⟩ : BufTy).Contents (Elt Ideal)) (e : Fin 1600000) :
    wrapCol s (ix2 e (0 : Fin 1)) = Sage.wrap (s (ix1 e)) := by
  show col _ (ix2 e (0 : Fin 1)) = _
  rw [col_apply]
  rfl

/-! ## The index buffers at the later boundaries

The first host stretch writes the two index vectors; no later stretch and no region writes them, so at every later
boundary they hold what the first stretch left: rows 0 and 1 of the edge array. The same walk brings the read-out bias
back to the launch memory. -/

private theorem W1_v1 : W1 (F := Ideal) m ρ c (Proc.devRef .tc main_v1) = srcRow (m ((c.tc : Thread nD τ).loc main_arg12)) := by
  show StableHlo.after hostOps0 (W0 (F := Ideal) m ρ c) (Proc.devRef .tc main_v1) = _
  after_results
  first | done | rfl

private theorem W1_v3 : W1 (F := Ideal) m ρ c (Proc.devRef .tc main_v3) = dstRow (m ((c.tc : Thread nD τ).loc main_arg12)) := by
  show StableHlo.after hostOps0 (W0 (F := Ideal) m ρ c) (Proc.devRef .tc main_v3) = _
  after_results
  first | done | rfl

private theorem W2_v1 : W2 (F := Ideal) m ρ c (Proc.devRef .tc main_v1) = srcRow (m ((c.tc : Thread nD τ).loc main_arg12)) :=
  (W2_of_ne m ρ c main_v1 (by decide)).trans (W1_v1 m ρ c)

private theorem W2_v3 : W2 (F := Ideal) m ρ c (Proc.devRef .tc main_v3) = dstRow (m ((c.tc : Thread nD τ).loc main_arg12)) :=
  (W2_of_ne m ρ c main_v3 (by decide)).trans (W1_v3 m ρ c)

private theorem W3_v1 : W3 (F := Ideal) m ρ c (Proc.devRef .tc main_v1) = srcRow (m ((c.tc : Thread nD τ).loc main_arg12)) := by
  show StableHlo.after hostOps1 (W2 (F := Ideal) m ρ c) (Proc.devRef .tc main_v1) = _
  after_results
  exact W2_v1 m ρ c

private theorem W3_v3 : W3 (F := Ideal) m ρ c (Proc.devRef .tc main_v3) = dstRow (m ((c.tc : Thread nD τ).loc main_arg12)) := by
  show StableHlo.after hostOps1 (W2 (F := Ideal) m ρ c) (Proc.devRef .tc main_v3) = _
  after_results
  exact W2_v3 m ρ c

private theorem W4_v1 : W4 (F := Ideal) m ρ c (Proc.devRef .tc main_v1) = srcRow (m ((c.tc : Thread nD τ).loc main_arg12)) :=
  (W4_of_ne m ρ c main_v1 (by decide)).trans (W3_v1 m ρ c)

private theorem W4_v3 : W4 (F := Ideal) m ρ c (Proc.devRef .tc main_v3) = dstRow (m ((c.tc : Thread nD τ).loc main_arg12)) :=
  (W4_of_ne m ρ c main_v3 (by decide)).trans (W3_v3 m ρ c)

private theorem W4_arg11 : W4 (F := Ideal) m ρ c (Proc.devRef .tc main_arg11) = m ((c.tc : Thread nD τ).loc main_arg11) := by
  rw [W4_of_ne m ρ c main_arg11 (by decide)]
  show StableHlo.after hostOps1 (W2 (F := Ideal) m ρ c) (Proc.devRef .tc main_arg11) = _
  after_results
  rw [W2_of_ne m ρ c main_arg11 (by decide)]
  show StableHlo.after hostOps0 (W0 (F := Ideal) m ρ c) (Proc.devRef .tc main_arg11) = _
  after_results
  first | done | rfl

/-! ## The buffers of the second and third host stretches as terms over what the regions left -/

/-- The array of zeros a clamp compares with and a scatter-add starts from. -/
private abbrev zeros64 : FVec Ideal S100000x64 .f32 :=
  broadcastInDim S100000x64 ![] bcast_S_S100000x64 (constant (F := Ideal) S_ .f32 0x00000000#32)

private theorem zeros64_apply (i : S100000x64.Idx) : zeros64 i = (0 : EReal) := by
  show Ideal.ofBits .f32 0x00000000#32 = 0
  exact Sage.ofBits_zero

/-- Rows of `x` gathered at every edge's wrapped source word and summed per destination word, into zeros. -/
private abbrev sumxTerm (x : FVec Ideal S100000x64 .f32) (s d : IVec S1600000 32) : FVec Ideal S100000x64 .bf16 :=
  truncf (F := Ideal) .bf16
    (Host.scatterAdd (F := Ideal) scatter_S100000x64_S1600000x1_S1600000x64_1_0_0_1 zeros64 (col d)
      (Host.gather gather_S100000x64_S1600000x1_S1600000x64_1_0_n_n_0_1_164 x (wrapCol s)))
    bitsLt_bf16_f32

/-- The two halves of `y` gathered at every edge's wrapped source and destination word, added, plus the bias row. -/
private abbrev outTerm (y : FVec Ideal S100000x4 .f32) (s d : IVec S1600000 32) (b : FVec Ideal S2 .f32) :
    FVec Ideal S1600000x2 .f32 :=
  addf (F := Ideal)
    (addf (F := Ideal)
      (Host.gather gather_S100000x2_S1600000x1_S1600000x2_1_0_n_n_0_1_12
        (extractStridedSlice S100000x2 ![0, 0] y slices_S100000x4_S100000x2_0_0) (wrapCol s))
      (Host.gather gather_S100000x2_S1600000x1_S1600000x2_1_0_n_n_0_1_12
        (extractStridedSlice S100000x2 ![0, 2] y slices_S100000x4_S100000x2_0_2) (wrapCol d)))
    (broadcastInDim S1600000x2 ![0, 1] bcast_S1x2_S1600000x2_0_1 (shapeCast S1x2 b shapeCasts_S2_S1x2))

private theorem v48_raw : hid = maximumf (F := Ideal) out1 zeros64 := by
  show StableHlo.after hostOps1 (W2 (F := Ideal) m ρ c) (Proc.devRef .tc main_v48) = _
  after_results
  first | done | rfl

private theorem v80_raw : (V3 (F := Ideal) m ρ c main_v80 : FVec Ideal S100000x64 .bf16)
    = truncf (F := Ideal) .bf16 (maximumf (F := Ideal) out1 zeros64) bitsLt_bf16_f32 := by
  show StableHlo.after hostOps1 (W2 (F := Ideal) m ρ c) (Proc.devRef .tc main_v80) = _
  after_results
  first | done | rfl

private theorem v79_exp : (V3 (F := Ideal) m ρ c main_v79 : FVec Ideal S100000x64 .bf16)
    = sumxTerm (maximumf (F := Ideal) out1 zeros64)
        (W2 (F := Ideal) m ρ c (Proc.devRef .tc main_v1)) (W2 (F := Ideal) m ρ c (Proc.devRef .tc main_v3)) := by
  show StableHlo.after hostOps1 (W2 (F := Ideal) m ρ c) (Proc.devRef .tc main_v79) = _
  after_results_simp
  first | done | rfl

private theorem v79_raw : (V3 (F := Ideal) m ρ c main_v79 : FVec Ideal S100000x64 .bf16)
    = sumxTerm hid (srcRow eiB) (dstRow eiB) :=
  (v79_exp m ρ c).trans (congr (congr (congrArg sumxTerm (v48_raw m ρ c).symm) (W2_v1 m ρ c)) (W2_v3 m ρ c))

private theorem v101_exp : (W5 (F := Ideal) m ρ c (Proc.devRef .tc main_v101) : FVec Ideal S1600000x2 .f32)
    = outTerm out2 (W4 (F := Ideal) m ρ c (Proc.devRef .tc main_v1)) (W4 (F := Ideal) m ρ c (Proc.devRef .tc main_v3))
        (W4 (F := Ideal) m ρ c (Proc.devRef .tc main_arg11)) := by
  show StableHlo.after hostOps2 (W4 (F := Ideal) m ρ c) (Proc.devRef .tc main_v101) = _
  after_results_simp
  first | done | rfl

private theorem v101_raw : (W5 (F := Ideal) m ρ c (Proc.devRef .tc main_v101) : FVec Ideal S1600000x2 .f32)
    = outTerm out2 (srcRow eiB) (dstRow eiB) bpB :=
  (v101_exp m ρ c).trans (congr (congr (congrArg (outTerm out2) (W4_v1 m ρ c)) (W4_v3 m ρ c)) (W4_arg11 m ρ c))

/-! ## Reading the indexed operations at an entry -/

/-- A gather of 64-wide rows at the wrapped words of `s` reads, for edge `e`, the table row `rowClamp (wrap (s e))`. -/
private theorem gather64_at (x : FVec Ideal S100000x64 .f32) (s : IVec S1600000 32) (e : Fin 1600000) (k : Fin 64) :
    Host.gather gather_S100000x64_S1600000x1_S1600000x64_1_0_n_n_0_1_164 x (wrapCol s) (ix2 e k)
      = x (ix2 (Sage.rowClamp (Sage.wrap (s (ix1 e)))) k) := by
  rw [← wrapCol_apply s e]
  exact Sage.gather_rows_at gather_S100000x64_S1600000x1_S1600000x64_1_0_n_n_0_1_164_wf x (wrapCol s) e k

/-- The same for 2-wide rows. -/
private theorem gather2_at (x : FVec Ideal S100000x2 .f32) (s : IVec S1600000 32) (e : Fin 1600000) (k : Fin 2) :
    Host.gather gather_S100000x2_S1600000x1_S1600000x2_1_0_n_n_0_1_12 x (wrapCol s) (ix2 e k)
      = x (ix2 (Sage.rowClamp (Sage.wrap (s (ix1 e)))) k) := by
  rw [← wrapCol_apply s e]
  exact Sage.gather_rows_at gather_S100000x2_S1600000x1_S1600000x2_1_0_n_n_0_1_12_wf x (wrapCol s) e k

/-- Columns 0, 1 of a four-column array. -/
private theorem half0_apply (y : FVec Ideal S100000x4 .f32) (r : Fin 100000) (o : Fin 2) :
    extractStridedSlice S100000x2 ![0, 0] y slices_S100000x4_S100000x2_0_0 (ix2 r o) = y (ix2 r (Sage.inl (by decide) o)) :=
  extractStridedSlice_apply ![0, 0] y slices_S100000x4_S100000x2_0_0 (ix2 r o) (ix2 r (Sage.inl (by decide) o))
    (fun a => match a with
      | ⟨0, _⟩ => by show r.val = 0 + r.val; omega
      | ⟨1, _⟩ => by show o.val = 0 + o.val; omega)

/-- Columns 2, 3 of a four-column array. -/
private theorem half2_apply (y : FVec Ideal S100000x4 .f32) (r : Fin 100000) (o : Fin 2) :
    extractStridedSlice S100000x2 ![0, 2] y slices_S100000x4_S100000x2_0_2 (ix2 r o) = y (ix2 r (Sage.inr 2 (by decide) o)) :=
  extractStridedSlice_apply ![0, 2] y slices_S100000x4_S100000x2_0_2 (ix2 r o) (ix2 r (Sage.inr 2 (by decide) o))
    (fun a => match a with
      | ⟨0, _⟩ => by show r.val = 0 + r.val; omega
      | ⟨1, _⟩ => by show 2 + o.val = 2 + o.val; rfl)

/-- The bias row, reshaped to one row and repeated down the edges. -/
private theorem bias_apply (b : FVec Ideal S2 .f32) (e : Fin 1600000) (o : Fin 2) :
    broadcastInDim S1600000x2 ![0, 1] bcast_S1x2_S1600000x2_0_1 (shapeCast S1x2 b shapeCasts_S2_S1x2) (ix2 e o) = b (ix1 o) := by
  rw [broadcastInDim_apply _ bcast_S1x2_S1600000x2_0_1 _ (ix2 e o) (ix2 (0 : Fin 1) o) (fun a => match a with
    | ⟨0, _⟩ => by show (0 : ℕ) = if (1 : Nat) = 1 then 0 else e.val; rw [if_pos rfl]
    | ⟨1, _⟩ => by show o.val = if (2 : Nat) = 1 then 0 else o.val; rw [if_neg (by decide)])]
  exact shapeCast_apply b shapeCasts_S2_S1x2 (ix2 (0 : Fin 1) o) (ix1 o)
    (by rewrite [Shape.rowMajor_val_one, Shape.rowMajor_val_two]; show o.val = 0 * 2 + o.val; omega)

/-- The per-destination sum of gathered rows is a scatter-add into zeros, after the identity conversion. -/
private theorem sumx_unfold (x : FVec Ideal S100000x64 .f32) (s d : IVec S1600000 32) (n : Fin 100000) (j : Fin 64) :
    Sage.mat (r := 100000) (c := 64) (sumxTerm x s d) n j
      = Host.scatterAdd (F := Ideal) scatter_S100000x64_S1600000x1_S1600000x64_1_0_0_1 zeros64 (col d)
          (Host.gather gather_S100000x64_S1600000x1_S1600000x64_1_0_n_n_0_1_164 x (wrapCol s)) (ix2 n j) := rfl

/-- The host scatter-add over the extended reals is the exact sum, at the row scatter's dimension numbers. -/
private theorem scatterAdd64_eq (x : FVec Ideal S100000x64 .f32) (idx : IVec S1600000x1 32) (upd : FVec Ideal S1600000x64 .f32) :
    Host.scatterAdd (F := Ideal) scatter_S100000x64_S1600000x1_S1600000x64_1_0_0_1 x idx upd
      = Ideal.hostScatterAdd (ScatterRows.rowDims 100000 64 1600000 scatter_S100000x64_S1600000x1_S1600000x64_1_0_0_1_wf) x idx upd := rfl

/-- The per-destination sum of gathered rows, entry by entry. -/
private theorem sumx_of (x : FVec Ideal S100000x64 .f32) (ei : IVec S2x1600000 32) :
    Sage.mat (r := 100000) (c := 64) (sumxTerm x (srcRow ei) (dstRow ei))
      = Sage.scat (Sage.dstI ei) (fun e => Sage.mat (r := 100000) (c := 64) x (Sage.rhoS ei e)) := by
  funext n j
  have hd : (fun e : Fin 1600000 => (col (dstRow ei) (ix2 e (0 : Fin 1))).toInt) = Sage.dstI ei :=
    funext fun e => by rw [col_apply, dstRow_apply]; rfl
  have hu : (fun (e : Fin 1600000) (j : Fin 64) =>
        Host.gather gather_S100000x64_S1600000x1_S1600000x64_1_0_n_n_0_1_164 x (wrapCol (srcRow ei)) (ix2 e j))
      = fun e => Sage.mat (r := 100000) (c := 64) x (Sage.rhoS ei e) :=
    funext fun e => funext fun j => by rw [gather64_at, srcRow_apply]; rfl
  refine (sumx_unfold x (srcRow ei) (dstRow ei) n j).trans ?_
  refine (congrFun (scatterAdd64_eq zeros64 (col (dstRow ei))
    (Host.gather gather_S100000x64_S1600000x1_S1600000x64_1_0_n_n_0_1_164 x (wrapCol (srcRow ei)))) (ix2 n j)).trans ?_
  refine (Sage.scatter_rows_at scatter_S100000x64_S1600000x1_S1600000x64_1_0_0_1_wf zeros64 zeros64_apply
    (col (dstRow ei)) (Host.gather gather_S100000x64_S1600000x1_S1600000x64_1_0_n_n_0_1_164 x (wrapCol (srcRow ei))) n j).trans ?_
  exact congrFun (congrFun (congrArg₂ (Sage.scat (N := 100000)) hd hu) n) j
/-- The read-out, entry by entry. -/
private theorem out_of (y : FVec Ideal S100000x4 .f32) (ei : IVec S2x1600000 32) (b : FVec Ideal S2 .f32)
    (e : Fin 1600000) (o : Fin 2) :
    Sage.mat (r := 1600000) (c := 2) (outTerm y (srcRow ei) (dstRow ei) b) e o
      = (Sage.mat (r := 100000) (c := 4) y (Sage.rhoS ei e) (Sage.inl (by decide) o)
          + Sage.mat (r := 100000) (c := 4) y (Sage.rhoD ei e) (Sage.inr 2 (by decide) o)) + Sage.vec b o := by
  have hA : Host.gather gather_S100000x2_S1600000x1_S1600000x2_1_0_n_n_0_1_12
        (extractStridedSlice S100000x2 ![0, 0] y slices_S100000x4_S100000x2_0_0) (wrapCol (srcRow ei)) (ix2 e o)
      = Sage.mat (r := 100000) (c := 4) y (Sage.rhoS ei e) (Sage.inl (by decide) o) := by
    rw [gather2_at, srcRow_apply, half0_apply]; rfl
  have hB : Host.gather gather_S100000x2_S1600000x1_S1600000x2_1_0_n_n_0_1_12
        (extractStridedSlice S100000x2 ![0, 2] y slices_S100000x4_S100000x2_0_2) (wrapCol (dstRow ei)) (ix2 e o)
      = Sage.mat (r := 100000) (c := 4) y (Sage.rhoD ei e) (Sage.inr 2 (by decide) o) := by
    rw [gather2_at, dstRow_apply, half2_apply]; rfl
  have hC := bias_apply b e o
  exact congrArg₂ (· + ·) (congrArg₂ (· + ·) hA hB) hC

/-! ## The four facts -/

/-- The hidden rows: the first call's output clamped below at zero. -/
theorem h1_h : Sage.mat (V3 (F := Ideal) m ρ c main_v48) = fun n j => max (Sage.mat (r := 100000) (c := 64) (V2 (F := Ideal) m ρ c main_v46) n j) 0 :=
  (congrArg (Sage.mat (r := 100000) (c := 64)) (v48_raw m ρ c)).trans
    (funext fun n => funext fun j =>
      congrArg (fun z : EReal => max (Sage.mat (r := 100000) (c := 64) out1 n j) z) (zeros64_apply (ix2 n j)))
theorem h1_feat : Sage.mat (V3 (F := Ideal) m ρ c main_v80) = Sage.mat (V3 (F := Ideal) m ρ c main_v48) :=
  (congrArg (Sage.mat (r := 100000) (c := 64)) (v80_raw m ρ c)).trans
    (congrArg (Sage.mat (r := 100000) (c := 64)) (v48_raw m ρ c)).symm
theorem h1_sumx : Sage.mat (V3 (F := Ideal) m ρ c main_v79)
    = Sage.scat (inDI) (fun e => Sage.mat (V3 (F := Ideal) m ρ c main_v48) (inRs e)) :=
  (congrArg (Sage.mat (r := 100000) (c := 64)) (v79_raw m ρ c)).trans (sumx_of hid eiB)

/-- The program's result from the second call's output. -/
theorem h2_out (e : Fin 1600000) (o : Fin 2) :
    Sage.mat (r := 1600000) (c := 2) (W5 (F := Ideal) m ρ c (Proc.devRef .tc main_v101)) e o
      = (Sage.mat (r := 100000) (c := 4) (V4 (F := Ideal) m ρ c main_v81) (inRs e) (Sage.inl (by decide) o)
          + Sage.mat (r := 100000) (c := 4) (V4 (F := Ideal) m ρ c main_v81) (inRd e) (Sage.inr 2 (by decide) o)) + inBp o :=
  (congrFun (congrFun (congrArg (Sage.mat (r := 1600000) (c := 2)) (v101_raw m ρ c)) e) o).trans (out_of out2 eiB bpB e o)

end Cert.KernelIdeal.HostB

end
-- ==== Proof.Region0.lean ====
/-
  What pallas_call 0 leaves in its output array, entry by entry.

  The call walks the node axis in 10 tiles of 10000 rows. At tile `t` the body is handed rows `10000 t … 10000 t + 9999`
  of the node-indexed arrays and the whole of every weight array, and stores one block of 64 columns. Row `r` of the
  stored block depends on row `r` of the node-indexed blocks only, so the blocks are the restrictions of one whole-array
  function of the arrays as the call finds them, and the tiles cover every row.

  The body's arithmetic at entry `(r, j)` of a tile: a matrix product into a zero accumulator is the plain sum over the
  contracted axis; the two columns of the count array are read by slices and spread over the 64 columns; the bias rows
  are spread over the 10000 rows; the narrowing of the intermediate sum is the identity on the extended reals.
-/
import proofs.«402061_j76029511073825_3_alg».proof.Proof.Gen.KernelIdeal.Frame
import proofs.«402061_j76029511073825_3_alg».proof.Proof.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## A matrix product into zeros, read at an entry -/

theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs64_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs64_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A `[10000, 64] × [64, 64]` product into zeros at `(p, q)`: the sum over the 64 contracted columns. -/
theorem matmul64_at (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

theorem lhs32_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs32_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
theorem rhs32_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
theorem rhs32_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- A `[10000, 32] × [32, 64]` product into zeros at `(p, q)`: the sum over the 32 contracted columns. -/
theorem matmul32_at (l : FVec Ideal S10000x32 .bf16) (r : FVec Ideal S32x64 .bf16) (p : Fin 10000) (q : Fin 64) :
    matmul dot_S10000x32_S32x64_S10000x64_1_0_0_1_n_n none l r (constant (F := Ideal) S10000x64 .f32 0x00000000#32) (ix2 p q)
      = ∑ k : Fin 32, l (ix2 p k) * r (ix2 k q) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p q) ((contrEquiv1 dot_S10000x32_S32x64_S10000x64_1_0_0_1_n_n 32 rfl rfl).symm k) = ix2 p k := funext fun a => Fin.ext (by
    match a with
    | ⟨0, _⟩ => exact lhs32_0 _ _
    | ⟨1, _⟩ => exact (lhs32_1 _ _).trans hk)
  have er : dot_S10000x32_S32x64_S10000x64_1_0_0_1_n_n.rhsIdx (ix2 p q) ((contrEquiv1 dot_S10000x32_S32x64_S10000x64_1_0_0_1_n_n 32 rfl rfl).symm k) = ix2 k q := funext fun a => Fin.ext (by
    match a with
    | ⟨0, _⟩ => exact (rhs32_0 _ _).trans hk
    | ⟨1, _⟩ => exact rhs32_1 _ _)
  rw [el, er]

/-! ## The layout operations of the body, read at an entry -/

/-- A column `[a, 1]` spread over `b` columns reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an entry of a tile -/

/-- The stored block at `(r, j)`, over the ten loaded blocks: the node's own row times one matrix, plus the aggregate
    row (two products added, scaled by column 0 of the count block, plus the bias where column 1 says so) times
    another, plus a bias, clamped below at zero. -/
theorem payload_at (x0 : Vec Ideal S10000x64 .bf16) (x1 : Vec Ideal S10000x64 .bf16) (x2 : Vec Ideal S10000x32 .bf16)
    (x3 : Vec Ideal S10000x2 .f32) (x4 : Vec Ideal S64x64 .bf16) (x5 : Vec Ideal S32x64 .bf16) (x6 : Vec Ideal S1x64 .f32)
    (x7 : Vec Ideal S64x64 .bf16) (x8 : Vec Ideal S64x64 .bf16) (x9 : Vec Ideal S1x64 .f32) (r : Fin 10000) (j : Fin 64) :
    k0_pay1 (k0_pay2 x3 x1 x4 x2 x5 x6 x0 x7 x8) (k0_pay3 x9) (ix2 r j)
      = max (((∑ k : Fin 64, x0 (ix2 r k) * x7 (ix2 k j))
          + (∑ k : Fin 64, (((∑ k' : Fin 64, x1 (ix2 r k') * x4 (ix2 k' k)) + (∑ k' : Fin 32, x2 (ix2 r k') * x5 (ix2 k' k)))
                * x3 (ix2 r (0 : Fin 2)) + x6 (ix2 (0 : Fin 1) k) * x3 (ix2 r (1 : Fin 2))) * x8 (ix2 k j)))
          + x9 (ix2 (0 : Fin 1) j)) 0 := by
  unfold k0_pay1 k0_pay2 k0_pay3
  simp only [shapeCast_self]
  rw [maximumf_apply, addf_apply, addf_apply, broadcast_apply, broadcastTo_1b_ab_apply, matmul64_at, matmul64_at]
  have hzero : FloatOps.ofBits (F := Ideal) FTy.f32 0x00000000#32 = (0 : EReal) := Ideal.ofBits_zero_f32
  rw [hzero]
  refine congrArg (fun s => max ((∑ k : Fin 64, x0 (ix2 r k) * x7 (ix2 k j)) + s + x9 (ix2 (0 : Fin 1) j)) 0)
    (Finset.sum_congr rfl fun k _ => ?_)
  rw [truncf_apply, addf_apply, mulf_apply, mulf_apply, addf_apply, matmul64_at, matmul32_at, broadcastTo_a1_ab_apply,
    broadcastTo_a1_ab_apply, broadcastTo_1b_ab_apply,
    slice2_axis1_apply 0 x3 slices_S10000x2_o0_0_S10000x1 r (0 : Fin 1) (0 : Fin 2) rfl,
    slice2_axis1_apply 1 x3 slices_S10000x2_o0_1_S10000x1 r (0 : Fin 1) (1 : Fin 2) rfl]

variable (V : (c : Dev nD) → (b : Ref sig .tc) → Buf (Elt Ideal) ((c : Thread nD τ).loc b))

/-! ## The whole output array as one function of the arrays the call finds -/

/-- Entry `i` of the output: the tile formula on row `i 0` of the node-indexed arrays and the whole weight arrays. -/
def whole (c : Dev nD) : S100000x64.Idx → EReal := fun i =>
  Sage.bodyH (N := 100000) (Sage.mat (V c main_v45)) (Sage.mat (V c main_v44)) (Sage.mat (V c main_v7))
    (fun n => V c main_v19 (ix2 n (0 : Fin 2))) (fun n => V c main_v19 (ix2 n (1 : Fin 2)))
    (Sage.mat (V c main_v22)) (Sage.mat (V c main_v25)) (Sage.row0 (V c main_v26))
    (Sage.mat (V c main_v29)) (Sage.mat (V c main_v32)) (Sage.row0 (V c main_v33)) (i 0) (i 1)

theorem zero_offsets : (![0, 0] : Fin 2 → Nat) = fun _ => 0 := funext fun a => by fin_cases a <;> rfl

/-! ## Where each window's block lies at tile `t`

  The node-indexed windows and the output take block `(t, 0)`; every weight window takes block `(0, 0)`. -/

theorem tile_idx0 : ∀ t : Fin cfg0.N, win0_0.index t (0 : Fin 2) = t.val ∧ win0_0.index t (1 : Fin 2) = 0 :=
  (by decide +kernel : ∀ t : Fin grid0.N, _)
theorem tile_idx1 : ∀ t : Fin cfg0.N, win0_1.index t (0 : Fin 2) = t.val ∧ win0_1.index t (1 : Fin 2) = 0 :=
  (by decide +kernel : ∀ t : Fin grid0.N, _)
theorem tile_idx2 : ∀ t : Fin cfg0.N, win0_2.index t (0 : Fin 2) = t.val ∧ win0_2.index t (1 : Fin 2) = 0 :=
  (by decide +kernel : ∀ t : Fin grid0.N, _)
theorem tile_idx3 : ∀ t : Fin cfg0.N, win0_3.index t (0 : Fin 2) = t.val ∧ win0_3.index t (1 : Fin 2) = 0 :=
  (by decide +kernel : ∀ t : Fin grid0.N, _)
theorem tile_idx4 : ∀ t : Fin cfg0.N, win0_4.index t (0 : Fin 2) = 0 ∧ win0_4.index t (1 : Fin 2) = 0 :=
  (by decide +kernel : ∀ t : Fin grid0.N, _)
theorem tile_idx5 : ∀ t : Fin cfg0.N, win0_5.index t (0 : Fin 2) = 0 ∧ win0_5.index t (1 : Fin 2) = 0 :=
  (by decide +kernel : ∀ t : Fin grid0.N, _)
theorem tile_idx6 : ∀ t : Fin cfg0.N, win0_6.index t (0 : Fin 2) = 0 ∧ win0_6.index t (1 : Fin 2) = 0 :=
  (by decide +kernel : ∀ t : Fin grid0.N, _)
theorem tile_idx7 : ∀ t : Fin cfg0.N, win0_7.index t (0 : Fin 2) = 0 ∧ win0_7.index t (1 : Fin 2) = 0 :=
  (by decide +kernel : ∀ t : Fin grid0.N, _)
theorem tile_idx8 : ∀ t : Fin cfg0.N, win0_8.index t (0 : Fin 2) = 0 ∧ win0_8.index t (1 : Fin 2) = 0 :=
  (by decide +kernel : ∀ t : Fin grid0.N, _)
theorem tile_idx9 : ∀ t : Fin cfg0.N, win0_9.index t (0 : Fin 2) = 0 ∧ win0_9.index t (1 : Fin 2) = 0 :=
  (by decide +kernel : ∀ t : Fin grid0.N, _)
theorem tile_idx10 : ∀ t : Fin cfg0.N, win0_10.index t (0 : Fin 2) = t.val ∧ win0_10.index t (1 : Fin 2) = 0 :=
  (by decide +kernel : ∀ t : Fin grid0.N, _)

/-! ## Each input block read where the output's rows say

  A block's coordinate is its block index times the block's extent plus the coordinate inside the block. -/

theorem node_blk0 (c : Dev nD) (t : Fin cfg0.N) (p : Fin 10000) (k : Fin 64) (n : Fin 100000)
    (hn : n.val = t.val * 10000 + p.val) : iblk0 V c 0 t (ix2 p k) = V c main_v45 (ix2 n k) := by
  show V c main_v45 (((cfg0.win 0).blk t).view.emb (ix2 p k)) = V c main_v45 (ix2 n k)
  refine congrArg _ (funext fun a => Fin.ext ?_)
  obtain ⟨e0, e1⟩ := tile_idx0 t
  match a with
  | ⟨0, _⟩ => show win0_0.index t (0 : Fin 2) * 10000 + 1 * p.val = n.val; omega
  | ⟨1, _⟩ => show win0_0.index t (1 : Fin 2) * 64 + 1 * k.val = k.val; omega
theorem node_blk1 (c : Dev nD) (t : Fin cfg0.N) (p : Fin 10000) (k : Fin 64) (n : Fin 100000)
    (hn : n.val = t.val * 10000 + p.val) : iblk0 V c 1 t (ix2 p k) = V c main_v44 (ix2 n k) := by
  show V c main_v44 (((cfg0.win 1).blk t).view.emb (ix2 p k)) = V c main_v44 (ix2 n k)
  refine congrArg _ (funext fun a => Fin.ext ?_)
  obtain ⟨e0, e1⟩ := tile_idx1 t
  match a with
  | ⟨0, _⟩ => show win0_1.index t (0 : Fin 2) * 10000 + 1 * p.val = n.val; omega
  | ⟨1, _⟩ => show win0_1.index t (1 : Fin 2) * 64 + 1 * k.val = k.val; omega
theorem node_blk2 (c : Dev nD) (t : Fin cfg0.N) (p : Fin 10000) (k : Fin 32) (n : Fin 100000)
    (hn : n.val = t.val * 10000 + p.val) : iblk0 V c 2 t (ix2 p k) = V c main_v7 (ix2 n k) := by
  show V c main_v7 (((cfg0.win 2).blk t).view.emb (ix2 p k)) = V c main_v7 (ix2 n k)
  refine congrArg _ (funext fun a => Fin.ext ?_)
  obtain ⟨e0, e1⟩ := tile_idx2 t
  match a with
  | ⟨0, _⟩ => show win0_2.index t (0 : Fin 2) * 10000 + 1 * p.val = n.val; omega
  | ⟨1, _⟩ => show win0_2.index t (1 : Fin 2) * 32 + 1 * k.val = k.val; omega
theorem node_blk3 (c : Dev nD) (t : Fin cfg0.N) (p : Fin 10000) (k : Fin 2) (n : Fin 100000)
    (hn : n.val = t.val * 10000 + p.val) : iblk0 V c 3 t (ix2 p k) = V c main_v19 (ix2 n k) := by
  show V c main_v19 (((cfg0.win 3).blk t).view.emb (ix2 p k)) = V c main_v19 (ix2 n k)
  refine congrArg _ (funext fun a => Fin.ext ?_)
  obtain ⟨e0, e1⟩ := tile_idx3 t
  match a with
  | ⟨0, _⟩ => show win0_3.index t (0 : Fin 2) * 10000 + 1 * p.val = n.val; omega
  | ⟨1, _⟩ => show win0_3.index t (1 : Fin 2) * 2 + 1 * k.val = k.val; omega
theorem weight_blk4 (c : Dev nD) (t : Fin cfg0.N) (a : Fin 64) (b : Fin 64) :
    iblk0 V c 4 t (ix2 a b) = V c main_v22 (ix2 a b) := by
  show V c main_v22 (((cfg0.win 4).blk t).view.emb (ix2 a b)) = V c main_v22 (ix2 a b)
  refine congrArg _ (funext fun ax => Fin.ext ?_)
  obtain ⟨e0, e1⟩ := tile_idx4 t
  match ax with
  | ⟨0, _⟩ => show win0_4.index t (0 : Fin 2) * 64 + 1 * a.val = a.val; omega
  | ⟨1, _⟩ => show win0_4.index t (1 : Fin 2) * 64 + 1 * b.val = b.val; omega
theorem weight_blk5 (c : Dev nD) (t : Fin cfg0.N) (a : Fin 32) (b : Fin 64) :
    iblk0 V c 5 t (ix2 a b) = V c main_v25 (ix2 a b) := by
  show V c main_v25 (((cfg0.win 5).blk t).view.emb (ix2 a b)) = V c main_v25 (ix2 a b)
  refine congrArg _ (funext fun ax => Fin.ext ?_)
  obtain ⟨e0, e1⟩ := tile_idx5 t
  match ax with
  | ⟨0, _⟩ => show win0_5.index t (0 : Fin 2) * 32 + 1 * a.val = a.val; omega
  | ⟨1, _⟩ => show win0_5.index t (1 : Fin 2) * 64 + 1 * b.val = b.val; omega
theorem weight_blk6 (c : Dev nD) (t : Fin cfg0.N) (a : Fin 1) (b : Fin 64) :
    iblk0 V c 6 t (ix2 a b) = V c main_v26 (ix2 a b) := by
  show V c main_v26 (((cfg0.win 6).blk t).view.emb (ix2 a b)) = V c main_v26 (ix2 a b)
  refine congrArg _ (funext fun ax => Fin.ext ?_)
  obtain ⟨e0, e1⟩ := tile_idx6 t
  match ax with
  | ⟨0, _⟩ => show win0_6.index t (0 : Fin 2) * 1 + 1 * a.val = a.val; omega
  | ⟨1, _⟩ => show win0_6.index t (1 : Fin 2) * 64 + 1 * b.val = b.val; omega
theorem weight_blk7 (c : Dev nD) (t : Fin cfg0.N) (a : Fin 64) (b : Fin 64) :
    iblk0 V c 7 t (ix2 a b) = V c main_v29 (ix2 a b) := by
  show V c main_v29 (((cfg0.win 7).blk t).view.emb (ix2 a b)) = V c main_v29 (ix2 a b)
  refine congrArg _ (funext fun ax => Fin.ext ?_)
  obtain ⟨e0, e1⟩ := tile_idx7 t
  match ax with
  | ⟨0, _⟩ => show win0_7.index t (0 : Fin 2) * 64 + 1 * a.val = a.val; omega
  | ⟨1, _⟩ => show win0_7.index t (1 : Fin 2) * 64 + 1 * b.val = b.val; omega
theorem weight_blk8 (c : Dev nD) (t : Fin cfg0.N) (a : Fin 64) (b : Fin 64) :
    iblk0 V c 8 t (ix2 a b) = V c main_v32 (ix2 a b) := by
  show V c main_v32 (((cfg0.win 8).blk t).view.emb (ix2 a b)) = V c main_v32 (ix2 a b)
  refine congrArg _ (funext fun ax => Fin.ext ?_)
  obtain ⟨e0, e1⟩ := tile_idx8 t
  match ax with
  | ⟨0, _⟩ => show win0_8.index t (0 : Fin 2) * 64 + 1 * a.val = a.val; omega
  | ⟨1, _⟩ => show win0_8.index t (1 : Fin 2) * 64 + 1 * b.val = b.val; omega
theorem weight_blk9 (c : Dev nD) (t : Fin cfg0.N) (a : Fin 1) (b : Fin 64) :
    iblk0 V c 9 t (ix2 a b) = V c main_v33 (ix2 a b) := by
  show V c main_v33 (((cfg0.win 9).blk t).view.emb (ix2 a b)) = V c main_v33 (ix2 a b)
  refine congrArg _ (funext fun ax => Fin.ext ?_)
  obtain ⟨e0, e1⟩ := tile_idx9 t
  match ax with
  | ⟨0, _⟩ => show win0_9.index t (0 : Fin 2) * 1 + 1 * a.val = a.val; omega
  | ⟨1, _⟩ => show win0_9.index t (1 : Fin 2) * 64 + 1 * b.val = b.val; omega

/-! ## What tile `t` writes back is block `t` of the whole-array function -/

theorem tile_eq (c : Dev nD) (t : Fin cfg0.N) :
    (dat0 (F := Ideal) V c).flushed 10 t = ((cfg0.win 10).blk t).view.read (Elt Ideal) (whole V c) := by
  show (cfg0.win 10).cut (grid0.coords t) ((dat0 V c).after 10 t) = _
  rw [after0_10]
  unfold out0_10
  rw [View.canon_unit_zero zero_offsets]
  simp only [View.ld_unit_zero (S := S10000x64) zero_offsets, View.ld_unit_zero (S := S10000x2) zero_offsets,
    View.ld_unit_zero (S := S64x64) zero_offsets, View.ld_unit_zero (S := S10000x32) zero_offsets,
    View.ld_unit_zero (S := S32x64) zero_offsets, View.ld_unit_zero (S := S1x64) zero_offsets]
  funext y
  obtain ⟨p, q, rfl⟩ : ∃ (p : Fin 10000) (q : Fin 64), y = ix2 p q := ⟨y 0, y 1, eq_ix2 y⟩
  have hp : p.val < 10000 := p.isLt
  have ht : t.val < grid0.N := t.isLt
  rw [N_0] at ht
  have hn : ((⟨t.val * 10000 + p.val, by omega⟩ : Fin 100000)).val = t.val * 10000 + p.val := rfl
  generalize (⟨t.val * 10000 + p.val, by omega⟩ : Fin 100000) = n at hn
  refine (payload_at _ _ _ _ _ _ _ _ _ _ p q).trans ?_
  have hemb : ((cfg0.win 10).blk t).view.emb (ix2 p q) = ix2 n q := by
    refine funext fun a => Fin.ext ?_
    obtain ⟨e0, e1⟩ := tile_idx10 t
    match a with
    | ⟨0, _⟩ => show win0_10.index t (0 : Fin 2) * 10000 + 1 * p.val = n.val; omega
    | ⟨1, _⟩ => show win0_10.index t (1 : Fin 2) * 64 + 1 * q.val = q.val; omega
  show _ = whole V c (((cfg0.win 10).blk t).view.emb (ix2 p q))
  rw [hemb]
  simp only [fun k => node_blk0 V c t p k n hn, fun k => node_blk1 V c t p k n hn, fun k => node_blk2 V c t p k n hn,
    fun k => node_blk3 V c t p k n hn, weight_blk4 V c t, weight_blk5 V c t, weight_blk6 V c t, weight_blk7 V c t,
    weight_blk8 V c t, weight_blk9 V c t]
  rfl

/-! ## The tiles cover the array -/

/-- An index is in tile `t`'s block iff each coordinate is in the block's range on its axis. -/
theorem mem_tile (t : Fin cfg0.N) (i : S100000x64.Idx) :
    i ∈ ((cfg0.win 10).blk t).view.set ↔ ∀ a : Fin 2, win0_10.index t a * S10000x64.size a ≤ (i a).val ∧ (i a).val < win0_10.index t a * S10000x64.size a + S10000x64.size a := by
  show i ∈ ((View.whole main_v46).slice (win0_10.rect t)).set ↔ _
  rw [View.set_slice_whole, Rect.mem_set_unit]
  exact Iff.rfl

/-- Row `r` lies in tile `r / 10000`; the one column block holds all 64 columns. -/
theorem tiles_cover (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  have hN : (i 0).val / 10000 < grid0.N := by rw [N_0]; omega
  obtain ⟨e0, e1⟩ := tile_idx10 ⟨(i 0).val / 10000, hN⟩
  have e0' : win0_10.index ⟨(i 0).val / 10000, hN⟩ (0 : Fin 2) = (i 0).val / 10000 := e0
  refine ⟨⟨(i 0).val / 10000, hN⟩, flush0_10 _, ?_⟩
  rw [mem_tile]
  intro a
  match a with
  | ⟨0, _⟩ => show win0_10.index ⟨(i 0).val / 10000, hN⟩ (0 : Fin 2) * 10000 ≤ (i 0).val ∧ (i 0).val < win0_10.index ⟨(i 0).val / 10000, hN⟩ (0 : Fin 2) * 10000 + 10000; omega
  | ⟨1, _⟩ => show win0_10.index ⟨(i 0).val / 10000, hN⟩ (1 : Fin 2) * 64 ≤ (i 1).val ∧ (i 1).val < win0_10.index ⟨(i 0).val / 10000, hN⟩ (1 : Fin 2) * 64 + 64; omega

/-- The output array of pallas_call 0 after its last tile, at entry `(n, j)`. -/
theorem region0_value (c : Dev nD) (n : Fin 100000) (j : Fin 64) :
    (dat0 (F := Ideal) V c).arrAt 10 cfg0.N (ix2 n j)
      = Sage.bodyH (N := 100000) (Sage.mat (V c main_v45)) (Sage.mat (V c main_v44)) (Sage.mat (V c main_v7))
        (fun n => V c main_v19 (ix2 n (0 : Fin 2))) (fun n => V c main_v19 (ix2 n (1 : Fin 2)))
        (Sage.mat (V c main_v22)) (Sage.mat (V c main_v25)) (Sage.row0 (V c main_v26))
        (Sage.mat (V c main_v29)) (Sage.mat (V c main_v32)) (Sage.row0 (V c main_v33)) n j :=
  congrFun ((dat0 (F := Ideal) V c).arrAt_eq_of_cover 10 (whole V c) (fun t _ => tile_eq V c t) tiles_cover) (ix2 n j)

end Cert.KernelIdeal.Region0

end
-- ==== Proof.Region1.lean ====
/-
  What pallas_call 1 leaves in its output array, entry by entry.

  The call walks the node axis in 10 tiles of 10000 rows. At tile `t` the body is handed rows `10000 t … 10000 t + 9999`
  of the node-indexed arrays and the whole of every weight array, and stores one block of 4 columns. Row `r` of the
  stored block depends on row `r` of the node-indexed blocks only, so the blocks are the restrictions of one whole-array
  function of the arrays as the call finds them, and the tiles cover every row.

  The steps. (1) Each of the body's three kinds of product, into a zero accumulator, is at entry `(p, j)` the plain sum
  `∑ k, l (p, k) * r (k, j)` over the joined axis. (2) A column of the two-column count tile spread over 64 columns reads
  the tile at that column; a bias row spread over the rows reads the row. (3) Pushing an entry `(p, q)` through the
  additions, products and the clamp at zero, with (1) and (2) and the format changes being the identity on the extended
  reals, the stored block is `Sage.bodyAC` of the tile's blocks, at 10000 rows. (4) Row `n` of `Sage.bodyAC` reads row `n`
  of the node-indexed arrays only, so at row `p` of tile `t` it is `Sage.bodyAC` of the whole arrays at row `10000 t + p`:
  the node-indexed windows sit at block `(t, 0)`, the weight windows at block `(0, 0)`, and an entry of a block is the
  array's entry at block index × block size + the entry's index inside the block. (5) Row `r` of the output lies in tile
  `r / 10000`, every tile is written back, so the array ends holding the whole-array function everywhere.
-/
import proofs.«402061_j76029511073825_3_alg».proof.Proof.Gen.KernelIdeal.Frame
import proofs.«402061_j76029511073825_3_alg».proof.Proof.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's three products as plain sums -/

private theorem lhs_a_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
private theorem lhs_a_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
private theorem rhs_a_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
private theorem rhs_a_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A tile of 10000 rows times a 64 × 64 matrix into a zero accumulator: entry `(p, j)` is the sum over the 64 columns. -/
private theorem mm_a_apply (l : FVec Ideal S10000x64 .bf16) (r : FVec Ideal S64x64 .bf16) (p : Fin 10000) (j : Fin 64) :
    matmul dot_S10000x64_S64x64_S10000x64_1_0_0_1_n_n none l r (constant (F := Ideal) S10000x64 .f32 0x00000000#32) (ix2 p j)
      = ∑ k : Fin 64, l (ix2 p k) * r (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k := funext fun a => Fin.ext (by
    match a with
    | ⟨0, _⟩ => exact lhs_a_0 _ _
    | ⟨1, _⟩ => exact (lhs_a_1 _ _).trans hk)
  have er : dot_S10000x64_S64x64_S10000x64_1_0_0_1_n_n.rhsIdx (ix2 p j) ((contrEquiv1 dot_S10000x64_S64x64_S10000x64_1_0_0_1_n_n 64 rfl rfl).symm k) = ix2 k j := funext fun a => Fin.ext (by
    match a with
    | ⟨0, _⟩ => exact (rhs_a_0 _ _).trans hk
    | ⟨1, _⟩ => exact rhs_a_1 _ _)
  rw [el, er]

private theorem lhs_b_0 (i : S10000x64.Idx) (q : dot_S10000x32_S32x64_S10000x64_1_0_0_1_n_n.contr.Idx) :
    (dot_S10000x32_S32x64_S10000x64_1_0_0_1_n_n.lhsIdx i q 0).val = (i 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
private theorem lhs_b_1 (i : S10000x64.Idx) (q : dot_S10000x32_S32x64_S10000x64_1_0_0_1_n_n.contr.Idx) :
    (dot_S10000x32_S32x64_S10000x64_1_0_0_1_n_n.lhsIdx i q 1).val = (q ⟨0, by decide⟩).val :=
  dot_S10000x32_S32x64_S10000x64_1_0_0_1_n_n.lhsIdx_val_of_single rfl i q
private theorem rhs_b_0 (i : S10000x64.Idx) (q : dot_S10000x32_S32x64_S10000x64_1_0_0_1_n_n.contr.Idx) :
    (dot_S10000x32_S32x64_S10000x64_1_0_0_1_n_n.rhsIdx i q 0).val = (q ⟨0, by decide⟩).val :=
  dot_S10000x32_S32x64_S10000x64_1_0_0_1_n_n.rhsIdx_val_of_single rfl i q
private theorem rhs_b_1 (i : S10000x64.Idx) (q : dot_S10000x32_S32x64_S10000x64_1_0_0_1_n_n.contr.Idx) :
    (dot_S10000x32_S32x64_S10000x64_1_0_0_1_n_n.rhsIdx i q 1).val = (i 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- A tile of 10000 rows of 32 columns times a 32 × 64 matrix into a zero accumulator. -/
private theorem mm_b_apply (l : FVec Ideal S10000x32 .bf16) (r : FVec Ideal S32x64 .bf16) (p : Fin 10000) (j : Fin 64) :
    matmul dot_S10000x32_S32x64_S10000x64_1_0_0_1_n_n none l r (constant (F := Ideal) S10000x64 .f32 0x00000000#32) (ix2 p j)
      = ∑ k : Fin 32, l (ix2 p k) * r (ix2 k j) := by
  simp only [matmul]
  rw [Ideal.matmul_constant_zero_apply, ← Equiv.sum_comp (contrEquiv1 dot_S10000x32_S32x64_S10000x64_1_0_0_1_n_n 32 rfl rfl).symm]
  refine Finset.sum_congr rfl fun k _ => ?_
  have hk := contrEquiv1_symm_val dot_S10000x32_S32x64_S10000x64_1_0_0_1_n_n 32 rfl rfl k
  have el : dot_S10000x32_S32x64_S10000x64_1_0_0_1_n_n.lhsIdx (ix2 p j) ((contrEquiv1 dot_S10000x32_S32x64_S10000x64_1_0_0_1_n_n 32 rfl rfl).symm k) = ix2 p k := funext fun a => Fin.ext (by
    match a with
    | ⟨0, _⟩ => exact lhs_b_0 _ _
    | ⟨1, _⟩ => exact (lhs_b_1 _ _).trans hk)
  have er : dot_S10000x32_S32x64_S10000x64_1_0_0_1_n_n.rhsIdx (ix2 p j) ((contrEquiv1 dot_S10000x32_S32x64_S10000x64_1_0_0_1_n_n 32 rfl rfl).symm k) = ix2 k j := funext fun a => Fin.ext (by
    match a with
    | ⟨0, _⟩ => exact (rhs_b_0 _ _).trans hk
    | ⟨1, _⟩ => exact rhs_b_1 _ _)
  rw [el, er]

private theorem lhs_c_0 (i : S10000x4.Idx) (q : dot_S10000x64_S64x4_S10000x4_1_0_0_1_n_n.contr.Idx) :
    (dot_S10000x64_S64x4_S10000x4_1_0_0_1_n_n.lhsIdx i q 0).val = (i 0).val := by
  unfold DotDims.lhsIdx
  rw [dif_neg (show ¬(0 : Fin S10000x64.rank) ∈ dot_S10000x64_S64x4_S10000x4_1_0_0_1_n_n.lhsBatch by decide), dif_pos (show (0 : Fin S10000x64.rank) ∈ dot_S10000x64_S64x4_S10000x4_1_0_0_1_n_n.lhsNonContracting by decide)]
  rfl
private theorem lhs_c_1 (i : S10000x4.Idx) (q : dot_S10000x64_S64x4_S10000x4_1_0_0_1_n_n.contr.Idx) :
    (dot_S10000x64_S64x4_S10000x4_1_0_0_1_n_n.lhsIdx i q 1).val = (q ⟨0, by decide⟩).val :=
  dot_S10000x64_S64x4_S10000x4_1_0_0_1_n_n.lhsIdx_val_of_single rfl i q
private theorem rhs_c_0 (i : S10000x4.Idx) (q : dot_S10000x64_S64x4_S10000x4_1_0_0_1_n_n.contr.Idx) :
    (dot_S10000x64_S64x4_S10000x4_1_0_0_1_n_n.rhsIdx i q 0).val = (q ⟨0, by decide⟩).val :=
  dot_S10000x64_S64x4_S10000x4_1_0_0_1_n_n.rhsIdx_val_of_single rfl i q
private theorem rhs_c_1 (i : S10000x4.Idx) (q : dot_S10000x64_S64x4_S10000x4_1_0_0_1_n_n.contr.Idx) :
    (dot_S10000x64_S64x4_S10000x4_1_0_0_1_n_n.rhsIdx i q 1).val = (i 1).val := by
  unfold DotDims.rhsIdx
  rw [dif_neg (show ¬(1 : Fin S64x4.rank) ∈ dot_S10000x64_S64x4_S10000x4_1_0_0_1_n_n.rhsBatch by decide), dif_pos (show (1 : Fin S64x4.rank) ∈ dot_S10000x64_S64x4_S10000x4_1_0_0_1_n_n.rhsNonContracting by decide)]
  rfl

/-- A tile of 10000 rows times the 64 × 4 matrix into a zero accumulator. -/
private theorem mm_c_apply (l : FVec Ideal S10000x64 .bf16) (r : FVec Ideal S64x4 .bf16) (p : Fin 10000) (j : Fin 4) :
    matmul dot_S10000x64_S64x4_S10000x4_1_0_0_1_n_n none l r (constant (F := Ideal) S10000x4 .f32 0x00000000#32) (ix2 p j)
      = ∑ k : Fin 64, l (ix2 p k) * r (ix2 k j) := by
  simp only [matmul]
  rw [Ideal.matmul_constant_zero_apply, ← Equiv.sum_comp (contrEquiv1 dot_S10000x64_S64x4_S10000x4_1_0_0_1_n_n 64 rfl rfl).symm]
  refine Finset.sum_congr rfl fun k _ => ?_
  have hk := contrEquiv1_symm_val dot_S10000x64_S64x4_S10000x4_1_0_0_1_n_n 64 rfl rfl k
  have el : dot_S10000x64_S64x4_S10000x4_1_0_0_1_n_n.lhsIdx (ix2 p j) ((contrEquiv1 dot_S10000x64_S64x4_S10000x4_1_0_0_1_n_n 64 rfl rfl).symm k) = ix2 p k := funext fun a => Fin.ext (by
    match a with
    | ⟨0, _⟩ => exact lhs_c_0 _ _
    | ⟨1, _⟩ => exact (lhs_c_1 _ _).trans hk)
  have er : dot_S10000x64_S64x4_S10000x4_1_0_0_1_n_n.rhsIdx (ix2 p j) ((contrEquiv1 dot_S10000x64_S64x4_S10000x4_1_0_0_1_n_n 64 rfl rfl).symm k) = ix2 k j := funext fun a => Fin.ext (by
    match a with
    | ⟨0, _⟩ => exact (rhs_c_0 _ _).trans hk
    | ⟨1, _⟩ => exact rhs_c_1 _ _)
  rw [el, er]

/-! ## The count array's two columns, and a bias row, spread over a tile -/

/-- Column 0 of a two-column tile, spread over 64 columns, reads at `(p, j)` the tile at `(p, 0)`. -/
private theorem col0_apply (v : FVec Ideal S10000x2 .f32) (h : S10000x2.Slices ![0, 0] S10000x1) (hb : S10000x1.Broadcasts S10000x64)
    (p : Fin 10000) (j : Fin 64) :
    broadcastTo S10000x64 (extractStridedSlice S10000x1 ![0, 0] v h) hb (ix2 p j) = v (ix2 p (0 : Fin 2)) := by
  refine (broadcastTo_apply _ hb (ix2 p j) (ix2 p (0 : Fin 1)) fun a => ?_).trans ?_
  · match a with
    | ⟨0, _⟩ => show p.val = if (10000 : ℕ) = 1 then 0 else p.val; rw [if_neg (by decide)]
    | ⟨1, _⟩ => rfl
  · exact slice2_axis1_apply 0 v h p (0 : Fin 1) (0 : Fin 2) rfl

/-- Column 1 likewise reads the tile at `(p, 1)`. -/
private theorem col1_apply (v : FVec Ideal S10000x2 .f32) (h : S10000x2.Slices ![0, 1] S10000x1) (hb : S10000x1.Broadcasts S10000x64)
    (p : Fin 10000) (j : Fin 64) :
    broadcastTo S10000x64 (extractStridedSlice S10000x1 ![0, 1] v h) hb (ix2 p j) = v (ix2 p (1 : Fin 2)) := by
  refine (broadcastTo_apply _ hb (ix2 p j) (ix2 p (0 : Fin 1)) fun a => ?_).trans ?_
  · match a with
    | ⟨0, _⟩ => show p.val = if (10000 : ℕ) = 1 then 0 else p.val; rw [if_neg (by decide)]
    | ⟨1, _⟩ => rfl
  · exact slice2_axis1_apply 1 v h p (0 : Fin 1) (1 : Fin 2) rfl

/-- A bias row spread over the tile's rows reads at `(p, j)` the row at `j`. -/
private theorem row_apply (v : FVec Ideal S1x64 .f32) (hb : S1x64.Broadcasts S10000x64) (p : Fin 10000) (j : Fin 64) :
    broadcastTo S10000x64 v hb (ix2 p j) = v (ix2 (0 : Fin 1) j) :=
  broadcastTo_1b_ab_apply v hb p j

/-! ## The body's stored value at an entry -/

/-- The value the body stores, at row `p` and column `q` of its tile, is the factored layer and read-out of the tile's
    blocks: the index goes through the additions, products and the clamp entry by entry, each product is its sum over the
    joined axis, the two count columns and the two bias rows are read where they are spread from, and the two format
    changes are the identity on the extended reals. -/
private theorem payload_apply (x0 : Vec Ideal S10000x64 .bf16) (x1 : Vec Ideal S10000x64 .bf16) (x2 : Vec Ideal S10000x32 .bf16)
    (x3 : Vec Ideal S10000x2 .f32) (x4 : Vec Ideal S64x64 .bf16) (x5 : Vec Ideal S32x64 .bf16) (x6 : Vec Ideal S1x64 .f32)
    (x7 : Vec Ideal S64x64 .bf16) (x8 : Vec Ideal S64x64 .bf16) (x9 : Vec Ideal S1x64 .f32) (x10 : Vec Ideal S64x4 .bf16)
    (p : Fin 10000) (q : Fin 4) :
    k1_pay1 (F := Ideal) (k1_pay2 x3 x1 x4 x2 x5 x6 x0 x7 x8) (k1_pay3 x9) x10 (ix2 p q)
      = Sage.bodyAC (N := 10000) (Sage.mat x0) (Sage.mat x1) (Sage.mat x2)
        (fun n => x3 (ix2 n (0 : Fin 2))) (fun n => x3 (ix2 n (1 : Fin 2)))
        (Sage.mat x4) (Sage.mat x5) (Sage.row0 x6) (Sage.mat x7) (Sage.mat x8) (Sage.row0 x9) (Sage.mat x10) p q := by
  unfold k1_pay1 k1_pay2 k1_pay3
  simp only [shapeCast_self]
  unfold Sage.bodyAC Sage.bodyH Sage.bodyAggr Sage.mat Sage.row0
  refine (mm_c_apply _ _ p q).trans (Finset.sum_congr rfl fun k _ => ?_)
  simp only [truncf_apply, maximumf_apply, addf_apply, mulf_apply, broadcast_apply, row_apply, col0_apply, col1_apply,
    mm_a_apply, mm_b_apply, Ideal.ofBits_def, Ideal.ofBits_zero_f32]

/-! ## One row of the factored form -/

/-- Row `n` of the factored layer and read-out depends on row `n` of the node-indexed arrays only: two families of arrays
    that agree on one row each (row `n` of one, row `r` of the other) and share their weights give the same entries there. -/
private theorem bodyAC_row {N M : ℕ} (feat sumx : Sage.Mat N 64) (sume : Sage.Mat N 32) (inv mask : Fin N → EReal)
    (feat' sumx' : Sage.Mat M 64) (sume' : Sage.Mat M 32) (inv' mask' : Fin M → EReal)
    (wmx wmx' : Sage.Mat 64 64) (wme wme' : Sage.Mat 32 64) (bm bm' : Fin 64 → EReal) (wax wax' waa waa' : Sage.Mat 64 64)
    (ba ba' : Fin 64 → EReal) (wp wp' : Sage.Mat 64 4) (n : Fin N) (r : Fin M) (q q' : Fin 4)
    (h0 : feat n = feat' r) (h1 : sumx n = sumx' r) (h2 : sume n = sume' r) (h3 : inv n = inv' r) (h4 : mask n = mask' r)
    (g0 : wmx = wmx') (g1 : wme = wme') (g2 : bm = bm') (g3 : wax = wax') (g4 : waa = waa') (g5 : ba = ba') (g6 : wp = wp')
    (hq : q = q') :
    Sage.bodyAC feat sumx sume inv mask wmx wme bm wax waa ba wp n q
      = Sage.bodyAC feat' sumx' sume' inv' mask' wmx' wme' bm' wax' waa' ba' wp' r q' := by
  subst g0 g1 g2 g3 g4 g5 g6 hq
  unfold Sage.bodyAC Sage.bodyH Sage.bodyAggr
  rw [h0, h1, h2, h3, h4]

/-! ## From the tiles to the array -/

private theorem zero_offsets : (![0, 0] : Fin 2 → Nat) = fun _ => 0 := funext fun a => by fin_cases a <;> rfl

/-- What the output array ends holding: the factored layer and read-out of the arrays as the call finds them. -/
private abbrev whole (c : Dev nD) : S100000x4.Idx → Elt Ideal .f32 := fun i =>
  Sage.bodyAC (N := 100000) (Sage.mat (V c main_v80)) (Sage.mat (V c main_v79)) (Sage.mat (V c main_v7))
    (fun n => V c main_v19 (ix2 n (0 : Fin 2))) (fun n => V c main_v19 (ix2 n (1 : Fin 2)))
    (Sage.mat (V c main_v51)) (Sage.mat (V c main_v54)) (Sage.row0 (V c main_v55))
    (Sage.mat (V c main_v58)) (Sage.mat (V c main_v61)) (Sage.row0 (V c main_v62)) (Sage.mat (V c main_v68))
    ⟨(i 0).val, (i 0).isLt⟩ ⟨(i 1).val, (i 1).isLt⟩

/-- The index maps over the ten tiles: the node-indexed windows and the output are at block `(t, 0)` at tile `t`, the
    weight windows at block `(0, 0)` throughout. -/
private theorem tile_blocks : ∀ t : Fin cfg1.N, t.val < 10
    ∧ win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

/-- Every row tile is some point's. -/
private theorem tile_onto : ∀ (b : Fin 10), ∃ t : Fin cfg1.N, win1_11.index t = ![b.val, 0] :=
  (by decide +kernel : ∀ (b : Fin 10), ∃ t : Fin grid1.N, win1_11.index t = ![b.val, 0])

/-- What tile `t` writes back is block `t` of `whole`: row `p` of the tile is row `10000 t + p` of the node-indexed
    arrays, and every weight window's one block is its whole array. -/
private theorem flushed_eq (c : Dev nD) (t : Fin cfg1.N) :
    (dat1 (F := Ideal) V c).flushed 11 t = ((cfg1.win 11).blk t).view.read (Elt Ideal) (whole V c) := by
  show (cfg1.win 11).cut (grid1.coords t) ((dat1 (F := Ideal) V c).after 11 t) = _
  rw [after1_11]
  unfold out1_11
  rw [View.canon_unit_zero zero_offsets]
  simp only [View.ld_unit_zero (S := S10000x2) zero_offsets, View.ld_unit_zero (S := S10000x64) zero_offsets,
    View.ld_unit_zero (S := S64x64) zero_offsets, View.ld_unit_zero (S := S10000x32) zero_offsets,
    View.ld_unit_zero (S := S32x64) zero_offsets, View.ld_unit_zero (S := S1x64) zero_offsets,
    View.ld_unit_zero (S := S64x4) zero_offsets]
  obtain ⟨ht, a0, b0, a1, b1, a2, b2, a3, b3, a4, b4, a5, b5, a6, b6, a7, b7, a8, b8, a9, b9, a10, b10, a11, b11⟩ := tile_blocks t
  funext j
  obtain ⟨p, q, rfl⟩ : ∃ (p : Fin 10000) (q : Fin 4), j = ix2 p q := ⟨j 0, j 1, eq_ix2 j⟩
  have hp : p.val < 10000 := p.isLt
  let n : Fin 100000 := ⟨10000 * t.val + p.val, by omega⟩
  have hemb : ((cfg1.win 11).blk t).view.emb (ix2 p q) = ix2 n q := by
    funext a; apply Fin.ext
    match a with
    | ⟨0, _⟩ => show win1_11.index t (0 : Fin 2) * 10000 + 1 * p.val = 10000 * t.val + p.val; omega
    | ⟨1, _⟩ => show win1_11.index t (1 : Fin 2) * 4 + 1 * q.val = q.val; omega
  refine (payload_apply _ _ _ _ _ _ _ _ _ _ _ p q).trans ?_
  show _ = whole V c (((cfg1.win 11).blk t).view.emb (ix2 p q))
  rw [hemb]
  have h0 : Sage.mat (iblk1 V c 0 t) p = Sage.mat (V c main_v80) n := by
    funext k
    show V c main_v80 (((cfg1.win 0).blk t).view.emb (ix2 p k)) = V c main_v80 (ix2 n k)
    refine congrArg _ (funext fun a => Fin.ext ?_)
    match a with
    | ⟨0, _⟩ => show win1_0.index t (0 : Fin 2) * 10000 + 1 * p.val = 10000 * t.val + p.val; omega
    | ⟨1, _⟩ => show win1_0.index t (1 : Fin 2) * 64 + 1 * k.val = k.val; omega
  have h1 : Sage.mat (iblk1 V c 1 t) p = Sage.mat (V c main_v79) n := by
    funext k
    show V c main_v79 (((cfg1.win 1).blk t).view.emb (ix2 p k)) = V c main_v79 (ix2 n k)
    refine congrArg _ (funext fun a => Fin.ext ?_)
    match a with
    | ⟨0, _⟩ => show win1_1.index t (0 : Fin 2) * 10000 + 1 * p.val = 10000 * t.val + p.val; omega
    | ⟨1, _⟩ => show win1_1.index t (1 : Fin 2) * 64 + 1 * k.val = k.val; omega
  have h2 : Sage.mat (iblk1 V c 2 t) p = Sage.mat (V c main_v7) n := by
    funext k
    show V c main_v7 (((cfg1.win 2).blk t).view.emb (ix2 p k)) = V c main_v7 (ix2 n k)
    refine congrArg _ (funext fun a => Fin.ext ?_)
    match a with
    | ⟨0, _⟩ => show win1_2.index t (0 : Fin 2) * 10000 + 1 * p.val = 10000 * t.val + p.val; omega
    | ⟨1, _⟩ => show win1_2.index t (1 : Fin 2) * 32 + 1 * k.val = k.val; omega
  have h3 : ∀ z : Fin 2, iblk1 V c 3 t (ix2 p z) = V c main_v19 (ix2 n z) := by
    intro z
    show V c main_v19 (((cfg1.win 3).blk t).view.emb (ix2 p z)) = V c main_v19 (ix2 n z)
    refine congrArg _ (funext fun a => Fin.ext ?_)
    match a with
    | ⟨0, _⟩ => show win1_3.index t (0 : Fin 2) * 10000 + 1 * p.val = 10000 * t.val + p.val; omega
    | ⟨1, _⟩ => show win1_3.index t (1 : Fin 2) * 2 + 1 * z.val = z.val; omega
  have h4 : Sage.mat (iblk1 V c 4 t) = Sage.mat (V c main_v51) := by
    funext k j
    show V c main_v51 (((cfg1.win 4).blk t).view.emb (ix2 k j)) = V c main_v51 (ix2 k j)
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * j.val = j.val; omega
  have h5 : Sage.mat (iblk1 V c 5 t) = Sage.mat (V c main_v54) := by
    funext k j
    show V c main_v54 (((cfg1.win 5).blk t).view.emb (ix2 k j)) = V c main_v54 (ix2 k j)
    refine congrArg _ (funext fun a => Fin.ext ?_)
    match a with
    | ⟨0, _⟩ => show win1_5.index t (0 : Fin 2) * 32 + 1 * k.val = k.val; omega
    | ⟨1, _⟩ => show win1_5.index t (1 : Fin 2) * 64 + 1 * j.val = j.val; omega
  have h6 : Sage.row0 (iblk1 V c 6 t) = Sage.row0 (V c main_v55) := by
    funext k
    show V c main_v55 (((cfg1.win 6).blk t).view.emb (ix2 (0 : Fin 1) k)) = V c main_v55 (ix2 (0 : Fin 1) k)
    refine congrArg _ (funext fun a => Fin.ext ?_)
    match a with
    | ⟨0, _⟩ => show win1_6.index t (0 : Fin 2) * 1 + 1 * 0 = 0; omega
    | ⟨1, _⟩ => show win1_6.index t (1 : Fin 2) * 64 + 1 * k.val = k.val; omega
  have h7 : Sage.mat (iblk1 V c 7 t) = Sage.mat (V c main_v58) := by
    funext k j
    show V c main_v58 (((cfg1.win 7).blk t).view.emb (ix2 k j)) = V c main_v58 (ix2 k j)
    refine congrArg _ (funext fun a => Fin.ext ?_)
    match a with
    | ⟨0, _⟩ => show win1_7.index t (0 : Fin 2) * 64 + 1 * k.val = k.val; omega
    | ⟨1, _⟩ => show win1_7.index t (1 : Fin 2) * 64 + 1 * j.val = j.val; omega
  have h8 : Sage.mat (iblk1 V c 8 t) = Sage.mat (V c main_v61) := by
    funext k j
    show V c main_v61 (((cfg1.win 8).blk t).view.emb (ix2 k j)) = V c main_v61 (ix2 k j)
    refine congrArg _ (funext fun a => Fin.ext ?_)
    match a with
    | ⟨0, _⟩ => show win1_8.index t (0 : Fin 2) * 64 + 1 * k.val = k.val; omega
    | ⟨1, _⟩ => show win1_8.index t (1 : Fin 2) * 64 + 1 * j.val = j.val; omega
  have h9 : Sage.row0 (iblk1 V c 9 t) = Sage.row0 (V c main_v62) := by
    funext k
    show V c main_v62 (((cfg1.win 9).blk t).view.emb (ix2 (0 : Fin 1) k)) = V c main_v62 (ix2 (0 : Fin 1) k)
    refine congrArg _ (funext fun a => Fin.ext ?_)
    match a with
    | ⟨0, _⟩ => show win1_9.index t (0 : Fin 2) * 1 + 1 * 0 = 0; omega
    | ⟨1, _⟩ => show win1_9.index t (1 : Fin 2) * 64 + 1 * k.val = k.val; omega
  have h10 : Sage.mat (iblk1 V c 10 t) = Sage.mat (V c main_v68) := by
    funext k j
    show V c main_v68 (((cfg1.win 10).blk t).view.emb (ix2 k j)) = V c main_v68 (ix2 k j)
    refine congrArg _ (funext fun a => Fin.ext ?_)
    match a with
    | ⟨0, _⟩ => show win1_10.index t (0 : Fin 2) * 64 + 1 * k.val = k.val; omega
    | ⟨1, _⟩ => show win1_10.index t (1 : Fin 2) * 4 + 1 * j.val = j.val; omega
  exact bodyAC_row _ _ _ _ _ _ _ _ _ _ _ _ _ _ _ _ _ _ _ _ _ _ _ _ p n q q h0 h1 h2 (h3 0) (h3 1) h4 h5 h6 h7 h8 h9 h10 rfl

/-- An entry of the output array is in tile `t`'s block iff each coordinate is in the block's range on its axis. -/
private theorem mem_tile (t : Fin cfg1.N) (i : S100000x4.Idx) :
    i ∈ ((cfg1.win 11).blk t).view.set ↔ ∀ a : Fin 2, win1_11.index t a * S10000x4.size a ≤ (i a).val
      ∧ (i a).val < win1_11.index t a * S10000x4.size a + S10000x4.size a := by
  show i ∈ ((View.whole main_v81).slice (win1_11.rect t)).set ↔ _
  rw [View.set_slice_whole, Rect.mem_set_unit]
  exact Iff.rfl

/-- The ten tiles cover the array: row `r` lies in tile `r / 10000`, and every tile has all four columns. -/
private theorem covered (i : S100000x4.Idx) :
    ∃ t : Fin cfg1.N, (cfg1.win 11).flush t = true ∧ i ∈ ((cfg1.win 11).blk t).view.set := by
  have hi0 : (i 0).val < 100000 := (i 0).isLt
  have hi1 : (i 1).val < 4 := (i 1).isLt
  obtain ⟨t, ht⟩ := tile_onto ⟨(i 0).val / 10000, by omega⟩
  have q0 : win1_11.index t (0 : Fin 2) = (i 0).val / 10000 := congrFun ht 0
  have q1 : win1_11.index t (1 : Fin 2) = 0 := congrFun ht 1
  refine ⟨t, flush1_11 t, ?_⟩
  rw [mem_tile]
  intro a
  match a with
  | ⟨0, _⟩ =>
    show win1_11.index t (0 : Fin 2) * 10000 ≤ (i 0).val ∧ (i 0).val < win1_11.index t (0 : Fin 2) * 10000 + 10000
    omega
  | ⟨1, _⟩ =>
    show win1_11.index t (1 : Fin 2) * 4 ≤ (i 1).val ∧ (i 1).val < win1_11.index t (1 : Fin 2) * 4 + 4
    omega

/-- The output array of pallas_call 1 after its last tile, at entry `(n, q)`. -/
theorem region1_value (c : Dev nD) (n : Fin 100000) (q : Fin 4) :
    (dat1 (F := Ideal) V c).arrAt 11 cfg1.N (ix2 n q)
      = Sage.bodyAC (N := 100000) (Sage.mat (V c main_v80)) (Sage.mat (V c main_v79)) (Sage.mat (V c main_v7))
        (fun n => V c main_v19 (ix2 n (0 : Fin 2))) (fun n => V c main_v19 (ix2 n (1 : Fin 2)))
        (Sage.mat (V c main_v51)) (Sage.mat (V c main_v54)) (Sage.row0 (V c main_v55))
        (Sage.mat (V c main_v58)) (Sage.mat (V c main_v61)) (Sage.row0 (V c main_v62)) (Sage.mat (V c main_v68)) n q := by
  have h := (dat1 (F := Ideal) V c).arrAt_eq_of_cover 11 (whole V c) (fun t _ => flushed_eq V c t) covered
  exact congrFun h (ix2 n q)

end Cert.KernelIdeal.Region1

end
-- ==== Proof.KernelIn.lean ====
/-
  The kernel program's inputs as matrices, read off the launch memory of one device.
-/
import proofs.«402061_j76029511073825_3_alg».proof.Proof.Gen.KernelIdeal.Frame
import proofs.«402061_j76029511073825_3_alg».proof.Proof.Idx

noncomputable section

namespace Cert.KernelIdeal.In

open Cert.KernelIdeal Idealize.ShloMosaic Idealize.ShloMosaic.TcCoe Idealize.SL.Sem

variable (m : (ℓ : Loc nD τ sig) → Buf (Elt Ideal) ℓ) (c : Dev nD)

/-- The edge array, and what it says of each edge. -/
def ei : Sage.EdgeArr := m ((c.tc : Thread nD τ).loc main_arg12)
def rs : Fin 1600000 → Fin 100000 := Sage.rhoS (ei m c)
def rd : Fin 1600000 → Fin 100000 := Sage.rhoD (ei m c)
def dI : Fin 1600000 → ℤ := Sage.dstI (ei m c)

/-- Node features, edge features, and the five affine maps' matrices and biases. -/
def X : Sage.Mat 100000 64 := Sage.mat (m ((c.tc : Thread nD τ).loc main_arg0))
def EA : Sage.Mat 1600000 32 := Sage.mat (m ((c.tc : Thread nD τ).loc main_arg1))
def W1m : Sage.Mat 64 96 := Sage.mat (m ((c.tc : Thread nD τ).loc main_arg2))
def b1m : Fin 64 → EReal := Sage.vec (m ((c.tc : Thread nD τ).loc main_arg3))
def W1a : Sage.Mat 64 128 := Sage.mat (m ((c.tc : Thread nD τ).loc main_arg4))
def b1a : Fin 64 → EReal := Sage.vec (m ((c.tc : Thread nD τ).loc main_arg5))
def W2m : Sage.Mat 64 96 := Sage.mat (m ((c.tc : Thread nD τ).loc main_arg6))
def b2m : Fin 64 → EReal := Sage.vec (m ((c.tc : Thread nD τ).loc main_arg7))
def W2a : Sage.Mat 64 128 := Sage.mat (m ((c.tc : Thread nD τ).loc main_arg8))
def b2a : Fin 64 → EReal := Sage.vec (m ((c.tc : Thread nD τ).loc main_arg9))
def Wp : Sage.Mat 2 128 := Sage.mat (m ((c.tc : Thread nD τ).loc main_arg10))
def bp : Fin 2 → EReal := Sage.vec (m ((c.tc : Thread nD τ).loc main_arg11))

end Cert.KernelIdeal.In

end
-- ==== Proof.SpecCongr.lean ====
/-
  The factored form of one node tile depends only on the arrays it is handed: equal arrays give equal results.
-/
import proofs.«402061_j76029511073825_3_alg».proof.Proof.Spec

noncomputable section

namespace Cert.Sage

variable {N : ℕ}

theorem bodyH_congr {feat feat' sumx sumx' : Mat N 64} {sume sume' : Mat N 32} {inv inv' mask mask' : Fin N → EReal}
    {wmx wmx' : Mat 64 64} {wme wme' : Mat 32 64} {bm bm' : Fin 64 → EReal} {wax wax' waa waa' : Mat 64 64}
    {ba ba' : Fin 64 → EReal}
    (h1 : feat = feat') (h2 : sumx = sumx') (h3 : sume = sume') (h4 : inv = inv') (h5 : mask = mask')
    (h6 : wmx = wmx') (h7 : wme = wme') (h8 : bm = bm') (h9 : wax = wax') (h10 : waa = waa') (h11 : ba = ba') :
    bodyH feat sumx sume inv mask wmx wme bm wax waa ba = bodyH feat' sumx' sume' inv' mask' wmx' wme' bm' wax' waa' ba' := by
  subst h1 h2 h3 h4 h5 h6 h7 h8 h9 h10 h11
  rfl

theorem bodyAC_congr {feat feat' sumx sumx' : Mat N 64} {sume sume' : Mat N 32} {inv inv' mask mask' : Fin N → EReal}
    {wmx wmx' : Mat 64 64} {wme wme' : Mat 32 64} {bm bm' : Fin 64 → EReal} {wax wax' waa waa' : Mat 64 64}
    {ba ba' : Fin 64 → EReal} {wp wp' : Mat 64 4}
    (h1 : feat = feat') (h2 : sumx = sumx') (h3 : sume = sume') (h4 : inv = inv') (h5 : mask = mask')
    (h6 : wmx = wmx') (h7 : wme = wme') (h8 : bm = bm') (h9 : wax = wax') (h10 : waa = waa') (h11 : ba = ba')
    (h12 : wp = wp') :
    bodyAC feat sumx sume inv mask wmx wme bm wax waa ba wp
      = bodyAC feat' sumx' sume' inv' mask' wmx' wme' bm' wax' waa' ba' wp' := by
  subst h1 h2 h3 h4 h5 h6 h7 h8 h9 h10 h11 h12
  rfl

end Cert.Sage

end
-- ==== Proof.KernelValue.lean ====
/-
  The kernel program's result, entry by entry, as the factored form of the inputs.

  The result is read back through the program: the last host stretch gathers and adds the second call's four-column
  table; that table is the second call's body over what the stretch between the calls prepared from the first call's
  output; and the first call's output is its body over what the first stretch prepared from the inputs.
-/
import proofs.«402061_j76029511073825_3_alg».proof.Proof.HostA
import proofs.«402061_j76029511073825_3_alg».proof.Proof.HostA2
import proofs.«402061_j76029511073825_3_alg».proof.Proof.HostB
import proofs.«402061_j76029511073825_3_alg».proof.Proof.Region0
import proofs.«402061_j76029511073825_3_alg».proof.Proof.Region1
import proofs.«402061_j76029511073825_3_alg».proof.Proof.KernelIn
import proofs.«402061_j76029511073825_3_alg».proof.Proof.SpecCongr

set_option maxRecDepth 16384

noncomputable section

open scoped BigOperators

namespace Cert.KernelIdeal.Value

open Cert.KernelIdeal Cert.KernelIdeal.Gen Cert.KernelIdeal.In
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-- The hidden rows: the first layer in its factored form, clamped below at zero. -/
def hid : Sage.Mat 100000 64 := fun n j => max (Sage.kerLayer (rs m c) (dI m c) (X m c) (EA m c) (W1m m c) (b1m m c) (W1a m c) (b1a m c) n j) 0

/-- Node rows gathered at every edge's source and summed per destination. -/
def sums (H : Sage.Mat 100000 64) : Sage.Mat 100000 64 :=
  Sage.scat (N := 100000) (dI m c) (fun e => H (rs m c e))

/-- The first call's output array, as the stretch after it finds it: the first layer in its factored form. -/
theorem first_layer (n : Fin 100000) (j : Fin 64) :
    Sage.mat (r := 100000) (c := 64) (V2 (F := Ideal) m ρ c main_v46) n j = Sage.kerLayer (rs m c) (dI m c) (X m c) (EA m c) (W1m m c) (b1m m c) (W1a m c) (b1a m c) n j :=
  (congrFun (W2_arr (F := Ideal) m ρ c (10 : Fin cfg0.W)) (ix2 n j)).trans
    ((Region0.region0_value (V1 m ρ) c n j).trans
      (congrFun (congrFun (Sage.bodyH_congr (HostA.h0_feat m ρ c) (HostA.h0_sumx m ρ c) (HostA.h0_sume m ρ c)
        (HostA.h0_inv m ρ c) (HostA.h0_mask m ρ c) (HostA.h0_wmx m ρ c) (HostA.h0_wme m ρ c) (HostA.h0_bm m ρ c)
        (HostA.h0_wax m ρ c) (HostA.h0_waa m ρ c) (HostA.h0_ba m ρ c)) n) j))

/-- The hidden rows the second call is handed: the first layer clamped below at zero. -/
theorem hidden : Sage.mat (r := 100000) (c := 64) (V3 (F := Ideal) m ρ c main_v48) = hid m c :=
  (HostB.h1_h m ρ c).trans
    (funext fun n => funext fun j => congrArg (fun z : EReal => max z 0) (first_layer m ρ c n j))

/-- The hidden rows' sums per destination. -/
theorem hidden_sums : Sage.mat (r := 100000) (c := 64) (V3 (F := Ideal) m ρ c main_v79) = sums m c (hid m c) :=
  (show Sage.mat (r := 100000) (c := 64) (V3 (F := Ideal) m ρ c main_v79)
      = sums m c (Sage.mat (r := 100000) (c := 64) (V3 (F := Ideal) m ρ c main_v48)) from HostB.h1_sumx m ρ c).trans
    (congrArg (sums m c) (hidden m ρ c))

/-- The second call's output array: the per-node read-out table of the second layer over the hidden rows. -/
theorem table (n : Fin 100000) (q : Fin 4) :
    Sage.mat (r := 100000) (c := 4) (V4 (F := Ideal) m ρ c main_v81) n q
      = Sage.kerAC (rs m c) (dI m c) (hid m c) (EA m c)
          (W2m m c) (b2m m c) (W2a m c) (b2a m c) (Wp m c) n q :=
  (congrFun (W4_arr (F := Ideal) m ρ c (11 : Fin cfg1.W)) (ix2 n q)).trans
    ((Region1.region1_value (V3 m ρ) c n q).trans
      (congrFun (congrFun (Sage.bodyAC_congr ((HostB.h1_feat m ρ c).trans (hidden m ρ c)) (hidden_sums m ρ c)
        (HostA2.h1_sume m ρ c) (HostA2.h1_inv m ρ c) (HostA2.h1_mask m ρ c) (HostA2.h1_wmx m ρ c) (HostA2.h1_wme m ρ c)
        (HostA2.h1_bm m ρ c) (HostA2.h1_wax m ρ c) (HostA2.h1_waa m ρ c) (HostA2.h1_ba m ρ c) (HostA2.h1_wp m ρ c)) n) q))

/-- THE KERNEL'S RESULT at edge `e`, column `o`. -/
theorem kernel_value (e : Fin 1600000) (o : Fin 2) :
    Sage.mat (r := 1600000) (c := 2) (W5 (F := Ideal) m ρ c (Proc.devRef .tc main_v101)) e o
      = Sage.kerOut (rs m c) (rd m c) (dI m c) (X m c) (EA m c) (W1m m c) (b1m m c) (W1a m c) (b1a m c)
          (W2m m c) (b2m m c) (W2a m c) (b2a m c) (Wp m c) (bp m c) e o :=
  (HostB.h2_out m ρ c e o).trans
    (congrArg₂ (fun a b : EReal => (a + b) + bp m c o)
      (table m ρ c (rs m c e) (Sage.inl (by decide) o)) (table m ρ c (rd m c e) (Sage.inr 2 (by decide) o)))

end Cert.KernelIdeal.Value

end
-- ==== Proof.RefLayersAux.lean ====
/-
  The reference's indexed, joining and contracting operations, each read at one entry over arbitrary operand arrays.

  A gather of node rows reads the table at the clamped start index of the edge; a scatter-add of edge rows into zeros
  sums, per node, the rows of the edges whose destination word is that node; a join of two arrays along the columns
  reads the left array below the left width and the right array past it; a product of a matrix with a transposed
  weight matrix is the sum over the joined axis; a bias row is repeated down the rows.
-/
import proofs.«402061_j76029511073825_3_alg».proof.Proof.Gen.ReferenceIdeal
import proofs.«402061_j76029511073825_3_alg».proof.Proof.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefLayers

open Cert.ReferenceIdeal Cert.ReferenceIdeal.Gen
open Idealize.ShloMosaic Idealize.ShloMosaic.TcCoe Idealize.SL.Sem Idealize.ShloMosaic.StableHlo
open Idealize.ShloMosaic.ValueIdx

/-! ## The gather of node rows -/

/-- The gather of rows of a node array at a column of start words, at entry (e, k): the array at the clamped row. -/
theorem gather_at (h : S100000x64.Idx → EReal) (idx : IVec S1600000x1 32) (e : Fin 1600000) (k : Fin 64) :
    Host.gather gather_S100000x64_S1600000x1_S1600000x64_1_0_n_n_0_1_164 h idx (ix2 e k)
      = h (ix2 (Sage.rowClamp (idx (ix2 e (0 : Fin 1)))) k) :=
  Sage.gather_rows_at gather_S100000x64_S1600000x1_S1600000x64_1_0_n_n_0_1_164_wf h idx e k

/-! ## The scatter-adds into zeros -/

/-- Edge rows of width 64 added per destination word into an array of zeros. -/
theorem scatter64_at (z : S100000x64.Idx → EReal) (hz : ∀ i, z i = 0) (idx : IVec S1600000x1 32)
    (u : S1600000x64.Idx → EReal) (n : Fin 100000) (j : Fin 64) :
    Host.scatterAdd (F := Ideal) (φ := .f32) scatter_S100000x64_S1600000x1_S1600000x64_1_0_0_1 z idx u (ix2 n j)
      = Sage.scat (N := 100000) (fun e => (idx (ix2 e (0 : Fin 1))).toInt) (fun e j => u (ix2 e j)) n j :=
  Sage.scatter_rows_at scatter_S100000x64_S1600000x1_S1600000x64_1_0_0_1_wf z hz idx u n j

/-- Edge rows of width 1 added per destination word into a column of zeros. -/
theorem scatter1_at (z : S100000x1.Idx → EReal) (hz : ∀ i, z i = 0) (idx : IVec S1600000x1 32)
    (u : S1600000x1.Idx → EReal) (n : Fin 100000) (j : Fin 1) :
    Host.scatterAdd (F := Ideal) (φ := .f32) scatter_S100000x1_S1600000x1_S1600000x1_1_0_0_1 z idx u (ix2 n j)
      = Sage.scat (N := 100000) (fun e => (idx (ix2 e (0 : Fin 1))).toInt) (fun e j => u (ix2 e j)) n j :=
  Sage.scatter_rows_at scatter_S100000x1_S1600000x1_S1600000x1_1_0_0_1_wf z hz idx u n j

/-- A column of ones added per destination word: the number of edges sent to the node. -/
theorem scat_ones (dI : Fin 1600000 → ℤ) (n : Fin 100000) (j : Fin 1) :
    Sage.scat (N := 100000) dI (fun _ _ => (1 : EReal)) n j = Sage.cnt dI n := rfl

/-! ## The joins along the columns -/

/-- An edge array of 64 columns joined to one of 32, at entry (e, k). -/
theorem cat96_at (a : S1600000x64.Idx → EReal) (b : S1600000x32.Idx → EReal) (e : Fin 1600000) (k : Fin 96) :
    concatenate S1600000x96 1 [⟨S1600000x64, a⟩, ⟨S1600000x32, b⟩] concatenates_S1600000x64_S1600000x32_S1600000x96_d1 (ix2 e k)
      = Sage.cat (a := 64) (b := 32) rfl (fun k => a (ix2 e k)) (fun k => b (ix2 e k)) k := by
  unfold Sage.cat
  by_cases hk : k.val < 64
  · rw [dif_pos hk]
    exact concatenate_pair_apply_left (t := S1600000x96) (s₁ := S1600000x64) (s₂ := S1600000x32) (1 : Fin 2) a b
      concatenates_S1600000x64_S1600000x32_S1600000x96_d1 (ix2 e k) rfl (ix2 e (⟨k.val, hk⟩ : Fin 64)) (by
        intro c
        match c with
        | ⟨0, _⟩ => rfl
        | ⟨1, _⟩ => rfl)
  · rw [dif_neg hk]
    exact concatenate_pair_apply_right (t := S1600000x96) (s₁ := S1600000x64) (s₂ := S1600000x32) (1 : Fin 2) a b
      concatenates_S1600000x64_S1600000x32_S1600000x96_d1 (ix2 e k) rfl rfl
      (ix2 e (⟨k.val - 64, by have := k.isLt; omega⟩ : Fin 32)) (by
        intro c hc
        match c with
        | ⟨0, _⟩ => rfl
        | ⟨1, _⟩ => exact absurd rfl hc) (by
        show k.val - 64 + 64 = k.val; omega)

/-- A node array of 64 columns joined to another of 64, at entry (n, k). -/
theorem cat128_at (a b : S100000x64.Idx → EReal) (n : Fin 100000) (k : Fin 128) :
    concatenate S100000x128 1 [⟨S100000x64, a⟩, ⟨S100000x64, b⟩] concatenates_S100000x64_S100000x64_S100000x128_d1 (ix2 n k)
      = Sage.cat (a := 64) (b := 64) rfl (fun k => a (ix2 n k)) (fun k => b (ix2 n k)) k := by
  unfold Sage.cat
  by_cases hk : k.val < 64
  · rw [dif_pos hk]
    exact concatenate_pair_apply_left (t := S100000x128) (s₁ := S100000x64) (s₂ := S100000x64) (1 : Fin 2) a b
      concatenates_S100000x64_S100000x64_S100000x128_d1 (ix2 n k) rfl (ix2 n (⟨k.val, hk⟩ : Fin 64)) (by
        intro c
        match c with
        | ⟨0, _⟩ => rfl
        | ⟨1, _⟩ => rfl)
  · rw [dif_neg hk]
    exact concatenate_pair_apply_right (t := S100000x128) (s₁ := S100000x64) (s₂ := S100000x64) (1 : Fin 2) a b
      concatenates_S100000x64_S100000x64_S100000x128_d1 (ix2 n k) rfl rfl
      (ix2 n (⟨k.val - 64, by have := k.isLt; omega⟩ : Fin 64)) (by
        intro c hc
        match c with
        | ⟨0, _⟩ => rfl
        | ⟨1, _⟩ => exact absurd rfl hc) (by
        show k.val - 64 + 64 = k.val; omega)

/-! ## The transposed weight matrices and the repeated bias rows -/

theorem tr96_at (w : S64x96.Idx → EReal) (k : Fin 96) (j : Fin 64) :
    transpose S96x64 [1, 0] w transposes_S64x96_S96x64_1_0 (ix2 k j) = w (ix2 j k) :=
  transpose_apply [1, 0] w transposes_S64x96_S96x64_1_0 (ix2 k j) (ix2 j k) (fun b => match b with
    | ⟨0, _⟩ => rfl
    | ⟨1, _⟩ => rfl)

theorem tr128_at (w : S64x128.Idx → EReal) (k : Fin 128) (j : Fin 64) :
    transpose S128x64 [1, 0] w transposes_S64x128_S128x64_1_0 (ix2 k j) = w (ix2 j k) :=
  transpose_apply [1, 0] w transposes_S64x128_S128x64_1_0 (ix2 k j) (ix2 j k) (fun b => match b with
    | ⟨0, _⟩ => rfl
    | ⟨1, _⟩ => rfl)

/-- A bias row repeated down the edge rows. -/
theorem biasE_at (b : S64.Idx → EReal) (e : Fin 1600000) (j : Fin 64) :
    broadcastInDim S1600000x64 ![0, 1] bcast_S1x64_S1600000x64_0_1 (broadcastInDim S1x64 ![1] bcast_S64_S1x64_1 b) (ix2 e j)
      = b (ix1 j) := by
  rw [broadcastInDim_apply _ bcast_S1x64_S1600000x64_0_1 _ (ix2 e j) (ix2 (0 : Fin 1) j) (fun a => match a with
    | ⟨0, _⟩ => by show 0 = if (1 : Nat) = 1 then 0 else e.val; rw [if_pos rfl]
    | ⟨1, _⟩ => by show j.val = if (64 : Nat) = 1 then 0 else j.val; rw [if_neg (by decide)])]
  exact broadcastInDim_apply _ bcast_S64_S1x64_1 b (ix2 (0 : Fin 1) j) (ix1 j) (fun a => match a with
    | ⟨0, _⟩ => by show j.val = if (64 : Nat) = 1 then 0 else j.val; rw [if_neg (by decide)])

/-- A bias row repeated down the node rows. -/
theorem biasN_at (b : S64.Idx → EReal) (n : Fin 100000) (j : Fin 64) :
    broadcastInDim S100000x64 ![0, 1] bcast_S1x64_S100000x64_0_1 (broadcastInDim S1x64 ![1] bcast_S64_S1x64_1 b) (ix2 n j)
      = b (ix1 j) := by
  rw [broadcastInDim_apply _ bcast_S1x64_S100000x64_0_1 _ (ix2 n j) (ix2 (0 : Fin 1) j) (fun a => match a with
    | ⟨0, _⟩ => by show 0 = if (1 : Nat) = 1 then 0 else n.val; rw [if_pos rfl]
    | ⟨1, _⟩ => by show j.val = if (64 : Nat) = 1 then 0 else j.val; rw [if_neg (by decide)])]
  exact broadcastInDim_apply _ bcast_S64_S1x64_1 b (ix2 (0 : Fin 1) j) (ix1 j) (fun a => match a with
    | ⟨0, _⟩ => by show j.val = if (64 : Nat) = 1 then 0 else j.val; rw [if_neg (by decide)])

/-- A one-column array repeated along 64 columns. -/
theorem colN_at (c : S100000x1.Idx → EReal) (n : Fin 100000) (j : Fin 64) :
    broadcastInDim S100000x64 ![0, 1] bcast_S100000x1_S100000x64_0_1 c (ix2 n j) = c (ix2 n (0 : Fin 1)) :=
  broadcastInDim_apply _ bcast_S100000x1_S100000x64_0_1 c (ix2 n j) (ix2 n (0 : Fin 1)) (fun a => match a with
    | ⟨0, _⟩ => by show n.val = if (100000 : Nat) = 1 then 0 else n.val; rw [if_neg (by decide)]
    | ⟨1, _⟩ => by show 0 = if (1 : Nat) = 1 then 0 else j.val; rw [if_pos rfl])

/-! ## The two products -/

theorem lhs96_0 (i : S1600000x64.Idx) (q : dot_S1600000x96_S96x64_S1600000x64_1_0_0_1_n_n.contr.Idx) :
    (dot_S1600000x96_S96x64_S1600000x64_1_0_0_1_n_n.lhsIdx i q 0).val = (i 0).val := by
  unfold DotDims.lhsIdx
  rw [dif_neg (show ¬(0 : Fin S1600000x96.rank) ∈ dot_S1600000x96_S96x64_S1600000x64_1_0_0_1_n_n.lhsBatch by decide), dif_pos (show (0 : Fin S1600000x96.rank) ∈ dot_S1600000x96_S96x64_S1600000x64_1_0_0_1_n_n.lhsNonContracting by decide)]
  rfl
theorem lhs96_1 (i : S1600000x64.Idx) (q : dot_S1600000x96_S96x64_S1600000x64_1_0_0_1_n_n.contr.Idx) :
    (dot_S1600000x96_S96x64_S1600000x64_1_0_0_1_n_n.lhsIdx i q 1).val = (q ⟨0, by decide⟩).val :=
  dot_S1600000x96_S96x64_S1600000x64_1_0_0_1_n_n.lhsIdx_val_of_single rfl i q
theorem rhs96_0 (i : S1600000x64.Idx) (q : dot_S1600000x96_S96x64_S1600000x64_1_0_0_1_n_n.contr.Idx) :
    (dot_S1600000x96_S96x64_S1600000x64_1_0_0_1_n_n.rhsIdx i q 0).val = (q ⟨0, by decide⟩).val :=
  dot_S1600000x96_S96x64_S1600000x64_1_0_0_1_n_n.rhsIdx_val_of_single rfl i q
theorem rhs96_1 (i : S1600000x64.Idx) (q : dot_S1600000x96_S96x64_S1600000x64_1_0_0_1_n_n.contr.Idx) :
    (dot_S1600000x96_S96x64_S1600000x64_1_0_0_1_n_n.rhsIdx i q 1).val = (i 1).val := by
  unfold DotDims.rhsIdx
  rw [dif_neg (show ¬(1 : Fin S96x64.rank) ∈ dot_S1600000x96_S96x64_S1600000x64_1_0_0_1_n_n.rhsBatch by decide), dif_pos (show (1 : Fin S96x64.rank) ∈ dot_S1600000x96_S96x64_S1600000x64_1_0_0_1_n_n.rhsNonContracting by decide)]
  rfl

/-- An edge array of 96 columns times a 96 × 64 matrix, at entry (e, j): the sum over the 96 columns. -/
theorem dot96_at (l : S1600000x96.Idx → EReal) (r : S96x64.Idx → EReal) (e : Fin 1600000) (j : Fin 64) :
    Host.dotGeneral (F := Ideal) (φ₁ := .f32) (φ₂ := .f32) dot_S1600000x96_S96x64_S1600000x64_1_0_0_1_n_n none l r (ix2 e j)
      = ∑ k : Fin 96, l (ix2 e k) * r (ix2 k j) := by
  simp only [Host.dotGeneral]
  rw [Ideal.dotGeneral_apply, ← Equiv.sum_comp (contrEquiv1 dot_S1600000x96_S96x64_S1600000x64_1_0_0_1_n_n 96 rfl rfl).symm]
  refine Finset.sum_congr rfl fun k _ => ?_
  have hk := contrEquiv1_symm_val dot_S1600000x96_S96x64_S1600000x64_1_0_0_1_n_n 96 rfl rfl k
  have el : dot_S1600000x96_S96x64_S1600000x64_1_0_0_1_n_n.lhsIdx (ix2 e j) ((contrEquiv1 dot_S1600000x96_S96x64_S1600000x64_1_0_0_1_n_n 96 rfl rfl).symm k) = ix2 e k :=
    funext fun a => Fin.ext (by
      match a with
      | ⟨0, _⟩ => exact lhs96_0 _ _
      | ⟨1, _⟩ => exact (lhs96_1 _ _).trans hk)
  have er : dot_S1600000x96_S96x64_S1600000x64_1_0_0_1_n_n.rhsIdx (ix2 e j) ((contrEquiv1 dot_S1600000x96_S96x64_S1600000x64_1_0_0_1_n_n 96 rfl rfl).symm k) = ix2 k j :=
    funext fun a => Fin.ext (by
      match a with
      | ⟨0, _⟩ => exact (rhs96_0 _ _).trans hk
      | ⟨1, _⟩ => exact rhs96_1 _ _)
  rw [el, er]

theorem lhs128_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs128_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs128_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs128_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- A node array of 128 columns times a 128 × 64 matrix, at entry (n, j): the sum over the 128 columns. -/
theorem dot128_at (l : S100000x128.Idx → EReal) (r : S128x64.Idx → EReal) (n : Fin 100000) (j : Fin 64) :
    Host.dotGeneral (F := Ideal) (φ₁ := .f32) (φ₂ := .f32) dot_S100000x128_S128x64_S100000x64_1_0_0_1_n_n none l r (ix2 n j)
      = ∑ k : Fin 128, l (ix2 n k) * r (ix2 k j) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 n j) ((contrEquiv1 dot_S100000x128_S128x64_S100000x64_1_0_0_1_n_n 128 rfl rfl).symm k) = ix2 n k :=
    funext fun a => Fin.ext (by
      match a with
      | ⟨0, _⟩ => exact lhs128_0 _ _
      | ⟨1, _⟩ => exact (lhs128_1 _ _).trans hk)
  have er : dot_S100000x128_S128x64_S100000x64_1_0_0_1_n_n.rhsIdx (ix2 n j) ((contrEquiv1 dot_S100000x128_S128x64_S100000x64_1_0_0_1_n_n 128 rfl rfl).symm k) = ix2 k j :=
    funext fun a => Fin.ext (by
      match a with
      | ⟨0, _⟩ => exact (rhs128_0 _ _).trans hk
      | ⟨1, _⟩ => exact rhs128_1 _ _)
  rw [el, er]

/-! ## One layer over arbitrary buffers -/

/-- The message stage as the program composes it: gather the source rows, join the edge rows, multiply by the
    transposed message matrix, add the bias row. -/
def msgV (h : S100000x64.Idx → EReal) (x1 : S1600000x32.Idx → EReal) (wm : S64x96.Idx → EReal) (bm : S64.Idx → EReal)
    (sidx : IVec S1600000x1 32) : S1600000x64.Idx → EReal :=
  addf (F := Ideal) (φ := .f32)
    (Host.dotGeneral (F := Ideal) (φ₁ := .f32) (φ₂ := .f32) dot_S1600000x96_S96x64_S1600000x64_1_0_0_1_n_n none
      (concatenate S1600000x96 1 [⟨S1600000x64, Host.gather gather_S100000x64_S1600000x1_S1600000x64_1_0_n_n_0_1_164 h sidx⟩, ⟨S1600000x32, x1⟩]
        concatenates_S1600000x64_S1600000x32_S1600000x96_d1)
      (transpose S96x64 [1, 0] wm transposes_S64x96_S96x64_1_0))
    (broadcastInDim S1600000x64 ![0, 1] bcast_S1x64_S1600000x64_0_1 (broadcastInDim S1x64 ![1] bcast_S64_S1x64_1 bm))

/-- The message of edge e at column j: the affine map of the gathered source row joined to the edge row. -/
theorem msgV_at (h : S100000x64.Idx → EReal) (x1 : S1600000x32.Idx → EReal) (wm : S64x96.Idx → EReal) (bm : S64.Idx → EReal)
    (sidx : IVec S1600000x1 32) (e : Fin 1600000) (j : Fin 64) :
    msgV h x1 wm bm sidx (ix2 e j)
      = (∑ k : Fin 96, Sage.cat (a := 64) (b := 32) rfl (fun k => h (ix2 (Sage.rowClamp (sidx (ix2 e (0 : Fin 1)))) k))
          (fun k => x1 (ix2 e k)) k * wm (ix2 j k)) + bm (ix1 j) := by
  unfold msgV
  rw [addf_apply, dot96_at, biasE_at]
  refine congrArg (· + bm (ix1 j)) (Finset.sum_congr rfl fun k _ => ?_)
  rw [cat96_at, tr96_at]
  simp only [gather_at]

/-- The layer before its clamp as the program composes it: scatter-add the messages into zeros, divide by the clamped
    counts, join to the node rows, multiply by the transposed update matrix, add the bias row. -/
def layV (h : S100000x64.Idx → EReal) (x1 : S1600000x32.Idx → EReal) (wm : S64x96.Idx → EReal) (bm : S64.Idx → EReal)
    (wa : S64x128.Idx → EReal) (ba : S64.Idx → EReal) (sidx didx : IVec S1600000x1 32) (z cc : S100000x64.Idx → EReal) :
    S100000x64.Idx → EReal :=
  addf (F := Ideal) (φ := .f32)
    (Host.dotGeneral (F := Ideal) (φ₁ := .f32) (φ₂ := .f32) dot_S100000x128_S128x64_S100000x64_1_0_0_1_n_n none
      (concatenate S100000x128 1 [⟨S100000x64, h⟩, ⟨S100000x64, Host.divf (F := Ideal) (φ := .f32)
          (Host.scatterAdd (F := Ideal) (φ := .f32) scatter_S100000x64_S1600000x1_S1600000x64_1_0_0_1 z didx (msgV h x1 wm bm sidx)) cc⟩]
        concatenates_S100000x64_S100000x64_S100000x128_d1)
      (transpose S128x64 [1, 0] wa transposes_S64x128_S128x64_1_0))
    (broadcastInDim S100000x64 ![0, 1] bcast_S1x64_S100000x64_0_1 (broadcastInDim S1x64 ![1] bcast_S64_S1x64_1 ba))

/-- The layer, clamped below at zero, is the direct form's layer — given that the start words clamp to the source rows,
    the scatter words read signed are the destination numbers, the scatter's operand is zero and the divisor array holds
    the clamped counts. -/
theorem layV_eq (h : S100000x64.Idx → EReal) (x1 : S1600000x32.Idx → EReal) (wm : S64x96.Idx → EReal) (bm : S64.Idx → EReal)
    (wa : S64x128.Idx → EReal) (ba : S64.Idx → EReal) (sidx didx : IVec S1600000x1 32) (z cc : S100000x64.Idx → EReal)
    (ρs : Fin 1600000 → Fin 100000) (dI : Fin 1600000 → ℤ)
    (hs : ∀ e, Sage.rowClamp (sidx (ix2 e (0 : Fin 1))) = ρs e)
    (hd : ∀ e, (didx (ix2 e (0 : Fin 1))).toInt = dI e)
    (hz : ∀ i, z i = 0) (hc : ∀ n j, cc (ix2 n j) = Sage.cntc dI n) (n : Fin 100000) (j : Fin 64) :
    max (layV h x1 wm bm wa ba sidx didx z cc (ix2 n j)) 0
      = Sage.refLayer ρs dI (Sage.mat h) (Sage.mat x1) (Sage.mat wm) (Sage.vec bm) (Sage.mat wa) (Sage.vec ba) n j := by
  have hm : (fun e j => msgV h x1 wm bm sidx (ix2 e j))
      = Sage.refMsg ρs (Sage.mat h) (Sage.mat x1) (Sage.mat wm) (Sage.vec bm) := by
    funext e j
    rw [msgV_at, hs]
    rfl
  have hdI : (fun e => (didx (ix2 e (0 : Fin 1))).toInt) = dI := funext hd
  have ha : ∀ k : Fin 64, Host.divf (F := Ideal) (φ := .f32)
      (Host.scatterAdd (F := Ideal) (φ := .f32) scatter_S100000x64_S1600000x1_S1600000x64_1_0_0_1 z didx (msgV h x1 wm bm sidx)) cc (ix2 n k)
      = Sage.refAggr ρs dI (Sage.mat h) (Sage.mat x1) (Sage.mat wm) (Sage.vec bm) n k := by
    intro k
    show Ideal.div (Host.scatterAdd (F := Ideal) (φ := .f32) scatter_S100000x64_S1600000x1_S1600000x64_1_0_0_1 z didx (msgV h x1 wm bm sidx) (ix2 n k))
      (cc (ix2 n k)) = _
    rw [scatter64_at z hz, hc, hdI, hm]
    rfl
  unfold Sage.refLayer layV
  rw [addf_apply, dot128_at, biasN_at]
  refine congrArg (fun t => max (t + ba (ix1 j)) 0) (Finset.sum_congr rfl fun k _ => ?_)
  rw [cat128_at, tr128_at]
  simp only [ha]
  rfl

/-! ## The index words and the counts, read off the edge array -/

/-- Row 0 of the edge array as a vector of words (the source words), and row 1 (the destination words). -/
def row0V (x12 : S2x1600000.Idx → BitVec 32) : IVec S1600000 32 :=
  shapeCast _ (extractStridedSlice S1x1600000 ![0, 0] x12 slices_S2x1600000_S1x1600000_0_0) shapeCasts_S1x1600000_S1600000
def row1V (x12 : S2x1600000.Idx → BitVec 32) : IVec S1600000 32 :=
  shapeCast _ (extractStridedSlice S1x1600000 ![1, 0] x12 slices_S2x1600000_S1x1600000_1_0) shapeCasts_S1x1600000_S1600000

theorem row0V_at (x12 : S2x1600000.Idx → BitVec 32) (e : Fin 1600000) : row0V x12 (ix1 e) = Sage.srcW x12 e := by
  unfold row0V
  rw [shapeCast_apply _ shapeCasts_S1x1600000_S1600000 (ix1 e) (ix2 (0 : Fin 1) e) (by
    rw [Shape.rowMajor_val_two, Shape.rowMajor_val_one]; show 0 * 1600000 + e.val = e.val; omega)]
  exact extractStridedSlice_apply ![0, 0] x12 slices_S2x1600000_S1x1600000_0_0 (ix2 (0 : Fin 1) e) (ix2 (0 : Fin 2) e)
    (fun a => match a with
      | ⟨0, _⟩ => by show 0 = 0 + 0; rfl
      | ⟨1, _⟩ => by show e.val = 0 + e.val; omega)

theorem row1V_at (x12 : S2x1600000.Idx → BitVec 32) (e : Fin 1600000) : row1V x12 (ix1 e) = Sage.dstW x12 e := by
  unfold row1V
  rw [shapeCast_apply _ shapeCasts_S1x1600000_S1600000 (ix1 e) (ix2 (0 : Fin 1) e) (by
    rw [Shape.rowMajor_val_two, Shape.rowMajor_val_one]; show 0 * 1600000 + e.val = e.val; omega)]
  exact extractStridedSlice_apply ![1, 0] x12 slices_S2x1600000_S1x1600000_1_0 (ix2 (0 : Fin 1) e) (ix2 (1 : Fin 2) e)
    (fun a => match a with
      | ⟨0, _⟩ => by show 1 = 1 + 0; rfl
      | ⟨1, _⟩ => by show e.val = 0 + e.val; omega)

/-- A gather's column of start words: each word of the row, a negative one first raised by the table's height. -/
def startV (r : IVec S1600000 32) : IVec S1600000x1 32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

theorem startV_at (r : IVec S1600000 32) (e : Fin 1600000) : startV r (ix2 e (0 : Fin 1)) = Sage.wrap (r (ix1 e)) := by
  unfold startV
  rw [broadcastInDim_apply _ bcast_S1600000_S1600000x1_0 _ (ix2 e (0 : Fin 1)) (ix1 e) (fun a => match a with
    | ⟨0, _⟩ => by show e.val = if (1600000 : Nat) = 1 then 0 else e.val; rw [if_neg (by decide)])]
  rfl

/-- A scatter's column of index words: the row itself. -/
def colV (r : IVec S1600000 32) : IVec S1600000x1 32 :=
  broadcastInDim S1600000x1 ![0] bcast_S1600000_S1600000x1_0 r

theorem colV_at (r : IVec S1600000 32) (e : Fin 1600000) : colV r (ix2 e (0 : Fin 1)) = r (ix1 e) :=
  broadcastInDim_apply _ bcast_S1600000_S1600000x1_0 r (ix2 e (0 : Fin 1)) (ix1 e) (fun a => match a with
    | ⟨0, _⟩ => by show e.val = if (1600000 : Nat) = 1 then 0 else e.val; rw [if_neg (by decide)])

/-- The arrays of the zero word and of the word of one. -/
def zero64V : S100000x64.Idx → EReal :=
  broadcastInDim S100000x64 ![] bcast_S_S100000x64 (constant (F := Ideal) S_ .f32 0x00000000#32)
def zero1V : S100000x1.Idx → EReal :=
  broadcastInDim S100000x1 ![] bcast_S_S100000x1 (constant (F := Ideal) S_ .f32 0x00000000#32)
def one1V : S100000x1.Idx → EReal :=
  broadcastInDim S100000x1 ![] bcast_S_S100000x1 (constant (F := Ideal) S_ .f32 0x3F800000#32)
def oneEV : S1600000x1.Idx → EReal :=
  broadcastInDim S1600000x1 ![] bcast_S_S1600000x1 (constant (F := Ideal) S_ .f32 0x3F800000#32)

theorem zero64V_at (i : S100000x64.Idx) : zero64V i = 0 := Sage.ofBits_zero
theorem zero1V_at (i : S100000x1.Idx) : zero1V i = 0 := Sage.ofBits_zero
theorem one1V_at (i : S100000x1.Idx) : one1V i = 1 := Sage.ofBits_one
theorem oneEV_at (i : S1600000x1.Idx) : oneEV i = 1 := Sage.ofBits_one

/-- The divisor array: ones added per destination word into zeros, clamped below at one, repeated along the columns. -/
def cntV (didx : IVec S1600000x1 32) : S100000x64.Idx → EReal :=
  broadcastInDim S100000x64 ![0, 1] bcast_S100000x1_S100000x64_0_1
    (maximumf (F := Ideal) (φ := .f32)
      (Host.scatterAdd (F := Ideal) (φ := .f32) scatter_S100000x1_S1600000x1_S1600000x1_1_0_0_1 zero1V didx oneEV) one1V)

theorem cntV_at (didx : IVec S1600000x1 32) (dI : Fin 1600000 → ℤ) (hd : ∀ e, (didx (ix2 e (0 : Fin 1))).toInt = dI e)
    (n : Fin 100000) (j : Fin 64) : cntV didx (ix2 n j) = Sage.cntc dI n := by
  unfold cntV
  rw [colN_at, maximumf_apply, scatter1_at zero1V zero1V_at, one1V_at, funext hd]
  simp only [oneEV_at]
  rfl

/-! ## One layer over an arbitrary node array and the edge array -/

/-- The layer before its clamp, its index words and counts read off the edge array. -/
def layerV (h : S100000x64.Idx → EReal) (x1 : S1600000x32.Idx → EReal) (wm : S64x96.Idx → EReal) (bm : S64.Idx → EReal)
    (wa : S64x128.Idx → EReal) (ba : S64.Idx → EReal) (x12 : S2x1600000.Idx → BitVec 32) : S100000x64.Idx → EReal :=
  layV h x1 wm bm wa ba (startV (row0V x12)) (colV (row1V x12)) zero64V (cntV (colV (row1V x12)))

/-- The layer, clamped below at zero, is the direct form's layer over the edge array's source rows and destinations. -/
theorem layerV_eq (h : S100000x64.Idx → EReal) (x1 : S1600000x32.Idx → EReal) (wm : S64x96.Idx → EReal) (bm : S64.Idx → EReal)
    (wa : S64x128.Idx → EReal) (ba : S64.Idx → EReal) (x12 : S2x1600000.Idx → BitVec 32) (n : Fin 100000) (j : Fin 64) :
    max (layerV h x1 wm bm wa ba x12 (ix2 n j)) 0
      = Sage.refLayer (Sage.rhoS x12) (Sage.dstI x12) (Sage.mat h) (Sage.mat x1) (Sage.mat wm) (Sage.vec bm)
          (Sage.mat wa) (Sage.vec ba) n j := by
  have hd : ∀ e, (colV (row1V x12) (ix2 e (0 : Fin 1))).toInt = Sage.dstI x12 e := fun e => by
    rw [colV_at, row1V_at]; rfl
  exact layV_eq h x1 wm bm wa ba _ _ _ _ (Sage.rhoS x12) (Sage.dstI x12)
    (fun e => by rw [startV_at, row0V_at]; rfl) hd zero64V_at (cntV_at _ _ hd) n j

end Cert.ReferenceIdeal.RefLayers

end
-- ==== Proof.RefLayers.lean ====
/-
  The reference's two layers, stage by stage, as the direct form.

  A layer gathers each edge's source row, joins it to the edge's own row, maps the joined row affinely, sums the
  messages per destination node, divides by the clamped count, joins the quotient to the node's own row, maps affinely
  and clamps below at zero. After the first layer the rows are clamped once more; the second layer reads those.

  Both layers are one composition of operations over a node array, the edge rows, four weight arrays and the edge
  array: the first layer's stages are that composition over the input node array, the second layer's over the first
  layer's clamped stage. The composition, read at an entry, is the direct form's layer before its last clamp.
-/
import proofs.«402061_j76029511073825_3_alg».proof.Proof.ReadPatched
import proofs.«402061_j76029511073825_3_alg».proof.Proof.Idx
import proofs.«402061_j76029511073825_3_alg».proof.Proof.RefLayersAux
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefLayers

open Cert.ReferenceIdeal Cert.ReferenceIdeal.Gen Cert.ReferenceIdeal.Read
open Idealize.ShloMosaic Idealize.ShloMosaic.TcCoe Idealize.SL.Sem
open Idealize.ShloMosaic.ValueIdx

/-- The first layer's stage before its clamps is the layer's composition over the input node array. -/
private theorem stage33 (x0 : (⟨S100000x64, .f32⟩ : BufTy).Contents (Elt Ideal)) (x1 : (⟨S1600000x32, .f32⟩ : BufTy).Contents (Elt Ideal)) (x2 : (⟨S64x96, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (x12 : (⟨S2x1600000, .i32⟩ : BufTy).Contents (Elt Ideal)) :
    val_main_v33 (F := Ideal) x0 x1 x2 x3 x4 x5 x12 = layerV x0 x1 x2 x3 x4 x5 x12 := rfl

/-- The second layer's stage before its clamp is the same composition over the first layer's clamped stage. -/
private theorem stage69 (x0 : (⟨S100000x64, .f32⟩ : BufTy).Contents (Elt Ideal)) (x1 : (⟨S1600000x32, .f32⟩ : BufTy).Contents (Elt Ideal)) (x2 : (⟨S64x96, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (x6 : (⟨S64x96, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x12 : (⟨S2x1600000, .i32⟩ : BufTy).Contents (Elt Ideal)) :
    val_main_v69 (F := Ideal) x0 x1 x2 x3 x4 x5 x6 x7 x8 x9 x12
      = layerV (val_main_v35 (F := Ideal) x0 x1 x2 x3 x4 x5 x12) x1 x6 x7 x8 x9 x12 := rfl

/-- The first layer with the clamp after it. -/
theorem layer1 (x0 : (⟨S100000x64, .f32⟩ : BufTy).Contents (Elt Ideal)) (x1 : (⟨S1600000x32, .f32⟩ : BufTy).Contents (Elt Ideal)) (x2 : (⟨S64x96, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (x12 : (⟨S2x1600000, .i32⟩ : BufTy).Contents (Elt Ideal)) :
    Sage.mat (r := 100000) (c := 64) (val_main_v35 (F := Ideal) x0 x1 x2 x3 x4 x5 x12)
      = fun n j => max (Sage.refLayer (Sage.rhoS x12) (Sage.dstI x12) (Sage.mat x0) (Sage.mat x1) (Sage.mat x2) (Sage.vec x3)
          (Sage.mat x4) (Sage.vec x5) n j) 0 := by
  funext n j
  -- the stage at (n, j): the composition clamped by the first relu's zero array, clamped again by the second's
  show max (max (val_main_v33 (F := Ideal) x0 x1 x2 x3 x4 x5 x12 (ix2 n j)) (val_main_call0_v0 (F := Ideal) (ix2 n j)))
      (val_main_call1_v0 (F := Ideal) (ix2 n j)) = _
  rw [stage33, show val_main_call0_v0 (F := Ideal) (ix2 n j) = 0 from zero64V_at _,
    show val_main_call1_v0 (F := Ideal) (ix2 n j) = 0 from zero64V_at _, layerV_eq]

/-- The second layer, over the first layer's stage whatever it holds. -/
theorem layer2 (x0 : (⟨S100000x64, .f32⟩ : BufTy).Contents (Elt Ideal)) (x1 : (⟨S1600000x32, .f32⟩ : BufTy).Contents (Elt Ideal)) (x2 : (⟨S64x96, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (x6 : (⟨S64x96, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x12 : (⟨S2x1600000, .i32⟩ : BufTy).Contents (Elt Ideal)) :
    Sage.mat (r := 100000) (c := 64) (val_main_v70 (F := Ideal) x0 x1 x2 x3 x4 x5 x6 x7 x8 x9 x12)
      = Sage.refLayer (Sage.rhoS x12) (Sage.dstI x12) (Sage.mat (r := 100000) (c := 64) (val_main_v35 (F := Ideal) x0 x1 x2 x3 x4 x5 x12))
          (Sage.mat x1) (Sage.mat x6) (Sage.vec x7) (Sage.mat x8) (Sage.vec x9) := by
  funext n j
  -- the stage at (n, j): the composition over the first layer's stage, clamped by the relu's zero array
  show max (val_main_v69 (F := Ideal) x0 x1 x2 x3 x4 x5 x6 x7 x8 x9 x12 (ix2 n j)) (val_main_call2_v0 (F := Ideal) (ix2 n j)) = _
  rw [stage69, show val_main_call2_v0 (F := Ideal) (ix2 n j) = 0 from zero64V_at _, layerV_eq]

end Cert.ReferenceIdeal.RefLayers

end
-- ==== Proof.RefRead.lean ====
/-
  The reference's edge read-out over the second layer's stage: the two endpoint rows of every edge, gathered and joined,
  mapped by the transposed read-out matrix, plus the bias.

  Entry (e, o) of the result is the sum over the 128 joined columns k of the joined row of edge e at k times entry
  (o, k) of the read-out matrix, plus entry o of the bias. The joined row of edge e is the table's row at the edge's
  source endpoint in columns 0 … 63 and the table's row at its destination endpoint in columns 64 … 127; an endpoint's
  row number is its index word, wrapped by the node count when negative and clamped into the table. The table itself
  (the second layer's stage) enters only through its entries, so it is kept as an arbitrary array.
-/
import proofs.«402061_j76029511073825_3_alg».proof.Proof.ReadPatched
import proofs.«402061_j76029511073825_3_alg».proof.Proof.Idx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefRead

open Cert.ReferenceIdeal Cert.ReferenceIdeal.Gen Cert.ReferenceIdeal.Read
open Idealize.ShloMosaic Idealize.ShloMosaic.TcCoe Idealize.SL.Sem
open Idealize.ShloMosaic.ValueIdx

/-! ## The index words -/

/-- The source start index of edge e: row 0 of the edge array at e, wrapped. -/
private theorem src_word (x12 : (⟨S2x1600000, .i32⟩ : BufTy).Contents (Elt Ideal)) (e : Fin 1600000) :
    val_main_v80 (F := Ideal) x12 (ix2 e (0 : Fin 1)) = Sage.wrap (Sage.srcW x12 e) := by
  have hi : idx_main_v71 (idx_main_v72 (idx_main_v80 (ix2 e (0 : Fin 1)))) = ix2 (0 : Fin 2) e :=
    funext fun a => Fin.ext (by
      match a with
      | ⟨0, _⟩ => rfl
      | ⟨1, _⟩ => exact Nat.mod_eq_of_lt e.isLt)
  rw [val_main_v80_apply, val_main_v79_apply, val_main_v76_apply, val_main_v78_apply, val_main_v72_apply,
    val_main_v71_apply, val_main_v75_apply, val_main_v77_apply, val_main_c_10_apply, val_main_c_11_apply, hi]
  rfl

/-- The destination start index of edge e: row 1 of the edge array at e, wrapped. -/
private theorem dst_word (x12 : (⟨S2x1600000, .i32⟩ : BufTy).Contents (Elt Ideal)) (e : Fin 1600000) :
    val_main_v87 (F := Ideal) x12 (ix2 e (0 : Fin 1)) = Sage.wrap (Sage.dstW x12 e) := by
  have hi : idx_main_v73 (idx_main_v74 (idx_main_v87 (ix2 e (0 : Fin 1)))) = ix2 (1 : Fin 2) e :=
    funext fun a => Fin.ext (by
      match a with
      | ⟨0, _⟩ => rfl
      | ⟨1, _⟩ => exact Nat.mod_eq_of_lt e.isLt)
  rw [val_main_v87_apply, val_main_v86_apply, val_main_v83_apply, val_main_v85_apply, val_main_v74_apply,
    val_main_v73_apply, val_main_v82_apply, val_main_v84_apply, val_main_c_12_apply, val_main_c_13_apply, hi]
  rfl

/-! ## The two gathers: the row of the table at an endpoint of the edge -/

/-- A gather of rows of any table at the wrapped source words reads row rhoS e. -/
private theorem gather_src (Z : (⟨S100000x64, .f32⟩ : BufTy).Contents (Elt Ideal))
    (x12 : (⟨S2x1600000, .i32⟩ : BufTy).Contents (Elt Ideal)) (e : Fin 1600000) (k : Fin 64) :
    Host.gather gather_S100000x64_S1600000x1_S1600000x64_1_0_n_n_0_1_164 Z (val_main_v80 (F := Ideal) x12) (ix2 e k)
      = Z (ix2 (Sage.rhoS x12 e) k) := by
  have h := Sage.gather_rows_at (D := 64) Facts₀.gather_S100000x64_S1600000x1_S1600000x64_1_0_n_n_0_1_164_wf
    Z (val_main_v80 (F := Ideal) x12) e k
  rw [src_word] at h
  exact h

/-- A gather of rows of any table at the wrapped destination words reads row rhoD e. -/
private theorem gather_dst (Z : (⟨S100000x64, .f32⟩ : BufTy).Contents (Elt Ideal))
    (x12 : (⟨S2x1600000, .i32⟩ : BufTy).Contents (Elt Ideal)) (e : Fin 1600000) (k : Fin 64) :
    Host.gather gather_S100000x64_S1600000x1_S1600000x64_1_0_n_n_0_1_164 Z (val_main_v87 (F := Ideal) x12) (ix2 e k)
      = Z (ix2 (Sage.rhoD x12 e) k) := by
  have h := Sage.gather_rows_at (D := 64) Facts₀.gather_S100000x64_S1600000x1_S1600000x64_1_0_n_n_0_1_164_wf
    Z (val_main_v87 (F := Ideal) x12) e k
  rw [dst_word] at h
  exact h

/-! ## The join of the two gathered rows -/

/-- Two arrays of 64 columns joined along the columns, read at (e, k): the left one at column k when k < 64, else the
    right one at column k - 64. -/
private theorem join_at (A B : (⟨S1600000x64, .f32⟩ : BufTy).Contents (Elt Ideal)) (e : Fin 1600000) (k : Fin 128) :
    concatenate S1600000x128 1 [⟨S1600000x64, A⟩, ⟨S1600000x64, B⟩]
        Facts₀.concatenates_S1600000x64_S1600000x64_S1600000x128_d1 (ix2 e k)
      = Sage.cat (a := 64) (b := 64) rfl (fun c => A (ix2 e c)) (fun c => B (ix2 e c)) k := by
  unfold Sage.cat
  by_cases hk : k.val < 64
  · rw [dif_pos hk]
    exact concatenate_pair_apply_left (1 : Fin S1600000x128.rank) A B _ (ix2 e k) rfl (ix2 e (⟨k.val, hk⟩ : Fin 64))
      (fun b => by
        match b with
        | ⟨0, _⟩ => rfl
        | ⟨1, _⟩ => rfl)
  · rw [dif_neg hk]
    exact concatenate_pair_apply_right (1 : Fin S1600000x128.rank) A B _ (ix2 e k) rfl rfl
      (ix2 e (⟨k.val - 64, by have := k.isLt; omega⟩ : Fin 64))
      (fun b hb => by
        match b, hb with
        | ⟨0, _⟩, _ => rfl
        | ⟨1, _⟩, hb => exact absurd rfl hb)
      (by show k.val - 64 + 64 = k.val; omega)

/-! ## The read-out -/

theorem readout (x0 : (⟨S100000x64, .f32⟩ : BufTy).Contents (Elt Ideal)) (x1 : (⟨S1600000x32, .f32⟩ : BufTy).Contents (Elt Ideal)) (x2 : (⟨S64x96, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (x6 : (⟨S64x96, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x10 : (⟨S2x128, .f32⟩ : BufTy).Contents (Elt Ideal)) (x11 : (⟨S2, .f32⟩ : BufTy).Contents (Elt Ideal)) (x12 : (⟨S2x1600000, .i32⟩ : BufTy).Contents (Elt Ideal)) (e : Fin 1600000) (o : Fin 2) :
    Sage.mat (r := 1600000) (c := 2) (val_main_v94 (F := Ideal) x0 x1 x2 x3 x4 x5 x6 x7 x8 x9 x10 x11 x12) e o
      = Sage.refRead (Sage.rhoS x12) (Sage.rhoD x12) (Sage.mat (r := 100000) (c := 64) (val_main_v70 (F := Ideal) x0 x1 x2 x3 x4 x5 x6 x7 x8 x9 x12))
          (Sage.mat x10) (Sage.vec x11) e o := by
  -- the indices the contraction and the layout operations read, as pairs of coordinates
  have hl : ∀ k : Fin 128, lidx_main_v91 (ix2 e o) k = ix2 e k := fun k =>
    funext fun a => Fin.ext (by
      match a with
      | ⟨0, _⟩ => rfl
      | ⟨1, _⟩ => rfl)
  have hr : ∀ k : Fin 128, idx_main_v90 (ridx_main_v91 (ix2 e o) k) = ix2 o k := fun k =>
    funext fun a => Fin.ext (by
      match a with
      | ⟨0, _⟩ => rfl
      | ⟨1, _⟩ => rfl)
  have hb : idx_main_v92 (idx_main_v93 (ix2 e o)) = ix1 o :=
    funext fun a => Fin.ext (by
      match a with
      | ⟨0, _⟩ => rfl)
  unfold Sage.mat Sage.refRead Sage.vec
  rw [val_main_v94_apply, val_main_v91_apply, val_main_v93_apply, val_main_v92_apply, hb, Ideal.addf_def]
  -- from here on the table is an arbitrary array: only its entries at the two endpoint rows are read
  unfold val_main_v89 val_main_v81 val_main_v88
  generalize val_main_v70 (F := Ideal) x0 x1 x2 x3 x4 x5 x6 x7 x8 x9 x12 = Z
  refine congrArg₂ (· + ·) (Finset.sum_congr rfl fun k _ => ?_) rfl
  rw [val_main_v90_apply, hl, hr, join_at]
  refine congrArg (· * x10 (ix2 o k)) ?_
  have hS : (fun c : Fin 64 => Host.gather gather_S100000x64_S1600000x1_S1600000x64_1_0_n_n_0_1_164 Z
      (val_main_v80 (F := Ideal) x12) (ix2 e c)) = fun j => Z (ix2 (Sage.rhoS x12 e) j) :=
    funext fun c => gather_src Z x12 e c
  have hD : (fun c : Fin 64 => Host.gather gather_S100000x64_S1600000x1_S1600000x64_1_0_n_n_0_1_164 Z
      (val_main_v87 (F := Ideal) x12) (ix2 e c)) = fun j => Z (ix2 (Sage.rhoD x12 e) j) :=
    funext fun c => gather_dst Z x12 e c
  rw [hS, hD]

end Cert.ReferenceIdeal.RefRead

end
-- ==== Proof.RefValue.lean ====
/-
  The reference's result, entry by entry, as the direct form of its inputs: the read-out over the second layer over the
  clamped first layer.
-/
import proofs.«402061_j76029511073825_3_alg».proof.Proof.RefLayers
import proofs.«402061_j76029511073825_3_alg».proof.Proof.RefRead

noncomputable section

namespace Cert.ReferenceIdeal.RefValue

open Cert.ReferenceIdeal Cert.ReferenceIdeal.Gen Cert.ReferenceIdeal.Read
open Idealize.ShloMosaic Idealize.ShloMosaic.TcCoe Idealize.SL.Sem

theorem ref_value (x0 : (⟨S100000x64, .f32⟩ : BufTy).Contents (Elt Ideal)) (x1 : (⟨S1600000x32, .f32⟩ : BufTy).Contents (Elt Ideal)) (x2 : (⟨S64x96, .f32⟩ : BufTy).Contents (Elt Ideal)) (x3 : (⟨S64, .f32⟩ : BufTy).Contents (Elt Ideal)) (x4 : (⟨S64x128, .f32⟩ : BufTy).Contents (Elt Ideal)) (x5 : (⟨S64, .f32⟩ : BufTy).Contents (Elt Ideal)) (x6 : (⟨S64x96, .f32⟩ : BufTy).Contents (Elt Ideal)) (x7 : (⟨S64, .f32⟩ : BufTy).Contents (Elt Ideal)) (x8 : (⟨S64x128, .f32⟩ : BufTy).Contents (Elt Ideal)) (x9 : (⟨S64, .f32⟩ : BufTy).Contents (Elt Ideal)) (x10 : (⟨S2x128, .f32⟩ : BufTy).Contents (Elt Ideal)) (x11 : (⟨S2, .f32⟩ : BufTy).Contents (Elt Ideal)) (x12 : (⟨S2x1600000, .i32⟩ : BufTy).Contents (Elt Ideal)) (e : Fin 1600000) (o : Fin 2) :
    Sage.mat (r := 1600000) (c := 2) (val_main_v94 (F := Ideal) x0 x1 x2 x3 x4 x5 x6 x7 x8 x9 x10 x11 x12) e o
      = Sage.refOut (Sage.rhoS x12) (Sage.rhoD x12) (Sage.dstI x12) (Sage.mat x0) (Sage.mat x1) (Sage.mat x2) (Sage.vec x3)
          (Sage.mat x4) (Sage.vec x5) (Sage.mat x6) (Sage.vec x7) (Sage.mat x8) (Sage.vec x9) (Sage.mat x10) (Sage.vec x11) e o := by
  rw [RefRead.readout, RefLayers.layer2, RefLayers.layer1]
  rfl

end Cert.ReferenceIdeal.RefValue

end
-- ==== Proof.AlgLayer.lean ====
/-
  One layer: the factored form is the direct form, on real inputs.

  Per destination node the direct form sums, over the edges sent to it, an affine map of the joined source and edge
  rows; the factored form sums the rows first and maps the sums. Over the reals the two agree because a finite sum
  commutes with a linear map and the constant term, summed over `cnt n` edges, is `cnt n` times itself; divided by
  `max (cnt n) 1` that is the constant itself when `cnt n ≥ 1` and zero when `cnt n = 0`. The inputs are real, so
  every intermediate value is real and the extended reals' arithmetic is the reals'.
-/
import proofs.«402061_j76029511073825_3_alg».proof.Proof.Spec

noncomputable section

open scoped BigOperators

namespace Cert.Sage

open Idealize.ShloMosaic

variable {N E : ℕ}

/-! ## Finite sums: coercion, and splitting a joined axis -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
private theorem coe_max' (x y : ℝ) : ((max x y : ℝ) : EReal) = max (x : EReal) (y : EReal) :=
  EReal.coe_strictMono.monotone.map_max

/-- A sum over a joined axis is the sum over its left half plus the sum over its right half. -/
private theorem sum_split {M : Type} [AddCommMonoid M] {a b c : ℕ} (h : a + b = c) (f : Fin c → M) :
    ∑ k : Fin c, f k
      = (∑ k : Fin a, f (inl (by omega) k)) + ∑ k : Fin b, f (inr a (by omega) k) := by
  subst h
  rw [Fin.sum_univ_add]
  rfl

/-- The joined row read in its left half is the left row. -/
private theorem cat_inl {a b c : ℕ} (h : a + b = c) (A : Fin a → EReal) (B : Fin b → EReal) (h' : a ≤ c)
    (k : Fin a) : cat h A B (inl h' k) = A k := by
  simp [cat, inl]

/-- The joined row read in its right half is the right row. -/
private theorem cat_inr {a b c : ℕ} (h : a + b = c) (A : Fin a → EReal) (B : Fin b → EReal) (h' : a + b ≤ c)
    (k : Fin b) : cat h A B (inr a h' k) = B k := by
  simp [cat, inr]

/-! ## The real quantities -/

/-- The edges sent to node `n`. -/
private def dest (dI : Fin E → ℤ) (n : Fin N) : Finset (Fin E) :=
  Finset.univ.filter fun e => dI e = (n.val : ℤ)

/-- Real rows summed per destination. -/
private def scatR {C : ℕ} (dI : Fin E → ℤ) (U : Fin E → Fin C → ℝ) (n : Fin N) (j : Fin C) : ℝ :=
  ∑ e ∈ dest dI n, U e j

private theorem scat_coe {C : ℕ} (dI : Fin E → ℤ) (U : Fin E → Fin C → ℝ) (n : Fin N) (j : Fin C) :
    scat dI (fun e j => (U e j : EReal)) n j = (scatR dI U n j : EReal) := by
  unfold scat scatR dest
  rw [coe_sum, Finset.sum_filter]

/-- The count is the (real) number of edges sent to `n`. -/
private theorem cnt_coe (dI : Fin E → ℤ) (n : Fin N) :
    cnt dI n = ((((dest dI n).card : ℕ) : ℝ) : EReal) := by
  unfold cnt dest
  rw [Finset.card_filter, Nat.cast_sum, coe_sum]
  refine Finset.sum_congr rfl fun e _ => ?_
  split_ifs <;> simp

private theorem cntc_coe (dI : Fin E → ℤ) (n : Fin N) :
    cntc dI n = ((max ((dest dI n).card : ℝ) 1 : ℝ) : EReal) := by
  unfold cntc
  rw [cnt_coe, coe_max', EReal.coe_one]

private theorem cntc_ne (dI : Fin E → ℤ) (n : Fin N) : max (((dest dI n).card : ℕ) : ℝ) 1 ≠ 0 :=
  ne_of_gt (lt_of_lt_of_le one_pos (le_max_right _ _))

private theorem invc_coe (dI : Fin E → ℤ) (n : Fin N) :
    invc dI n = ((1 / max ((dest dI n).card : ℝ) 1 : ℝ) : EReal) := by
  unfold invc
  rw [cntc_coe, Ideal.div_coe (cntc_ne dI n), one_mul]

private theorem maskc_coe (dI : Fin E → ℤ) (n : Fin N) :
    maskc dI n = ((if 0 < (dest dI n).card then (1 : ℝ) else 0 : ℝ) : EReal) := by
  unfold maskc
  rw [cnt_coe]
  by_cases h : 0 < (dest dI n).card
  · have h' : (0 : EReal) < ((((dest dI n).card : ℕ) : ℝ) : EReal) := by exact_mod_cast h
    simp [Ideal.cmp, h, h']
  · have h' : ¬ (0 : EReal) < ((((dest dI n).card : ℕ) : ℝ) : EReal) := by
      intro hh; exact h (by exact_mod_cast hh)
    simp [Ideal.cmp, h, h']

/-! ## The message and the two aggregates, over the reals -/

section Real

variable (ρs : Fin E → Fin N) (dI : Fin E → ℤ)
  (H : Fin N → Fin 64 → ℝ) (EA : Fin E → Fin 32 → ℝ) (Wm : Fin 64 → Fin 96 → ℝ) (bm : Fin 64 → ℝ)
  (Wa : Fin 64 → Fin 128 → ℝ) (ba : Fin 64 → ℝ)

/-- The message of edge `e`, with the joined row's product split into its two halves. -/
private def msgR (e : Fin E) (j : Fin 64) : ℝ :=
  (∑ k : Fin 64, H (ρs e) k * Wm j (inl (by decide) k))
    + (∑ k : Fin 32, EA e k * Wm j (inr 64 (by decide) k)) + bm j

private theorem refMsg_coe (e : Fin E) (j : Fin 64) :
    refMsg ρs (fun n k => (H n k : EReal)) (fun e k => (EA e k : EReal)) (fun j k => (Wm j k : EReal))
        (fun j => (bm j : EReal)) e j = (msgR ρs H EA Wm bm e j : EReal) := by
  unfold refMsg msgR
  rw [sum_split (a := 64) (b := 32) rfl]
  simp only [cat_inl, cat_inr, ← EReal.coe_mul, ← coe_sum, ← EReal.coe_add]

/-- The direct aggregate over the reals. -/
private def aggrR (n : Fin N) (j : Fin 64) : ℝ :=
  scatR dI (msgR ρs H EA Wm bm) n j * (1 / max ((dest dI n).card : ℝ) 1)

/-- The factored aggregate over the reals. -/
private def aggrK (n : Fin N) (j : Fin 64) : ℝ :=
  ((∑ k : Fin 64, scatR dI (fun e => H (ρs e)) n k * Wm j (inl (by decide) k))
    + (∑ k : Fin 32, scatR dI EA n k * Wm j (inr 64 (by decide) k))) * (1 / max ((dest dI n).card : ℝ) 1)
    + bm j * (if 0 < (dest dI n).card then (1 : ℝ) else 0)

/-- Summing the messages is mapping the summed rows, plus the count times the constant. -/
private theorem scat_msg (n : Fin N) (j : Fin 64) :
    scatR dI (msgR ρs H EA Wm bm) n j
      = (∑ k : Fin 64, scatR dI (fun e => H (ρs e)) n k * Wm j (inl (by decide) k))
        + (∑ k : Fin 32, scatR dI EA n k * Wm j (inr 64 (by decide) k))
        + ((dest dI n).card : ℝ) * bm j := by
  unfold scatR msgR
  rw [Finset.sum_add_distrib, Finset.sum_add_distrib, Finset.sum_const, nsmul_eq_mul,
    Finset.sum_comm (s := dest dI n), Finset.sum_comm (s := dest dI n)]
  simp only [Finset.sum_mul]

/-- The two aggregates agree over the reals. -/
private theorem aggr_eq (n : Fin N) (j : Fin 64) :
    aggrR ρs dI H EA Wm bm n j = aggrK ρs dI H EA Wm bm n j := by
  unfold aggrR aggrK
  rw [scat_msg, add_mul]
  congr 1
  by_cases h : 0 < (dest dI n).card
  · have h1 : (1 : ℝ) ≤ ((dest dI n).card : ℝ) := by exact_mod_cast h
    rw [if_pos h, max_eq_left h1]
    have h0 : ((dest dI n).card : ℝ) ≠ 0 := by positivity
    field_simp
  · have h0 : (dest dI n).card = 0 := by omega
    rw [if_neg h, h0]
    simp

end Real

/-- The factored layer is the direct layer, on real inputs; and the layer's output is real. -/
theorem layer_eq (ρs : Fin E → Fin N) (dI : Fin E → ℤ)
    (H : Fin N → Fin 64 → ℝ) (EA : Fin E → Fin 32 → ℝ) (Wm : Fin 64 → Fin 96 → ℝ) (bm : Fin 64 → ℝ)
    (Wa : Fin 64 → Fin 128 → ℝ) (ba : Fin 64 → ℝ) :
    kerLayer ρs dI (fun n k => (H n k : EReal)) (fun e k => (EA e k : EReal)) (fun j k => (Wm j k : EReal))
        (fun j => (bm j : EReal)) (fun j k => (Wa j k : EReal)) (fun j => (ba j : EReal))
      = refLayer ρs dI (fun n k => (H n k : EReal)) (fun e k => (EA e k : EReal)) (fun j k => (Wm j k : EReal))
        (fun j => (bm j : EReal)) (fun j k => (Wa j k : EReal)) (fun j => (ba j : EReal))
    ∧ ∃ R : Fin N → Fin 64 → ℝ,
      refLayer ρs dI (fun n k => (H n k : EReal)) (fun e k => (EA e k : EReal)) (fun j k => (Wm j k : EReal))
        (fun j => (bm j : EReal)) (fun j k => (Wa j k : EReal)) (fun j => (ba j : EReal)) = fun n j => (R n j : EReal) := by
  -- the direct aggregate is the coercion of the real one
  have hA : ∀ n j, refAggr ρs dI (fun n k => (H n k : EReal)) (fun e k => (EA e k : EReal))
      (fun j k => (Wm j k : EReal)) (fun j => (bm j : EReal)) n j = (aggrR ρs dI H EA Wm bm n j : EReal) := by
    intro n j
    unfold refAggr aggrR
    rw [cntc_coe, Ideal.div_coe (cntc_ne dI n), funext₂ (refMsg_coe ρs H EA Wm bm), scat_coe, ← EReal.coe_mul]
  -- the factored aggregate is the coercion of the real one
  have hB : ∀ n j, bodyAggr (scat dI fun e k => (H (ρs e) k : EReal)) (scat dI fun e k => (EA e k : EReal))
      (invc dI) (maskc dI) (fun k j => (Wm j (inl (by decide) k) : EReal))
      (fun k j => (Wm j (inr 64 (by decide) k) : EReal)) (fun j => (bm j : EReal)) n j
      = (aggrK ρs dI H EA Wm bm n j : EReal) := by
    intro n j
    unfold bodyAggr aggrK
    simp only [scat_coe dI (fun e => H (ρs e)), scat_coe dI EA, invc_coe, maskc_coe, ← EReal.coe_mul, ← coe_sum,
      ← EReal.coe_add]
  -- the direct layer with the joined row's product split into its two halves
  have hL : ∀ n j, refLayer ρs dI (fun n k => (H n k : EReal)) (fun e k => (EA e k : EReal))
      (fun j k => (Wm j k : EReal)) (fun j => (bm j : EReal)) (fun j k => (Wa j k : EReal)) (fun j => (ba j : EReal)) n j
      = max (((∑ k : Fin 64, (H n k : EReal) * (Wa j (inl (by decide) k) : EReal))
        + (∑ k : Fin 64, (aggrR ρs dI H EA Wm bm n k : EReal) * (Wa j (inr 64 (by decide) k) : EReal)))
        + (ba j : EReal)) 0 := by
    intro n j
    unfold refLayer
    rw [sum_split (a := 64) (b := 64) rfl]
    simp only [cat_inl, cat_inr, hA]
  refine ⟨?_, fun n j => max ((∑ k : Fin 64, H n k * Wa j (inl (by decide) k))
    + (∑ k : Fin 64, aggrR ρs dI H EA Wm bm n k * Wa j (inr 64 (by decide) k)) + ba j) 0, ?_⟩
  · funext n j
    rw [hL]
    unfold kerLayer bodyH
    simp only [hB, aggr_eq]
  · funext n j
    rw [hL]
    simp only [← EReal.coe_mul, ← coe_sum, ← EReal.coe_add, coe_max', EReal.coe_zero]

end Cert.Sage

end
-- ==== Proof.AlgRead.lean ====
/-
  The edge read-out: mapping every node row by both halves of the read-out matrix and adding, per edge, the first half's
  value at one endpoint to the second half's at the other, is the affine map of the two endpoint rows joined. A sum over
  the joined axis of 128 columns splits into the sums over its two halves of 64.

  The splitting is a fact about sums in an additive commutative monoid only: the index set `Fin (a + b)` is the disjoint
  union of the first `a` indices and the last `b`, a joined row restricted to either part is the corresponding piece,
  and no product is ever distributed over a sum. So nothing has to be finite.
-/
import proofs.«402061_j76029511073825_3_alg».proof.Proof.Spec

noncomputable section

open scoped BigOperators

namespace Cert.Sage

open Idealize.ShloMosaic

/-- A joined row at a column of its left half is the left row there. -/
theorem cat_inl {a b c : ℕ} (h : a + b = c) (A : Fin a → EReal) (B : Fin b → EReal) (hl : a ≤ c) (k : Fin a) :
    cat h A B (inl hl k) = A k := by
  unfold cat
  rw [dif_pos (show (inl hl k).val < a from k.isLt)]
  rfl

/-- A joined row at a column of its right half is the right row there: column `a + k` less `a` is column `k`. -/
theorem cat_inr {a b c : ℕ} (h : a + b = c) (A : Fin a → EReal) (B : Fin b → EReal) (hr : a + b ≤ c) (k : Fin b) :
    cat h A B (inr a hr k) = B k := by
  unfold cat
  rw [dif_neg (show ¬ (inr a hr k).val < a from Nat.not_lt.mpr (Nat.le_add_right a k.val))]
  congr 1
  apply Fin.ext
  show a + k.val - a = k.val
  exact Nat.add_sub_cancel_left a k.val

/-- A weighted sum over a joined axis is the sum over the left half plus the sum over the right half. The index set
    `Fin (a + b)` is the first `a` indices followed by the last `b`; on the first the joined row is `A`, on the last it
    is `B` shifted by `a`. Only associativity and commutativity of the sum are used. -/
theorem sum_cat_mul {a b c : ℕ} (h : a + b = c) (A : Fin a → EReal) (B : Fin b → EReal) (w : Fin c → EReal) :
    ∑ k : Fin c, cat h A B k * w k
      = (∑ k : Fin a, A k * w (inl (by omega) k)) + ∑ k : Fin b, B k * w (inr a (by omega) k) := by
  subst h
  rw [Fin.sum_univ_add]
  congr 1
  · refine Finset.sum_congr rfl fun k _ => ?_
    have e : Fin.castAdd b k = inl (Nat.le_add_right a b) k := rfl
    rw [e, cat_inl]
  · refine Finset.sum_congr rfl fun k _ => ?_
    have e : Fin.natAdd a k = inr a (Nat.le_refl (a + b)) k := rfl
    rw [e, cat_inr]

/-- Columns 0 and 1 of the side-by-side read-out matrix are the first half's rows. -/
theorem wpCat_inl (Wp : Mat 2 128) (k : Fin 64) (o : Fin 2) (hl : 2 ≤ 4) :
    wpCat Wp k (inl hl o) = Wp o (inl (by decide) k) := by
  unfold wpCat
  rw [cat_inl]

/-- Columns 2 and 3 of the side-by-side read-out matrix are the second half's rows. -/
theorem wpCat_inr (Wp : Mat 2 128) (k : Fin 64) (o : Fin 2) (hr : 2 + 2 ≤ 4) :
    wpCat Wp k (inr 2 hr o) = Wp o (inr 64 (by decide) k) := by
  unfold wpCat
  rw [cat_inr]

/-- The split read-out is the joined one. No finiteness is needed: only the sum over the joined axis is split. -/
theorem readout_eq (za zb : Fin 64 → EReal) (Wp : Mat 2 128) (o : Fin 2) :
    (∑ k : Fin 64, za k * wpCat Wp k (inl (by decide) o)) + (∑ k : Fin 64, zb k * wpCat Wp k (inr 2 (by decide) o))
      = ∑ k : Fin 128, cat (a := 64) (b := 64) rfl za zb k * Wp o k := by
  rw [sum_cat_mul]
  simp only [wpCat_inl, wpCat_inr]

end Cert.Sage

end
-- ==== Proof.AlgFinal.lean ====
/-
  The whole computation: the factored form is the direct form, on real inputs.

  The first layer's two forms agree and give real rows; clamping real rows below at zero keeps them real; so the second
  layer's two forms agree on them; and the factored read-out, a sum over the second layer's rows against the two halves
  of the read-out matrix, is the joined read-out.
-/
import proofs.«402061_j76029511073825_3_alg».proof.Proof.AlgLayer
import proofs.«402061_j76029511073825_3_alg».proof.Proof.AlgRead

noncomputable section

open scoped BigOperators

namespace Cert.Sage

open Idealize.ShloMosaic

variable {N E : ℕ}

/-- The factored read-out's per-node table is the factored layer's rows against the side-by-side read-out matrix. -/
theorem kerAC_eq (ρs : Fin E → Fin N) (dI : Fin E → ℤ) (H : Mat N 64) (EA : Mat E 32) (Wm : Mat 64 96) (bm : Fin 64 → EReal)
    (Wa : Mat 64 128) (ba : Fin 64 → EReal) (Wp : Mat 2 128) (n : Fin N) (q : Fin 4) :
    kerAC ρs dI H EA Wm bm Wa ba Wp n q = ∑ k : Fin 64, kerLayer ρs dI H EA Wm bm Wa ba n k * wpCat Wp k q := rfl

theorem kerOut_eq_refOut (ρs ρd : Fin E → Fin N) (dI : Fin E → ℤ)
    (X : Fin N → Fin 64 → ℝ) (EA : Fin E → Fin 32 → ℝ)
    (W1m : Fin 64 → Fin 96 → ℝ) (b1m : Fin 64 → ℝ) (W1a : Fin 64 → Fin 128 → ℝ) (b1a : Fin 64 → ℝ)
    (W2m : Fin 64 → Fin 96 → ℝ) (b2m : Fin 64 → ℝ) (W2a : Fin 64 → Fin 128 → ℝ) (b2a : Fin 64 → ℝ)
    (Wp : Fin 2 → Fin 128 → ℝ) (bp : Fin 2 → ℝ) :
    kerOut ρs ρd dI (fun a b => (X a b : EReal)) (fun a b => (EA a b : EReal)) (fun a b => (W1m a b : EReal)) (fun a => (b1m a : EReal)) (fun a b => (W1a a b : EReal)) (fun a => (b1a a : EReal))
        (fun a b => (W2m a b : EReal)) (fun a => (b2m a : EReal)) (fun a b => (W2a a b : EReal)) (fun a => (b2a a : EReal)) (fun a b => (Wp a b : EReal)) (fun a => (bp a : EReal))
      = refOut ρs ρd dI (fun a b => (X a b : EReal)) (fun a b => (EA a b : EReal)) (fun a b => (W1m a b : EReal)) (fun a => (b1m a : EReal)) (fun a b => (W1a a b : EReal)) (fun a => (b1a a : EReal))
        (fun a b => (W2m a b : EReal)) (fun a => (b2m a : EReal)) (fun a b => (W2a a b : EReal)) (fun a => (b2a a : EReal)) (fun a b => (Wp a b : EReal)) (fun a => (bp a : EReal)) := by
  obtain ⟨h1, R1, hR1⟩ := layer_eq ρs dI X EA W1m b1m W1a b1a
  -- the first layer's rows, clamped below at zero, are real
  have hH1 : (fun n j => max (refLayer ρs dI (fun a b => (X a b : EReal)) (fun a b => (EA a b : EReal)) (fun a b => (W1m a b : EReal)) (fun a => (b1m a : EReal))
        (fun a b => (W1a a b : EReal)) (fun a => (b1a a : EReal)) n j) 0)
      = fun n j => ((max (R1 n j) 0 : ℝ) : EReal) := by
    funext n j
    rw [hR1, ← EReal.coe_zero]
    exact (EReal.coe_strictMono.monotone.map_max).symm
  obtain ⟨h2, -⟩ := layer_eq ρs dI (fun n j => max (R1 n j) 0) EA W2m b2m W2a b2a
  funext e o
  unfold kerOut refOut refRead
  rw [kerAC_eq, kerAC_eq, readout_eq, h1, hH1, h2]

end Cert.Sage

end
-- ==== Proof.Finite.lean ====
/-
  The precondition read: every float input holds real numbers.

  The precondition is the conjunction, over the twelve float inputs, of "every entry's absolute value is below +∞".
  At the extended reals an entry whose absolute value is below +∞ is neither infinity, so it is the coercion of a real.
-/
import proofs.«402061_j76029511073825_3_alg».proof.Pre_finite_inputs
import proofs.«402061_j76029511073825_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Cert.Pre_finite_inputs Idealize.ShloMosaic

/-- The word `0x7F800000` (sign 0, exponent all ones, fraction 0) denotes `+∞`. -/
private theorem posInf_eq_top : Ideal.ofBits .f32 0x7F800000#32 = (⊤ : EReal) := by
  simp [Ideal.ofBits, Ideal.ieee]

/-- An extended real whose absolute value `max a (-a)` is strictly below `+∞` is neither infinity: it is a real. -/
private theorem real_of_abs_lt_top (a : EReal) (h : Ideal.cmp .olt (max a (-a)) ⊤ = 1#1) :
    ∃ r : ℝ, a = (r : EReal) := by
  induction a using EReal.rec with
  | bot => simp [Ideal.cmp] at h
  | top => simp [Ideal.cmp] at h
  | coe r => exact ⟨r, rfl⟩

/-- A rank-0 result has one index. -/
private instance subsingleton_S_ : Subsingleton S_.Idx := ⟨fun a b => funext fun d => d.elim0⟩

/-- One input's conjunct, at any shape: if the conjunction over all entries of `|x| < +∞` holds, every entry of `x` is a
    real. The conjunction over all axes that came out true had a true at every entry; there the comparison is
    `max (x i) (-(x i)) < ⊤`. -/
private theorem reals_of_all_lt {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
        (cmpf .olt (Host.absf x) (broadcastInDim s ![] hb (constant (F := Ideal) S_ .f32 0x7F800000#32))) init hr hu j = 1#1)
    (i : s.Idx) : ∃ r : ℝ, x i = (r : EReal) := by
  have h1 := Host.reduce_andi_all _ init hr hu j e i
  apply real_of_abs_lt_top
  rw [← posInf_eq_top]
  exact h1

/-- Where the precondition holds, every entry of every float input is the coercion of a real. -/
theorem reals_of_pre [Cert.Pre_finite_inputs.Facts] (x0 : FVec Ideal S100000x64 .f32) (x1 : FVec Ideal S1600000x32 .f32) (x2 : FVec Ideal S64x96 .f32) (x3 : FVec Ideal S64 .f32) (x4 : FVec Ideal S64x128 .f32) (x5 : FVec Ideal S64 .f32) (x6 : FVec Ideal S64x96 .f32) (x7 : FVec Ideal S64 .f32) (x8 : FVec Ideal S64x128 .f32) (x9 : FVec Ideal S64 .f32) (x10 : FVec Ideal S2x128 .f32) (x11 : FVec Ideal S2 .f32) (x12 : IVec S2x1600000 32)
    (h : Cert.Pre_finite_inputs.fn (F := Ideal) x0 x1 x2 x3 x4 x5 x6 x7 x8 x9 x10 x11 x12 = fun _ => 1#1) :
    (∀ i, ∃ r : ℝ, x0 i = (r : EReal))
      ∧ (∀ i, ∃ r : ℝ, x1 i = (r : EReal))
      ∧ (∀ i, ∃ r : ℝ, x2 i = (r : EReal))
      ∧ (∀ i, ∃ r : ℝ, x3 i = (r : EReal))
      ∧ (∀ i, ∃ r : ℝ, x4 i = (r : EReal))
      ∧ (∀ i, ∃ r : ℝ, x5 i = (r : EReal))
      ∧ (∀ i, ∃ r : ℝ, x6 i = (r : EReal))
      ∧ (∀ i, ∃ r : ℝ, x7 i = (r : EReal))
      ∧ (∀ i, ∃ r : ℝ, x8 i = (r : EReal))
      ∧ (∀ i, ∃ r : ℝ, x9 i = (r : EReal))
      ∧ (∀ i, ∃ r : ℝ, x10 i = (r : EReal))
      ∧ (∀ i, ∃ r : ℝ, x11 i = (r : EReal)) := by
  -- the predicate at its one index: a twelvefold `and` of the per-input conjunctions, each of which is then true
  have h0 := congrFun h ValueIdx.ix0
  dsimp only [fn, fn_part1, fn_part2, fn_part3] at h0
  simp only [andi, IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨reals_of_all_lt x0 _ _ _ _ _ e0, reals_of_all_lt x1 _ _ _ _ _ e1, reals_of_all_lt x2 _ _ _ _ _ e2,
    reals_of_all_lt x3 _ _ _ _ _ e3, reals_of_all_lt x4 _ _ _ _ _ e4, reals_of_all_lt x5 _ _ _ _ _ e5,
    reals_of_all_lt x6 _ _ _ _ _ e6, reals_of_all_lt x7 _ _ _ _ _ e7, reals_of_all_lt x8 _ _ _ _ _ e8,
    reals_of_all_lt x9 _ _ _ _ _ e9, reals_of_all_lt x10 _ _ _ _ _ e10, reals_of_all_lt x11 _ _ _ _ _ e11⟩

end Cert.Finite

end
-- ==== Proof.lean ====
/-
  THE CERTIFICATE: a two-layer message-passing network with a linear edge read-out, computed by two node-tiled
  kernels over per-destination sums that the host prepares, against the plain formulation that forms every edge's
  message, sums the messages per destination, and reads every edge out from its two endpoint rows joined.

  Over the reals the two agree by linearity. A finite sum commutes with a linear map, so summing the gathered source
  rows and the edge rows per destination first and mapping the sums is summing the mapped rows; the message bias, summed
  over the `cnt n` edges sent to node `n`, is `cnt n` times itself, and divided by `max (cnt n) 1` it is the bias where
  `cnt n ≥ 1` and zero where no edge arrives; a map of a joined row is the sum of the two halves' maps; and the read-out,
  linear in the two endpoint rows, may be applied to every node row once and gathered afterwards. Every float input is
  finite, so every value met is real and the extended reals' arithmetic is the reals'. Format changes are the identity at
  the extended reals, and the order of a sum does not matter.

  Both kernel programs' frames are their generated frame certificates; the reference's frame is its generated run with
  the result dropped; no operation was rewritten by the idealization, so there is nothing to preserve. For the value, the
  kernel program's run is read with its result buffer at the last boundary's contents, those contents are read back
  through the two calls and the three host stretches to the factored form of the inputs, the reference's run is read
  stage by stage to the direct form, and the two forms are equal.
-/
import proofs.«402061_j76029511073825_3_alg».proof.Defs
import proofs.«402061_j76029511073825_3_alg».proof.Proof.Gen.Kernel
import proofs.«402061_j76029511073825_3_alg».proof.Proof.Gen.Kernel.Skeleton
import proofs.«402061_j76029511073825_3_alg».proof.Proof.Gen.Kernel.Launch
import proofs.«402061_j76029511073825_3_alg».proof.Proof.Gen.Kernel.Points
import proofs.«402061_j76029511073825_3_alg».proof.Proof.Gen.Kernel.Frame
import proofs.«402061_j76029511073825_3_alg».proof.Proof.Gen.KernelIdeal
import proofs.«402061_j76029511073825_3_alg».proof.Proof.Gen.KernelIdeal.Skeleton
import proofs.«402061_j76029511073825_3_alg».proof.Proof.Gen.KernelIdeal.Launch
import proofs.«402061_j76029511073825_3_alg».proof.Proof.Gen.KernelIdeal.Points
import proofs.«402061_j76029511073825_3_alg».proof.Proof.Gen.KernelIdeal.Frame
import proofs.«402061_j76029511073825_3_alg».proof.Proof.Gen.ReferenceIdeal
import proofs.«402061_j76029511073825_3_alg».proof.Proof.Gen.Pre_finite_inputs
import proofs.«402061_j76029511073825_3_alg».proof.Proof.RunPatched
import proofs.«402061_j76029511073825_3_alg».proof.Proof.ReadPatched
import proofs.«402061_j76029511073825_3_alg».proof.Proof.KernelRun
import proofs.«402061_j76029511073825_3_alg».proof.Proof.KernelValue
import proofs.«402061_j76029511073825_3_alg».proof.Proof.RefValue
import proofs.«402061_j76029511073825_3_alg».proof.Proof.AlgFinal
import proofs.«402061_j76029511073825_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two results, entry by entry: the factored form and the direct form of inputs that are all real. -/
theorem results_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      = Cert.KernelIdeal.Gen.W5 (F := Ideal) m ρ c (Proc.devRef .tc Cert.KernelIdeal.main_v101) := by
  obtain ⟨p0, p1, p2, p3, p4, p5, p6, p7, p8, p9, p10, p11⟩ := Cert.Finite.reals_of_pre _ _ _ _ _ _ _ _ _ _ _ _ _ (hpre c)
  choose r0 h0 using p0
  choose r1 h1 using p1
  choose r2 h2 using p2
  choose r3 h3 using p3
  choose r4 h4 using p4
  choose r5 h5 using p5
  choose r6 h6 using p6
  choose r7 h7 using p7
  choose r8 h8 using p8
  choose r9 h9 using p9
  choose r10 h10 using p10
  choose r11 h11 using p11
  have e0 : Sage.mat (r := 100000) (c := 64) (m ((c.tc : Thread Cert.KernelIdeal.nD Cert.KernelIdeal.τ).loc Cert.KernelIdeal.main_arg0)) = fun a b => ((r0 (ix2 a b) : ℝ) : EReal) :=
    funext fun a => funext fun b => h0 (ix2 a b)
  have e1 : Sage.mat (r := 1600000) (c := 32) (m ((c.tc : Thread Cert.KernelIdeal.nD Cert.KernelIdeal.τ).loc Cert.KernelIdeal.main_arg1)) = fun a b => ((r1 (ix2 a b) : ℝ) : EReal) :=
    funext fun a => funext fun b => h1 (ix2 a b)
  have e2 : Sage.mat (r := 64) (c := 96) (m ((c.tc : Thread Cert.KernelIdeal.nD Cert.KernelIdeal.τ).loc Cert.KernelIdeal.main_arg2)) = fun a b => ((r2 (ix2 a b) : ℝ) : EReal) :=
    funext fun a => funext fun b => h2 (ix2 a b)
  have e3 : Sage.vec (r := 64) (m ((c.tc : Thread Cert.KernelIdeal.nD Cert.KernelIdeal.τ).loc Cert.KernelIdeal.main_arg3)) = fun a => ((r3 (ix1 a) : ℝ) : EReal) :=
    funext fun a => h3 (ix1 a)
  have e4 : Sage.mat (r := 64) (c := 128) (m ((c.tc : Thread Cert.KernelIdeal.nD Cert.KernelIdeal.τ).loc Cert.KernelIdeal.main_arg4)) = fun a b => ((r4 (ix2 a b) : ℝ) : EReal) :=
    funext fun a => funext fun b => h4 (ix2 a b)
  have e5 : Sage.vec (r := 64) (m ((c.tc : Thread Cert.KernelIdeal.nD Cert.KernelIdeal.τ).loc Cert.KernelIdeal.main_arg5)) = fun a => ((r5 (ix1 a) : ℝ) : EReal) :=
    funext fun a => h5 (ix1 a)
  have e6 : Sage.mat (r := 64) (c := 96) (m ((c.tc : Thread Cert.KernelIdeal.nD Cert.KernelIdeal.τ).loc Cert.KernelIdeal.main_arg6)) = fun a b => ((r6 (ix2 a b) : ℝ) : EReal) :=
    funext fun a => funext fun b => h6 (ix2 a b)
  have e7 : Sage.vec (r := 64) (m ((c.tc : Thread Cert.KernelIdeal.nD Cert.KernelIdeal.τ).loc Cert.KernelIdeal.main_arg7)) = fun a => ((r7 (ix1 a) : ℝ) : EReal) :=
    funext fun a => h7 (ix1 a)
  have e8 : Sage.mat (r := 64) (c := 128) (m ((c.tc : Thread Cert.KernelIdeal.nD Cert.KernelIdeal.τ).loc Cert.KernelIdeal.main_arg8)) = fun a b => ((r8 (ix2 a b) : ℝ) : EReal) :=
    funext fun a => funext fun b => h8 (ix2 a b)
  have e9 : Sage.vec (r := 64) (m ((c.tc : Thread Cert.KernelIdeal.nD Cert.KernelIdeal.τ).loc Cert.KernelIdeal.main_arg9)) = fun a => ((r9 (ix1 a) : ℝ) : EReal) :=
    funext fun a => h9 (ix1 a)
  have e10 : Sage.mat (r := 2) (c := 128) (m ((c.tc : Thread Cert.KernelIdeal.nD Cert.KernelIdeal.τ).loc Cert.KernelIdeal.main_arg10)) = fun a b => ((r10 (ix2 a b) : ℝ) : EReal) :=
    funext fun a => funext fun b => h10 (ix2 a b)
  have e11 : Sage.vec (r := 2) (m ((c.tc : Thread Cert.KernelIdeal.nD Cert.KernelIdeal.τ).loc Cert.KernelIdeal.main_arg11)) = fun a => ((r11 (ix1 a) : ℝ) : EReal) :=
    funext fun a => h11 (ix1 a)
  funext i
  obtain ⟨e, o, rfl⟩ : ∃ (e : Fin 1600000) (o : Fin 2), i = ix2 e o := ⟨i 0, i 1, eq_ix2 i⟩
  have hk := Cert.KernelIdeal.Value.kernel_value m ρ c e o
  have hr := Cert.ReferenceIdeal.RefValue.ref_value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) e o
  unfold Cert.KernelIdeal.In.rs Cert.KernelIdeal.In.rd Cert.KernelIdeal.In.dI Cert.KernelIdeal.In.ei Cert.KernelIdeal.In.X Cert.KernelIdeal.In.EA Cert.KernelIdeal.In.W1m Cert.KernelIdeal.In.b1m Cert.KernelIdeal.In.W1a Cert.KernelIdeal.In.b1a
    Cert.KernelIdeal.In.W2m Cert.KernelIdeal.In.b2m Cert.KernelIdeal.In.W2a Cert.KernelIdeal.In.b2a Cert.KernelIdeal.In.Wp Cert.KernelIdeal.In.bp at hk
  rw [e0, e1, e2, e3, e4, e5, e6, e7, e8, e9, e10, e11] at hk hr
  rw [Cert.Sage.kerOut_eq_refOut] at hk
  exact hr.trans hk.symm

theorem algebraic : Cert.algebraic_KernelIdeal_ReferenceIdeal := by
  intro m ρ m' ρ' hpre hagree
  refine ⟨fun c => Cert.KernelIdeal.Gen.W5 (F := Ideal) m ρ c (Proc.devRef .tc Cert.KernelIdeal.main_v101), Cert.KernelIdeal.Run.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq]
  obtain ⟨a0, a1, a2, a3, a4, a5, a6, a7, a8, a9, a10, a11, a12⟩ := hagree c
  rw [a0, a1, a2, a3, a4, a5, a6, a7, a8, a9, a10, a11, a12]
  exact results_eq m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
